-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128x1 : Shape := ⟨5, ![8, 128, 128, 128, 1]⟩
abbrev S8x128x3 : Shape := ⟨3, ![8, 128, 3]⟩
abbrev S_ : Shape := ⟨0, ![]⟩

class Facts : Prop where
  bcast_S_S8x128x128x128x1 : S_.BroadcastsInDim S8x128x128x128x1 (![] : Fin 0 → Fin S8x128x128x128x1.rank)
  reducesTo_S8x128x128x128x1_S_d0_1_2_3_4 : S8x128x128x128x1.ReducesTo [0, 1, 2, 3, 4] S_
  h_S_ : 0 < S_.numel
  bcast_S_S8x128x3 : S_.BroadcastsInDim S8x128x3 (![] : Fin 0 → Fin S8x128x3.rank)
  reducesTo_S8x128x3_S_d0_1_2 : S8x128x3.ReducesTo [0, 1, 2] S_

variable [Facts]

def fn {F : FTy → Type} [FloatOps F] (main_arg0 : FVec F S8x128x128x128x1 .f32) (main_arg1 : IVec S8x128x3 32) : IVec S_ 1 :=
  let main_v0 : FVec F S8x128x128x128x1 .f32 := Host.absf main_arg0
  let main_cst : FVec F S_ .f32 := constant S_ .f32 0x7F800000#32
  let main_v1 : FVec F S8x128x128x128x1 .f32 := broadcastInDim S8x128x128x128x1 ![] bcast_S_S8x128x128x128x1 main_cst
  let main_v2 : IVec S8x128x128x128x1 1 := cmpf .olt main_v0 main_v1
  let main_c : IVec S_ 1 := constantI S_ 1 1#1
  let main_v3 : IVec S_ 1 := (fun x v => Host.reduce IntOp.andi x v reducesTo_S8x128x128x128x1_S_d0_1_2_3_4 h_S_) main_v2 main_c
  let main_c_0 : IVec S_ 32 := constantI S_ 32 0#32
  let main_v4 : IVec S8x128x3 32 := broadcastInDim S8x128x3 ![] bcast_S_S8x128x3 main_c_0
  let main_v5 : IVec S8x128x3 1 := cmpi .sge main_arg1 main_v4
  let main_c_1 : IVec S_ 32 := constantI S_ 32 96#32
  let main_v6 : IVec S8x128x3 32 := broadcastInDim S8x128x3 ![] bcast_S_S8x128x3 main_c_1
  let main_v7 : IVec S8x128x3 1 := cmpi .sle main_arg1 main_v6
  let main_v8 : IVec S8x128x3 1 := andi main_v5 main_v7
  let main_c_2 : IVec S_ 1 := constantI S_ 1 1#1
  let main_v9 : IVec S_ 1 := (fun x v => Host.reduce IntOp.andi x v reducesTo_S8x128x3_S_d0_1_2 h_S_) main_v8 main_c_2
  let main_v10 : IVec S_ 1 := andi main_v3 main_v9
  main_v10
-- ==== Kernel.lean ====
abbrev S8x128x128x128x1 : Shape := ⟨5, ![8, 128, 128, 128, 1]⟩
abbrev S8x128x3 : Shape := ⟨3, ![8, 128, 3]⟩
abbrev S8x128x32x32x32x1 : Shape := ⟨6, ![8, 128, 32, 32, 32, 1]⟩
abbrev S1x128x128x128x1 : Shape := ⟨5, ![1, 128, 128, 128, 1]⟩
abbrev S1x32x32x32x32x1 : Shape := ⟨6, ![1, 32, 32, 32, 32, 1]⟩
abbrev S1x1x1 : Shape := ⟨3, ![1, 1, 1]⟩
abbrev S1x32x32x32x1 : Shape := ⟨5, ![1, 32, 32, 32, 1]⟩
abbrev S32x32x32x1 : Shape := ⟨4, ![32, 32, 32, 1]⟩
abbrev S1x1x32x32x32x1 : Shape := ⟨6, ![1, 1, 32, 32, 32, 1]⟩

abbrev nBuf : Space → Nat
  | .hbm => 2
  | .vmem => 4
  | .smem => 1
  | _ => 0

abbrev bufTy : (tb : Table) → Fin (tcTables nBuf tb) → BufTy
  | .hbm, ⟨0, _⟩ => ⟨S8x128x128x128x1, .f32⟩
  | .hbm, ⟨1, _⟩ => ⟨S8x128x32x32x32x1, .f32⟩
  | .local _ .vmem, ⟨0, _⟩ => ⟨S1x128x128x128x1, .f32⟩
  | .local _ .vmem, ⟨1, _⟩ => ⟨S1x128x128x128x1, .f32⟩
  | .local _ .vmem, ⟨2, _⟩ => ⟨S1x32x32x32x32x1, .f32⟩
  | .local _ .vmem, ⟨3, _⟩ => ⟨S1x32x32x32x32x1, .f32⟩
  | .local _ .smem, ⟨0, _⟩ => ⟨S8x128x3, .i32⟩
  | _, _ => ⟨S8x128x128x128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v2 : Index := Scalar.indexCast arg0
  let arg1 : BitVec 32 := BitVec.ofNat 32 (i 1).val
  let c32_i32 : BitVec 32 := 32#32
  let v0 : BitVec 32 := Scalar.muli arg1 c32_i32
  let c0_i32 : BitVec 32 := 0#32
  let v1 : BitVec 32 := Scalar.addi v0 c0_i32
  let v3 : Index := Scalar.indexCast v1
  let c0 : Index := 0#32
  ![v2.toNat, v3.toNat, 0]
def k0_off2 (i : grid0.Coords) : Fin 3 → Nat :=
  let arg0 : BitVec 32 := BitVec.ofNat 32 (i 0).val
  let v5 : Index := Scalar.indexCast arg0
  let arg1 : BitVec 32 := BitVec.ofNat 32 (i 1).val
  let c32_i32 : BitVec 32 := 32#32
  let v0 : BitVec 32 := Scalar.muli arg1 c32_i32
  let c0_i32 : BitVec 32 := 0#32
  let v1 : BitVec 32 := Scalar.addi v0 c0_i32
  let v6 : Index := Scalar.indexCast v1
  let c1 : Index := 1#32
  ![v5.toNat, v6.toNat, 1]
def k0_off3 (i : grid0.Coords) : Fin 3 → Nat :=
  let arg0 : BitVec 32 := BitVec.ofNat 32 (i 0).val
  let v8 : Index := Scalar.indexCast arg0
  let arg1 : BitVec 32 := BitVec.ofNat 32 (i 1).val
  let c32_i32 : BitVec 32 := 32#32
  let v0 : BitVec 32 := Scalar.muli arg1 c32_i32
  let c0_i32 : BitVec 32 := 0#32
  let v1 : BitVec 32 := Scalar.addi v0 c0_i32
  let v9 : Index := Scalar.indexCast v1
  let c2 : Index := 2#32
  ![v8.toNat, v9.toNat, 2]
def k0_off4 (v4 : BitVec 32) (v7 : BitVec 32) (v10 : BitVec 32) : Fin 5 → Nat :=
  let c0_0 : Index := 0#32
  let v11 : Index := Scalar.indexCast v4
  let v12 : Index := Scalar.indexCast v7
  let v13 : Index := Scalar.indexCast v10
  let c0_1 : Index := 0#32
  ![0, v11.toNat, v12.toNat, v13.toNat, 0]

def k0_chk1 (v4 : BitVec 32) (v7 : BitVec 32) (v10 : BitVec 32) : Prop :=
  (∀ a, (k0_off4 v4 v7 v10) a + S1x32x32x32x1.size a ≤ S1x128x128x128x1.size a)
instance k0_chk1.dec : ∀ (v4 : BitVec 32) (v7 : BitVec 32) (v10 : BitVec 32), Decidable (k0_chk1 v4 v7 v10) := fun v4 v7 v10 => decidable_of_iff' _ (Iff.of_eq (k0_chk1.eq_1 v4 v7 v10))
theorem k0_off4_inb : ∀ (v4 : BitVec 32) (v7 : BitVec 32) (v10 : BitVec 32) (k0_hw1 : k0_chk1 v4 v7 v10), ∀ a, (k0_off4 v4 v7 v10) a + S1x32x32x32x1.size a ≤ S1x128x128x128x1.size a := fun v4 v7 v10 k0_hw1 => k0_hw1

def k0_off5 (i : grid0.Coords) : Fin 3 → Nat :=
  let arg0 : BitVec 32 := BitVec.ofNat 32 (i 0).val
  let v21 : Index := Scalar.indexCast arg0
  let arg1 : BitVec 32 := BitVec.ofNat 32 (i 1).val
  let c32_i32_8 : BitVec 32 := 32#32
  let v19 : BitVec 32 := Scalar.muli arg1 c32_i32_8
  let c1_i32 : BitVec 32 := 1#32
  let v20 : BitVec 32 := Scalar.addi v19 c1_i32
  let v22 : Index := Scalar.indexCast v20
  let c0_9 : Index := 0#32
  ![v21.toNat, v22.toNat, 0]
def k0_off6 (i : grid0.Coords) : Fin 3 → Nat :=
  let arg0 : BitVec 32 := BitVec.ofNat 32 (i 0).val
  let v24 : Index := Scalar.indexCast arg0
  let arg1 : BitVec 32 := BitVec.ofNat 32 (i 1).val
  let c32_i32_8 : BitVec 32 := 32#32
  let v19 : BitVec 32 := Scalar.muli arg1 c32_i32_8
  let c1_i32 : BitVec 32 := 1#32
  let v20 : BitVec 32 := Scalar.addi v19 c1_i32
  let v25 : Index := Scalar.indexCast v20
  let c1_10 : Index := 1#32
  ![v24.toNat, v25.toNat, 1]
def k0_off7 (i : grid0.Coords) : Fin 3 → Nat :=
  let arg0 : BitVec 32 := BitVec.ofNat 32 (i 0).val
  let v27 : Index := Scalar.indexCast arg0
  let arg1 : BitVec 32 := BitVec.ofNat 32 (i 1).val
  let c32_i32_8 : BitVec 32 := 32#32
  let v19 : BitVec 32 := Scalar.muli arg1 c32_i32_8
  let c1_i32 : BitVec 32 := 1#32
  let v20 : BitVec 32 := Scalar.addi v19 c1_i32
  let v28 : Index := Scalar.indexCast v20
  let c2_11 : Index := 2#32
  ![v27.toNat, v28.toNat, 2]
def k0_off8 (v23 : BitVec 32) (v26 : BitVec 32) (v29 : BitVec 32) : Fin 5 → Nat :=
  let c0_12 : Index := 0#32
  let v30 : Index := Scalar.indexCast v23
  let v31 : Index := Scalar.indexCast v26
  let v32 : Index := Scalar.indexCast v29
  let c0_13 : Index := 0#32
  ![0, v30.toNat, v31.toNat, v32.toNat, 0]

def k0_chk2 (v23 : BitVec 32) (v26 : BitVec 32) (v29 : BitVec 32) : Prop :=
  (∀ a, (k0_off8 v23 v26 v29) a + S1x32x32x32x1.size a ≤ S1x128x128x128x1.size a)
instance k0_chk2.dec : ∀ (v23 : BitVec 32) (v26 : BitVec 32) (v29 : BitVec 32), Decidable (k0_chk2 v23 v26 v29) := fun v23 v26 v29 => decidable_of_iff' _ (Iff.of_eq (k0_chk2.eq_1 v23 v26 v29))
theorem k0_off8_inb : ∀ (v23 : BitVec 32) (v26 : BitVec 32) (v29 : BitVec 32) (k0_hw2 : k0_chk2 v23 v26 v29), ∀ a, (k0_off8 v23 v26 v29) a + S1x32x32x32x1.size a ≤ S1x128x128x128x1.size a := fun v23 v26 v29 k0_hw2 => k0_hw2

def k0_off9 (i : grid0.Coords) : Fin 3 → Nat :=
  let arg0 : BitVec 32 := BitVec.ofNat 32 (i 0).val
  let v40 : Index := Scalar.indexCast arg0
  let arg1 : BitVec 32 := BitVec.ofNat 32 (i 1).val
  let c32_i32_20 : BitVec 32 := 32#32
  let v38 : BitVec 32 := Scalar.muli arg1 c32_i32_20
  let c2_i32 : BitVec 32 := 2#32
  let v39 : BitVec 32 := Scalar.addi v38 c2_i32
  let v41 : Index := Scalar.indexCast v39
  let c0_21 : Index := 0#32
  ![v40.toNat, v41.toNat, 0]
def k0_off10 (i : grid0.Coords) : Fin 3 → Nat :=
  let arg0 : BitVec 32 := BitVec.ofNat 32 (i 0).val
  let v43 : Index := Scalar.indexCast arg0
  let arg1 : BitVec 32 := BitVec.ofNat 32 (i 1).val
  let c32_i32_20 : BitVec 32 := 32#32
  let v38 : BitVec 32 := Scalar.muli arg1 c32_i32_20
  let c2_i32 : BitVec 32 := 2#32
  let v39 : BitVec 32 := Scalar.addi v38 c2_i32
  let v44 : Index := Scalar.indexCast v39
  let c1_22 : Index := 1#32
  ![v43.toNat, v44.toNat, 1]
def k0_off11 (i : grid0.Coords) : Fin 3 → Nat :=
  let arg0 : BitVec 32 := BitVec.ofNat 32 (i 0).val
  let v46 : Index := Scalar.indexCast arg0
  let arg1 : BitVec 32 := BitVec.ofNat 32 (i 1).val
  let c32_i32_20 : BitVec 32 := 32#32
  let v38 : BitVec 32 := Scalar.muli arg1 c32_i32_20
  let c2_i32 : BitVec 32 := 2#32
  let v39 : BitVec 32 := Scalar.addi v38 c2_i32
  let v47 : Index := Scalar.indexCast v39
  let c2_23 : Index := 2#32
  ![v46.toNat, v47.toNat, 2]
def k0_off12 (v42 : BitVec 32) (v45 : BitVec 32) (v48 : BitVec 32) : Fin 5 → Nat :=
  let c0_24 : Index := 0#32
  let v49 : Index := Scalar.indexCast v42
  let v50 : Index := Scalar.indexCast v45
  let v51 : Index := Scalar.indexCast v48
  let c0_25 : Index := 0#32
  ![0, v49.toNat, v50.toNat, v51.toNat, 0]

def k0_chk3 (v42 : BitVec 32) (v45 : BitVec 32) (v48 : BitVec 32) : Prop :=
  (∀ a, (k0_off12 v42 v45 v48) a + S1x32x32x32x1.size a ≤ S1x128x128x128x1.size a)
instance k0_chk3.dec : ∀ (v42 : BitVec 32) (v45 : BitVec 32) (v48 : BitVec 32), Decidable (k0_chk3 v42 v45 v48) := fun v42 v45 v48 => decidable_of_iff' _ (Iff.of_eq (k0_chk3.eq_1 v42 v45 v48))
theorem k0_off12_inb : ∀ (v42 : BitVec 32) (v45 : BitVec 32) (v48 : BitVec 32) (k0_hw3 : k0_chk3 v42 v45 v48), ∀ a, (k0_off12 v42 v45 v48) a + S1x32x32x32x1.size a ≤ S1x128x128x128x1.size a := fun v42 v45 v48 k0_hw3 => k0_hw3

def k0_off13 (i : grid0.Coords) : Fin 3 → Nat :=
  let arg0 : BitVec 32 := BitVec.ofNat 32 (i 0).val
  let v59 : Index := Scalar.indexCast arg0
  let arg1 : BitVec 32 := BitVec.ofNat 32 (i 1).val
  let c32_i32_32 : BitVec 32 := 32#32
  let v57 : BitVec 32 := Scalar.muli arg1 c32_i32_32
  let c3_i32 : BitVec 32 := 3#32
  let v58 : BitVec 32 := Scalar.addi v57 c3_i32
  let v60 : Index := Scalar.indexCast v58
  let c0_33 : Index := 0#32
  ![v59.toNat, v60.toNat, 0]
def k0_off14 (i : grid0.Coords) : Fin 3 → Nat :=
  let arg0 : BitVec 32 := BitVec.ofNat 32 (i 0).val
  let v62 : Index := Scalar.indexCast arg0
  let arg1 : BitVec 32 := BitVec.ofNat 32 (i 1).val
  let c32_i32_32 : BitVec 32 := 32#32
  let v57 : BitVec 32 := Scalar.muli arg1 c32_i32_32
  let c3_i32 : BitVec 32 := 3#32
  let v58 : BitVec 32 := Scalar.addi v57 c3_i32
  let v63 : Index := Scalar.indexCast v58
  let c1_34 : Index := 1#32
  ![v62.toNat, v63.toNat, 1]
def k0_off15 (i : grid0.Coords) : Fin 3 → Nat :=
  let arg0 : BitVec 32 := BitVec.ofNat 32 (i 0).val
  let v65 : Index := Scalar.indexCast arg0
  let arg1 : BitVec 32 := BitVec.ofNat 32 (i 1).val
  let c32_i32_32 : BitVec 32 := 32#32
  let v57 : BitVec 32 := Scalar.muli arg1 c32_i32_32
  let c3_i32 : BitVec 32 := 3#32
  let v58 : BitVec 32 := Scalar.addi v57 c3_i32
  let v66 : Index := Scalar.indexCast v58
  let c2_35 : Index := 2#32
  ![v65.toNat, v66.toNat, 2]
def k0_off16 (v61 : BitVec 32) (v64 : BitVec 32) (v67 : BitVec 32) : Fin 5 → Nat :=
  let c0_36 : Index := 0#32
  let v68 : Index := Scalar.indexCast v61
  let v69 : Index := Scalar.indexCast v64
  let v70 : Index := Scalar.indexCast v67
  let c0_37 : Index := 0#32
  ![0, v68.toNat, v69.toNat, v70.toNat, 0]

def k0_chk4 (v61 : BitVec 32) (v64 : BitVec 32) (v67 : BitVec 32) : Prop :=
  (∀ a, (k0_off16 v61 v64 v67) a + S1x32x32x32x1.size a ≤ S1x128x128x128x1.size a)
instance k0_chk4.dec : ∀ (v61 : BitVec 32) (v64 : BitVec 32) (v67 : BitVec 32), Decidable (k0_chk4 v61 v64 v67) := fun v61 v64 v67 => decidable_of_iff' _ (Iff.of_eq (k0_chk4.eq_1 v61 v64 v67))
theorem k0_off16_inb : ∀ (v61 : BitVec 32) (v64 : BitVec 32) (v67 : BitVec 32) (k0_hw4 : k0_chk4 v61 v64 v67), ∀ a, (k0_off16 v61 v64 v67) a + S1x32x32x32x1.size a ≤ S1x128x128x128x1.size a := fun v61 v64 v67 k0_hw4 => k0_hw4

def k0_off17 (i : grid0.Coords) : Fin 3 → Nat :=
  let arg0 : BitVec 32 := BitVec.ofNat 32 (i 0).val
  let v78 : Index := Scalar.indexCast arg0
  let arg1 : BitVec 32 := BitVec.ofNat 32 (i 1).val
  let c32_i32_43 : BitVec 32 := 32#32
  let v76 : BitVec 32 := Scalar.muli arg1 c32_i32_43
  let c4_i32 : BitVec 32 := 4#32
  let v77 : BitVec 32 := Scalar.addi v76 c4_i32
  let v79 : Index := Scalar.indexCast v77
  let c0_44 : Index := 0#32
  ![v78.toNat, v79.toNat, 0]
def k0_off18 (i : grid0.Coords) : Fin 3 → Nat :=
  let arg0 : BitVec 32 := BitVec.ofNat 32 (i 0).val
  let v81 : Index := Scalar.indexCast arg0
  let arg1 : BitVec 32 := BitVec.ofNat 32 (i 1).val
  let c32_i32_43 : BitVec 32 := 32#32
  let v76 : BitVec 32 := Scalar.muli arg1 c32_i32_43
  let c4_i32 : BitVec 32 := 4#32
  let v77 : BitVec 32 := Scalar.addi v76 c4_i32
  let v82 : Index := Scalar.indexCast v77
  let c1_45 : Index := 1#32
  ![v81.toNat, v82.toNat, 1]
def k0_off19 (i : grid0.Coords) : Fin 3 → Nat :=
  let arg0 : BitVec 32 := BitVec.ofNat 32 (i 0).val
  let v84 : Index := Scalar.indexCast arg0
  let arg1 : BitVec 32 := BitVec.ofNat 32 (i 1).val
  let c32_i32_43 : BitVec 32 := 32#32
  let v76 : BitVec 32 := Scalar.muli arg1 c32_i32_43
  let c4_i32 : BitVec 32 := 4#32
  let v77 : BitVec 32 := Scalar.addi v76 c4_i32
  let v85 : Index := Scalar.indexCast v77
  let c2_46 : Index := 2#32
  ![v84.toNat, v85.toNat, 2]
def k0_off20 (v80 : BitVec 32) (v83 : BitVec 32) (v86 : BitVec 32) : Fin 5 → Nat :=
  let c0_47 : Index := 0#32
  let v87 : Index := Scalar.indexCast v80
  let v88 : Index := Scalar.indexCast v83
  let v89 : Index := Scalar.indexCast v86
  let c0_48 : Index := 0#32
  ![0, v87.toNat, v88.toNat, v89.toNat, 0]

def k0_chk5 (v80 : BitVec 32) (v83 : BitVec 32) (v86 : BitVec 32) : Prop :=
  (∀ a, (k0_off20 v80 v83 v86) a + S1x32x32x32x1.size a ≤ S1x128x128x128x1.size a)
instance k0_chk5.dec : ∀ (v80 : BitVec 32) (v83 : BitVec 32) (v86 : BitVec 32), Decidable (k0_chk5 v80 v83 v86) := fun v80 v83 v86 => decidable_of_iff' _ (Iff.of_eq (k0_chk5.eq_1 v80 v83 v86))
theorem k0_off20_inb : ∀ (v80 : BitVec 32) (v83 : BitVec 32) (v86 : BitVec 32) (k0_hw5 : k0_chk5 v80 v83 v86), ∀ a, (k0_off20 v80 v83 v86) a + S1x32x32x32x1.size a ≤ S1x128x128x128x1.size a := fun v80 v83 v86 k0_hw5 => k0_hw5

def k0_off21 (i : grid0.Coords) : Fin 3 → Nat :=
  let arg0 : BitVec 32 := BitVec.ofNat 32 (i 0).val
  let v97 : Index := Scalar.indexCast arg0
  let arg1 : BitVec 32 := BitVec.ofNat 32 (i 1).val
  let c32_i32_54 : BitVec 32 := 32#32
  let v95 : BitVec 32 := Scalar.muli arg1 c32_i32_54
  let c5_i32 : BitVec 32 := 5#32
  let v96 : BitVec 32 := Scalar.addi v95 c5_i32
  let v98 : Index := Scalar.indexCast v96
  let c0_55 : Index := 0#32
  ![v97.toNat, v98.toNat, 0]
def k0_off22 (i : grid0.Coords) : Fin 3 → Nat :=
  let arg0 : BitVec 32 := BitVec.ofNat 32 (i 0).val
  let v100 : Index := Scalar.indexCast arg0
  let arg1 : BitVec 32 := BitVec.ofNat 32 (i 1).val
  let c32_i32_54 : BitVec 32 := 32#32
  let v95 : BitVec 32 := Scalar.muli arg1 c32_i32_54
  let c5_i32 : BitVec 32 := 5#32
  let v96 : BitVec 32 := Scalar.addi v95 c5_i32
  let v101 : Index := Scalar.indexCast v96
  let c1_56 : Index := 1#32
  ![v100.toNat, v101.toNat, 1]
def k0_off23 (i : grid0.Coords) : Fin 3 → Nat :=
  let arg0 : BitVec 32 := BitVec.ofNat 32 (i 0).val
  let v103 : Index := Scalar.indexCast arg0
  let arg1 : BitVec 32 := BitVec.ofNat 32 (i 1).val
  let c32_i32_54 : BitVec 32 := 32#32
  let v95 : BitVec 32 := Scalar.muli arg1 c32_i32_54
  let c5_i32 : BitVec 32 := 5#32
  let v96 : BitVec 32 := Scalar.addi v95 c5_i32
  let v104 : Index := Scalar.indexCast v96
  let c2_57 : Index := 2#32
  ![v103.toNat, v104.toNat, 2]
def k0_off24 (v99 : BitVec 32) (v102 : BitVec 32) (v105 : BitVec 32) : Fin 5 → Nat :=
  let c0_58 : Index := 0#32
  let v106 : Index := Scalar.indexCast v99
  let v107 : Index := Scalar.indexCast v102
  let v108 : Index := Scalar.indexCast v105
  let c0_59 : Index := 0#32
  ![0, v106.toNat, v107.toNat, v108.toNat, 0]

def k0_chk6 (v99 : BitVec 32) (v102 : BitVec 32) (v105 : BitVec 32) : Prop :=
  (∀ a, (k0_off24 v99 v102 v105) a + S1x32x32x32x1.size a ≤ S1x128x128x128x1.size a)
instance k0_chk6.dec : ∀ (v99 : BitVec 32) (v102 : BitVec 32) (v105 : BitVec 32), Decidable (k0_chk6 v99 v102 v105) := fun v99 v102 v105 => decidable_of_iff' _ (Iff.of_eq (k0_chk6.eq_1 v99 v102 v105))
theorem k0_off24_inb : ∀ (v99 : BitVec 32) (v102 : BitVec 32) (v105 : BitVec 32) (k0_hw6 : k0_chk6 v99 v102 v105), ∀ a, (k0_off24 v99 v102 v105) a + S1x32x32x32x1.size a ≤ S1x128x128x128x1.size a := fun v99 v102 v105 k0_hw6 => k0_hw6

def k0_off25 (i : grid0.Coords) : Fin 3 → Nat :=
  let arg0 : BitVec 32 := BitVec.ofNat 32 (i 0).val
  let v116 : Index := Scalar.indexCast arg0
  let arg1 : BitVec 32 := BitVec.ofNat 32 (i 1).val
  let c32_i32_65 : BitVec 32 := 32#32
  let v114 : BitVec 32 := Scalar.muli arg1 c32_i32_65
  let c6_i32 : BitVec 32 := 6#32
  let v115 : BitVec 32 := Scalar.addi v114 c6_i32
  let v117 : Index := Scalar.indexCast v115
  let c0_66 : Index := 0#32
  ![v116.toNat, v117.toNat, 0]
def k0_off26 (i : grid0.Coords) : Fin 3 → Nat :=
  let arg0 : BitVec 32 := BitVec.ofNat 32 (i 0).val
  let v119 : Index := Scalar.indexCast arg0
  let arg1 : BitVec 32 := BitVec.ofNat 32 (i 1).val
  let c32_i32_65 : BitVec 32 := 32#32
  let v114 : BitVec 32 := Scalar.muli arg1 c32_i32_65
  let c6_i32 : BitVec 32 := 6#32
  let v115 : BitVec 32 := Scalar.addi v114 c6_i32
  let v120 : Index := Scalar.indexCast v115
  let c1_67 : Index := 1#32
  ![v119.toNat, v120.toNat, 1]
def k0_off27 (i : grid0.Coords) : Fin 3 → Nat :=
  let arg0 : BitVec 32 := BitVec.ofNat 32 (i 0).val
  let v122 : Index := Scalar.indexCast arg0
  let arg1 : BitVec 32 := BitVec.ofNat 32 (i 1).val
  let c32_i32_65 : BitVec 32 := 32#32
  let v114 : BitVec 32 := Scalar.muli arg1 c32_i32_65
  let c6_i32 : BitVec 32 := 6#32
  let v115 : BitVec 32 := Scalar.addi v114 c6_i32
  let v123 : Index := Scalar.indexCast v115
  let c2_68 : Index := 2#32
  ![v122.toNat, v123.toNat, 2]
def k0_off28 (v118 : BitVec 32) (v121 : BitVec 32) (v124 : BitVec 32) : Fin 5 → Nat :=
  let c0_69 : Index := 0#32
  let v125 : Index := Scalar.indexCast v118
  let v126 : Index := Scalar.indexCast v121
  let v127 : Index := Scalar.indexCast v124
  let c0_70 : Index := 0#32
  ![0, v125.toNat, v126.toNat, v127.toNat, 0]

def k0_chk7 (v118 : BitVec 32) (v121 : BitVec 32) (v124 : BitVec 32) : Prop :=
  (∀ a, (k0_off28 v118 v121 v124) a + S1x32x32x32x1.size a ≤ S1x128x128x128x1.size a)
instance k0_chk7.dec : ∀ (v118 : BitVec 32) (v121 : BitVec 32) (v124 : BitVec 32), Decidable (k0_chk7 v118 v121 v124) := fun v118 v121 v124 => decidable_of_iff' _ (Iff.of_eq (k0_chk7.eq_1 v118 v121 v124))
theorem k0_off28_inb : ∀ (v118 : BitVec 32) (v121 : BitVec 32) (v124 : BitVec 32) (k0_hw7 : k0_chk7 v118 v121 v124), ∀ a, (k0_off28 v118 v121 v124) a + S1x32x32x32x1.size a ≤ S1x128x128x128x1.size a := fun v118 v121 v124 k0_hw7 => k0_hw7

def k0_off29 (i : grid0.Coords) : Fin 3 → Nat :=
  let arg0 : BitVec 32 := BitVec.ofNat 32 (i 0).val
  let v135 : Index := Scalar.indexCast arg0
  let arg1 : BitVec 32 := BitVec.ofNat 32 (i 1).val
  let c32_i32_76 : BitVec 32 := 32#32
  let v133 : BitVec 32 := Scalar.muli arg1 c32_i32_76
  let c7_i32 : BitVec 32 := 7#32
  let v134 : BitVec 32 := Scalar.addi v133 c7_i32
  let v136 : Index := Scalar.indexCast v134
  let c0_77 : Index := 0#32
  ![v135.toNat, v136.toNat, 0]
def k0_off30 (i : grid0.Coords) : Fin 3 → Nat :=
  let arg0 : BitVec 32 := BitVec.ofNat 32 (i 0).val
  let v138 : Index := Scalar.indexCast arg0
  let arg1 : BitVec 32 := BitVec.ofNat 32 (i 1).val
  let c32_i32_76 : BitVec 32 := 32#32
  let v133 : BitVec 32 := Scalar.muli arg1 c32_i32_76
  let c7_i32 : BitVec 32 := 7#32
  let v134 : BitVec 32 := Scalar.addi v133 c7_i32
  let v139 : Index := Scalar.indexCast v134
  let c1_78 : Index := 1#32
  ![v138.toNat, v139.toNat, 1]
def k0_off31 (i : grid0.Coords) : Fin 3 → Nat :=
  let arg0 : BitVec 32 := BitVec.ofNat 32 (i 0).val
  let v141 : Index := Scalar.indexCast arg0
  let arg1 : BitVec 32 := BitVec.ofNat 32 (i 1).val
  let c32_i32_76 : BitVec 32 := 32#32
  let v133 : BitVec 32 := Scalar.muli arg1 c32_i32_76
  let c7_i32 : BitVec 32 := 7#32
  let v134 : BitVec 32 := Scalar.addi v133 c7_i32
  let v142 : Index := Scalar.indexCast v134
  let c2_79 : Index := 2#32
  ![v141.toNat, v142.toNat, 2]
def k0_off32 (v137 : BitVec 32) (v140 : BitVec 32) (v143 : BitVec 32) : Fin 5 → Nat :=
  let c0_80 : Index := 0#32
  let v144 : Index := Scalar.indexCast v137
  let v145 : Index := Scalar.indexCast v140
  let v146 : Index := Scalar.indexCast v143
  let c0_81 : Index := 0#32
  ![0, v144.toNat, v145.toNat, v146.toNat, 0]

def k0_chk8 (v137 : BitVec 32) (v140 : BitVec 32) (v143 : BitVec 32) : Prop :=
  (∀ a, (k0_off32 v137 v140 v143) a + S1x32x32x32x1.size a ≤ S1x128x128x128x1.size a)
instance k0_chk8.dec : ∀ (v137 : BitVec 32) (v140 : BitVec 32) (v143 : BitVec 32), Decidable (k0_chk8 v137 v140 v143) := fun v137 v140 v143 => decidable_of_iff' _ (Iff.of_eq (k0_chk8.eq_1 v137 v140 v143))
theorem k0_off32_inb : ∀ (v137 : BitVec 32) (v140 : BitVec 32) (v143 : BitVec 32) (k0_hw8 : k0_chk8 v137 v140 v143), ∀ a, (k0_off32 v137 v140 v143) a + S1x32x32x32x1.size a ≤ S1x128x128x128x1.size a := fun v137 v140 v143 k0_hw8 => k0_hw8

def k0_off33 (i : grid0.Coords) : Fin 3 → Nat :=
  let arg0 : BitVec 32 := BitVec.ofNat 32 (i 0).val
  let v154 : Index := Scalar.indexCast arg0
  let arg1 : BitVec 32 := BitVec.ofNat 32 (i 1).val
  let c32_i32_87 : BitVec 32 := 32#32
  let v152 : BitVec 32 := Scalar.muli arg1 c32_i32_87
  let c8_i32 : BitVec 32 := 8#32
  let v153 : BitVec 32 := Scalar.addi v152 c8_i32
  let v155 : Index := Scalar.indexCast v153
  let c0_88 : Index := 0#32
  ![v154.toNat, v155.toNat, 0]
def k0_off34 (i : grid0.Coords) : Fin 3 → Nat :=
  let arg0 : BitVec 32 := BitVec.ofNat 32 (i 0).val
  let v157 : Index := Scalar.indexCast arg0
  let arg1 : BitVec 32 := BitVec.ofNat 32 (i 1).val
  let c32_i32_87 : BitVec 32 := 32#32
  let v152 : BitVec 32 := Scalar.muli arg1 c32_i32_87
  let c8_i32 : BitVec 32 := 8#32
  let v153 : BitVec 32 := Scalar.addi v152 c8_i32
  let v158 : Index := Scalar.indexCast v153
  let c1_89 : Index := 1#32
  ![v157.toNat, v158.toNat, 1]
def k0_off35 (i : grid0.Coords) : Fin 3 → Nat :=
  let arg0 : BitVec 32 := BitVec.ofNat 32 (i 0).val
  let v160 : Index := Scalar.indexCast arg0
  let arg1 : BitVec 32 := BitVec.ofNat 32 (i 1).val
  let c32_i32_87 : BitVec 32 := 32#32
  let v152 : BitVec 32 := Scalar.muli arg1 c32_i32_87
  let c8_i32 : BitVec 32 := 8#32
  let v153 : BitVec 32 := Scalar.addi v152 c8_i32
  let v161 : Index := Scalar.indexCast v153
  let c2_90 : Index := 2#32
  ![v160.toNat, v161.toNat, 2]
def k0_off36 (v156 : BitVec 32) (v159 : BitVec 32) (v162 : BitVec 32) : Fin 5 → Nat :=
  let c0_91 : Index := 0#32
  let v163 : Index := Scalar.indexCast v156
  let v164 : Index := Scalar.indexCast v159
  let v165 : Index := Scalar.indexCast v162
  let c0_92 : Index := 0#32
  ![0, v163.toNat, v164.toNat, v165.toNat, 0]

def k0_chk9 (v156 : BitVec 32) (v159 : BitVec 32) (v162 : BitVec 32) : Prop :=
  (∀ a, (k0_off36 v156 v159 v162) a + S1x32x32x32x1.size a ≤ S1x128x128x128x1.size a)
instance k0_chk9.dec : ∀ (v156 : BitVec 32) (v159 : BitVec 32) (v162 : BitVec 32), Decidable (k0_chk9 v156 v159 v162) := fun v156 v159 v162 => decidable_of_iff' _ (Iff.of_eq (k0_chk9.eq_1 v156 v159 v162))
theorem k0_off36_inb : ∀ (v156 : BitVec 32) (v159 : BitVec 32) (v162 : BitVec 32) (k0_hw9 : k0_chk9 v156 v159 v162), ∀ a, (k0_off36 v156 v159 v162) a + S1x32x32x32x1.size a ≤ S1x128x128x128x1.size a := fun v156 v159 v162 k0_hw9 => k0_hw9

def k0_off37 (i : grid0.Coords) : Fin 3 → Nat :=
  let arg0 : BitVec 32 := BitVec.ofNat 32 (i 0).val
  let v173 : Index := Scalar.indexCast arg0
  let arg1 : BitVec 32 := BitVec.ofNat 32 (i 1).val
  let c32_i32_98 : BitVec 32 := 32#32
  let v171 : BitVec 32 := Scalar.muli arg1 c32_i32_98
  let c9_i32 : BitVec 32 := 9#32
  let v172 : BitVec 32 := Scalar.addi v171 c9_i32
  let v174 : Index := Scalar.indexCast v172
  let c0_99 : Index := 0#32
  ![v173.toNat, v174.toNat, 0]
def k0_off38 (i : grid0.Coords) : Fin 3 → Nat :=
  let arg0 : BitVec 32 := BitVec.ofNat 32 (i 0).val
  let v176 : Index := Scalar.indexCast arg0
  let arg1 : BitVec 32 := BitVec.ofNat 32 (i 1).val
  let c32_i32_98 : BitVec 32 := 32#32
  let v171 : BitVec 32 := Scalar.muli arg1 c32_i32_98
  let c9_i32 : BitVec 32 := 9#32
  let v172 : BitVec 32 := Scalar.addi v171 c9_i32
  let v177 : Index := Scalar.indexCast v172
  let c1_100 : Index := 1#32
  ![v176.toNat, v177.toNat, 1]
def k0_off39 (i : grid0.Coords) : Fin 3 → Nat :=
  let arg0 : BitVec 32 := BitVec.ofNat 32 (i 0).val
  let v179 : Index := Scalar.indexCast arg0
  let arg1 : BitVec 32 := BitVec.ofNat 32 (i 1).val
  let c32_i32_98 : BitVec 32 := 32#32
  let v171 : BitVec 32 := Scalar.muli arg1 c32_i32_98
  let c9_i32 : BitVec 32 := 9#32
  let v172 : BitVec 32 := Scalar.addi v171 c9_i32
  let v180 : Index := Scalar.indexCast v172
  let c2_101 : Index := 2#32
  ![v179.toNat, v180.toNat, 2]
def k0_off40 (v175 : BitVec 32) (v178 : BitVec 32) (v181 : BitVec 32) : Fin 5 → Nat :=
  let c0_102 : Index := 0#32
  let v182 : Index := Scalar.indexCast v175
  let v183 : Index := Scalar.indexCast v178
  let v184 : Index := Scalar.indexCast v181
  let c0_103 : Index := 0#32
  ![0, v182.toNat, v183.toNat, v184.toNat, 0]

def k0_chk10 (v175 : BitVec 32) (v178 : BitVec 32) (v181 : BitVec 32) : Prop :=
  (∀ a, (k0_off40 v175 v178 v181) a + S1x32x32x32x1.size a ≤ S1x128x128x128x1.size a)
instance k0_chk10.dec : ∀ (v175 : BitVec 32) (v178 : BitVec 32) (v181 : BitVec 32), Decidable (k0_chk10 v175 v178 v181) := fun v175 v178 v181 => decidable_of_iff' _ (Iff.of_eq (k0_chk10.eq_1 v175 v178 v181))
theorem k0_off40_inb : ∀ (v175 : BitVec 32) (v178 : BitVec 32) (v181 : BitVec 32) (k0_hw10 : k0_chk10 v175 v178 v181), ∀ a, (k0_off40 v175 v178 v181) a + S1x32x32x32x1.size a ≤ S1x128x128x128x1.size a := fun v175 v178 v181 k0_hw10 => k0_hw10

def k0_off41 (i : grid0.Coords) : Fin 3 → Nat :=
  let arg0 : BitVec 32 := BitVec.ofNat 32 (i 0).val
  let v192 : Index := Scalar.indexCast arg0
  let arg1 : BitVec 32 := BitVec.ofNat 32 (i 1).val
  let c32_i32_109 : BitVec 32 := 32#32
  let v190 : BitVec 32 := Scalar.muli arg1 c32_i32_109
  let c10_i32 : BitVec 32 := 10#32
  let v191 : BitVec 32 := Scalar.addi v190 c10_i32
  let v193 : Index := Scalar.indexCast v191
  let c0_110 : Index := 0#32
  ![v192.toNat, v193.toNat, 0]
def k0_off42 (i : grid0.Coords) : Fin 3 → Nat :=
  let arg0 : BitVec 32 := BitVec.ofNat 32 (i 0).val
  let v195 : Index := Scalar.indexCast arg0
  let arg1 : BitVec 32 := BitVec.ofNat 32 (i 1).val
  let c32_i32_109 : BitVec 32 := 32#32
  let v190 : BitVec 32 := Scalar.muli arg1 c32_i32_109
  let c10_i32 : BitVec 32 := 10#32
  let v191 : BitVec 32 := Scalar.addi v190 c10_i32
  let v196 : Index := Scalar.indexCast v191
  let c1_111 : Index := 1#32
  ![v195.toNat, v196.toNat, 1]
def k0_off43 (i : grid0.Coords) : Fin 3 → Nat :=
  let arg0 : BitVec 32 := BitVec.ofNat 32 (i 0).val
  let v198 : Index := Scalar.indexCast arg0
  let arg1 : BitVec 32 := BitVec.ofNat 32 (i 1).val
  let c32_i32_109 : BitVec 32 := 32#32
  let v190 : BitVec 32 := Scalar.muli arg1 c32_i32_109
  let c10_i32 : BitVec 32 := 10#32
  let v191 : BitVec 32 := Scalar.addi v190 c10_i32
  let v199 : Index := Scalar.indexCast v191
  let c2_112 : Index := 2#32
  ![v198.toNat, v199.toNat, 2]
def k0_off44 (v194 : BitVec 32) (v197 : BitVec 32) (v200 : BitVec 32) : Fin 5 → Nat :=
  let c0_113 : Index := 0#32
  let v201 : Index := Scalar.indexCast v194
  let v202 : Index := Scalar.indexCast v197
  let v203 : Index := Scalar.indexCast v200
  let c0_114 : Index := 0#32
  ![0, v201.toNat, v202.toNat, v203.toNat, 0]

def k0_chk11 (v194 : BitVec 32) (v197 : BitVec 32) (v200 : BitVec 32) : Prop :=
  (∀ a, (k0_off44 v194 v197 v200) a + S1x32x32x32x1.size a ≤ S1x128x128x128x1.size a)
instance k0_chk11.dec : ∀ (v194 : BitVec 32) (v197 : BitVec 32) (v200 : BitVec 32), Decidable (k0_chk11 v194 v197 v200) := fun v194 v197 v200 => decidable_of_iff' _ (Iff.of_eq (k0_chk11.eq_1 v194 v197 v200))
theorem k0_off44_inb : ∀ (v194 : BitVec 32) (v197 : BitVec 32) (v200 : BitVec 32) (k0_hw11 : k0_chk11 v194 v197 v200), ∀ a, (k0_off44 v194 v197 v200) a + S1x32x32x32x1.size a ≤ S1x128x128x128x1.size a := fun v194 v197 v200 k0_hw11 => k0_hw11

def k0_off45 (i : grid0.Coords) : Fin 3 → Nat :=
  let arg0 : BitVec 32 := BitVec.ofNat 32 (i 0).val
  let v211 : Index := Scalar.indexCast arg0
  let arg1 : BitVec 32 := BitVec.ofNat 32 (i 1).val
  let c32_i32_120 : BitVec 32 := 32#32
  let v209 : BitVec 32 := Scalar.muli arg1 c32_i32_120
  let c11_i32 : BitVec 32 := 11#32
  let v210 : BitVec 32 := Scalar.addi v209 c11_i32
  let v212 : Index := Scalar.indexCast v210
  let c0_121 : Index := 0#32
  ![v211.toNat, v212.toNat, 0]
def k0_off46 (i : grid0.Coords) : Fin 3 → Nat :=
  let arg0 : BitVec 32 := BitVec.ofNat 32 (i 0).val
  let v214 : Index := Scalar.indexCast arg0
  let arg1 : BitVec 32 := BitVec.ofNat 32 (i 1).val
  let c32_i32_120 : BitVec 32 := 32#32
  let v209 : BitVec 32 := Scalar.muli arg1 c32_i32_120
  let c11_i32 : BitVec 32 := 11#32
  let v210 : BitVec 32 := Scalar.addi v209 c11_i32
  let v215 : Index := Scalar.indexCast v210
  let c1_122 : Index := 1#32
  ![v214.toNat, v215.toNat, 1]
def k0_off47 (i : grid0.Coords) : Fin 3 → Nat :=
  let arg0 : BitVec 32 := BitVec.ofNat 32 (i 0).val
  let v217 : Index := Scalar.indexCast arg0
  let arg1 : BitVec 32 := BitVec.ofNat 32 (i 1).val
  let c32_i32_120 : BitVec 32 := 32#32
  let v209 : BitVec 32 := Scalar.muli arg1 c32_i32_120
  let c11_i32 : BitVec 32 := 11#32
  let v210 : BitVec 32 := Scalar.addi v209 c11_i32
  let v218 : Index := Scalar.indexCast v210
  let c2_123 : Index := 2#32
  ![v217.toNat, v218.toNat, 2]
def k0_off48 (v213 : BitVec 32) (v216 : BitVec 32) (v219 : BitVec 32) : Fin 5 → Nat :=
  let c0_124 : Index := 0#32
  let v220 : Index := Scalar.indexCast v213
  let v221 : Index := Scalar.indexCast v216
  let v222 : Index := Scalar.indexCast v219
  let c0_125 : Index := 0#32
  ![0, v220.toNat, v221.toNat, v222.toNat, 0]

def k0_chk12 (v213 : BitVec 32) (v216 : BitVec 32) (v219 : BitVec 32) : Prop :=
  (∀ a, (k0_off48 v213 v216 v219) a + S1x32x32x32x1.size a ≤ S1x128x128x128x1.size a)
instance k0_chk12.dec : ∀ (v213 : BitVec 32) (v216 : BitVec 32) (v219 : BitVec 32), Decidable (k0_chk12 v213 v216 v219) := fun v213 v216 v219 => decidable_of_iff' _ (Iff.of_eq (k0_chk12.eq_1 v213 v216 v219))
theorem k0_off48_inb : ∀ (v213 : BitVec 32) (v216 : BitVec 32) (v219 : BitVec 32) (k0_hw12 : k0_chk12 v213 v216 v219), ∀ a, (k0_off48 v213 v216 v219) a + S1x32x32x32x1.size a ≤ S1x128x128x128x1.size a := fun v213 v216 v219 k0_hw12 => k0_hw12

def k0_off49 (i : grid0.Coords) : Fin 3 → Nat :=
  let arg0 : BitVec 32 := BitVec.ofNat 32 (i 0).val
  let v230 : Index := Scalar.indexCast arg0
  let arg1 : BitVec 32 := BitVec.ofNat 32 (i 1).val
  let c32_i32_131 : BitVec 32 := 32#32
  let v228 : BitVec 32 := Scalar.muli arg1 c32_i32_131
  let c12_i32 : BitVec 32 := 12#32
  let v229 : BitVec 32 := Scalar.addi v228 c12_i32
  let v231 : Index := Scalar.indexCast v229
  let c0_132 : Index := 0#32
  ![v230.toNat, v231.toNat, 0]
def k0_off50 (i : grid0.Coords) : Fin 3 → Nat :=
  let arg0 : BitVec 32 := BitVec.ofNat 32 (i 0).val
  let v233 : Index := Scalar.indexCast arg0
  let arg1 : BitVec 32 := BitVec.ofNat 32 (i 1).val
  let c32_i32_131 : BitVec 32 := 32#32
  let v228 : BitVec 32 := Scalar.muli arg1 c32_i32_131
  let c12_i32 : BitVec 32 := 12#32
  let v229 : BitVec 32 := Scalar.addi v228 c12_i32
  let v234 : Index := Scalar.indexCast v229
  let c1_133 : Index := 1#32
  ![v233.toNat, v234.toNat, 1]
def k0_off51 (i : grid0.Coords) : Fin 3 → Nat :=
  let arg0 : BitVec 32 := BitVec.ofNat 32 (i 0).val
  let v236 : Index := Scalar.indexCast arg0
  let arg1 : BitVec 32 := BitVec.ofNat 32 (i 1).val
  let c32_i32_131 : BitVec 32 := 32#32
  let v228 : BitVec 32 := Scalar.muli arg1 c32_i32_131
  let c12_i32 : BitVec 32 := 12#32
  let v229 : BitVec 32 := Scalar.addi v228 c12_i32
  let v237 : Index := Scalar.indexCast v229
  let c2_134 : Index := 2#32
  ![v236.toNat, v237.toNat, 2]
def k0_off52 (v232 : BitVec 32) (v235 : BitVec 32) (v238 : BitVec 32) : Fin 5 → Nat :=
  let c0_135 : Index := 0#32
  let v239 : Index := Scalar.indexCast v232
  let v240 : Index := Scalar.indexCast v235
  let v241 : Index := Scalar.indexCast v238
  let c0_136 : Index := 0#32
  ![0, v239.toNat, v240.toNat, v241.toNat, 0]

def k0_chk13 (v232 : BitVec 32) (v235 : BitVec 32) (v238 : BitVec 32) : Prop :=
  (∀ a, (k0_off52 v232 v235 v238) a + S1x32x32x32x1.size a ≤ S1x128x128x128x1.size a)
instance k0_chk13.dec : ∀ (v232 : BitVec 32) (v235 : BitVec 32) (v238 : BitVec 32), Decidable (k0_chk13 v232 v235 v238) := fun v232 v235 v238 => decidable_of_iff' _ (Iff.of_eq (k0_chk13.eq_1 v232 v235 v238))
theorem k0_off52_inb : ∀ (v232 : BitVec 32) (v235 : BitVec 32) (v238 : BitVec 32) (k0_hw13 : k0_chk13 v232 v235 v238), ∀ a, (k0_off52 v232 v235 v238) a + S1x32x32x32x1.size a ≤ S1x128x128x128x1.size a := fun v232 v235 v238 k0_hw13 => k0_hw13

def k0_off53 (i : grid0.Coords) : Fin 3 → Nat :=
  let arg0 : BitVec 32 := BitVec.ofNat 32 (i 0).val
  let v249 : Index := Scalar.indexCast arg0
  let arg1 : BitVec 32 := BitVec.ofNat 32 (i 1).val
  let c32_i32_142 : BitVec 32 := 32#32
  let v247 : BitVec 32 := Scalar.muli arg1 c32_i32_142
  let c13_i32 : BitVec 32 := 13#32
  let v248 : BitVec 32 := Scalar.addi v247 c13_i32
  let v250 : Index := Scalar.indexCast v248
  let c0_143 : Index := 0#32
  ![v249.toNat, v250.toNat, 0]
def k0_off54 (i : grid0.Coords) : Fin 3 → Nat :=
  let arg0 : BitVec 32 := BitVec.ofNat 32 (i 0).val
  let v252 : Index := Scalar.indexCast arg0
  let arg1 : BitVec 32 := BitVec.ofNat 32 (i 1).val
  let c32_i32_142 : BitVec 32 := 32#32
  let v247 : BitVec 32 := Scalar.muli arg1 c32_i32_142
  let c13_i32 : BitVec 32 := 13#32
  let v248 : BitVec 32 := Scalar.addi v247 c13_i32
  let v253 : Index := Scalar.indexCast v248
  let c1_144 : Index := 1#32
  ![v252.toNat, v253.toNat, 1]
def k0_off55 (i : grid0.Coords) : Fin 3 → Nat :=
  let arg0 : BitVec 32 := BitVec.ofNat 32 (i 0).val
  let v255 : Index := Scalar.indexCast arg0
  let arg1 : BitVec 32 := BitVec.ofNat 32 (i 1).val
  let c32_i32_142 : BitVec 32 := 32#32
  let v247 : BitVec 32 := Scalar.muli arg1 c32_i32_142
  let c13_i32 : BitVec 32 := 13#32
  let v248 : BitVec 32 := Scalar.addi v247 c13_i32
  let v256 : Index := Scalar.indexCast v248
  let c2_145 : Index := 2#32
  ![v255.toNat, v256.toNat, 2]
def k0_off56 (v251 : BitVec 32) (v254 : BitVec 32) (v257 : BitVec 32) : Fin 5 → Nat :=
  let c0_146 : Index := 0#32
  let v258 : Index := Scalar.indexCast v251
  let v259 : Index := Scalar.indexCast v254
  let v260 : Index := Scalar.indexCast v257
  let c0_147 : Index := 0#32
  ![0, v258.toNat, v259.toNat, v260.toNat, 0]

def k0_chk14 (v251 : BitVec 32) (v254 : BitVec 32) (v257 : BitVec 32) : Prop :=
  (∀ a, (k0_off56 v251 v254 v257) a + S1x32x32x32x1.size a ≤ S1x128x128x128x1.size a)
instance k0_chk14.dec : ∀ (v251 : BitVec 32) (v254 : BitVec 32) (v257 : BitVec 32), Decidable (k0_chk14 v251 v254 v257) := fun v251 v254 v257 => decidable_of_iff' _ (Iff.of_eq (k0_chk14.eq_1 v251 v254 v257))
theorem k0_off56_inb : ∀ (v251 : BitVec 32) (v254 : BitVec 32) (v257 : BitVec 32) (k0_hw14 : k0_chk14 v251 v254 v257), ∀ a, (k0_off56 v251 v254 v257) a + S1x32x32x32x1.size a ≤ S1x128x128x128x1.size a := fun v251 v254 v257 k0_hw14 => k0_hw14

def k0_off57 (i : grid0.Coords) : Fin 3 → Nat :=
  let arg0 : BitVec 32 := BitVec.ofNat 32 (i 0).val
  let v268 : Index := Scalar.indexCast arg0
  let arg1 : BitVec 32 := BitVec.ofNat 32 (i 1).val
  let c32_i32_153 : BitVec 32 := 32#32
  let v266 : BitVec 32 := Scalar.muli arg1 c32_i32_153
  let c14_i32 : BitVec 32 := 14#32
  let v267 : BitVec 32 := Scalar.addi v266 c14_i32
  let v269 : Index := Scalar.indexCast v267
  let c0_154 : Index := 0#32
  ![v268.toNat, v269.toNat, 0]
def k0_off58 (i : grid0.Coords) : Fin 3 → Nat :=
  let arg0 : BitVec 32 := BitVec.ofNat 32 (i 0).val
  let v271 : Index := Scalar.indexCast arg0
  let arg1 : BitVec 32 := BitVec.ofNat 32 (i 1).val
  let c32_i32_153 : BitVec 32 := 32#32
  let v266 : BitVec 32 := Scalar.muli arg1 c32_i32_153
  let c14_i32 : BitVec 32 := 14#32
  let v267 : BitVec 32 := Scalar.addi v266 c14_i32
  let v272 : Index := Scalar.indexCast v267
  let c1_155 : Index := 1#32
  ![v271.toNat, v272.toNat, 1]
def k0_off59 (i : grid0.Coords) : Fin 3 → Nat :=
  let arg0 : BitVec 32 := BitVec.ofNat 32 (i 0).val
  let v274 : Index := Scalar.indexCast arg0
  let arg1 : BitVec 32 := BitVec.ofNat 32 (i 1).val
  let c32_i32_153 : BitVec 32 := 32#32
  let v266 : BitVec 32 := Scalar.muli arg1 c32_i32_153
  let c14_i32 : BitVec 32 := 14#32
  let v267 : BitVec 32 := Scalar.addi v266 c14_i32
  let v275 : Index := Scalar.indexCast v267
  let c2_156 : Index := 2#32
  ![v274.toNat, v275.toNat, 2]
def k0_off60 (v270 : BitVec 32) (v273 : BitVec 32) (v276 : BitVec 32) : Fin 5 → Nat :=
  let c0_157 : Index := 0#32
  let v277 : Index := Scalar.indexCast v270
  let v278 : Index := Scalar.indexCast v273
  let v279 : Index := Scalar.indexCast v276
  let c0_158 : Index := 0#32
  ![0, v277.toNat, v278.toNat, v279.toNat, 0]

def k0_chk15 (v270 : BitVec 32) (v273 : BitVec 32) (v276 : BitVec 32) : Prop :=
  (∀ a, (k0_off60 v270 v273 v276) a + S1x32x32x32x1.size a ≤ S1x128x128x128x1.size a)
instance k0_chk15.dec : ∀ (v270 : BitVec 32) (v273 : BitVec 32) (v276 : BitVec 32), Decidable (k0_chk15 v270 v273 v276) := fun v270 v273 v276 => decidable_of_iff' _ (Iff.of_eq (k0_chk15.eq_1 v270 v273 v276))
theorem k0_off60_inb : ∀ (v270 : BitVec 32) (v273 : BitVec 32) (v276 : BitVec 32) (k0_hw15 : k0_chk15 v270 v273 v276), ∀ a, (k0_off60 v270 v273 v276) a + S1x32x32x32x1.size a ≤ S1x128x128x128x1.size a := fun v270 v273 v276 k0_hw15 => k0_hw15

def k0_off61 (i : grid0.Coords) : Fin 3 → Nat :=
  let arg0 : BitVec 32 := BitVec.ofNat 32 (i 0).val
  let v287 : Index := Scalar.indexCast arg0
  let arg1 : BitVec 32 := BitVec.ofNat 32 (i 1).val
  let c32_i32_164 : BitVec 32 := 32#32
  let v285 : BitVec 32 := Scalar.muli arg1 c32_i32_164
  let c15_i32 : BitVec 32 := 15#32
  let v286 : BitVec 32 := Scalar.addi v285 c15_i32
  let v288 : Index := Scalar.indexCast v286
  let c0_165 : Index := 0#32
  ![v287.toNat, v288.toNat, 0]
def k0_off62 (i : grid0.Coords) : Fin 3 → Nat :=
  let arg0 : BitVec 32 := BitVec.ofNat 32 (i 0).val
  let v290 : Index := Scalar.indexCast arg0
  let arg1 : BitVec 32 := BitVec.ofNat 32 (i 1).val
  let c32_i32_164 : BitVec 32 := 32#32
  let v285 : BitVec 32 := Scalar.muli arg1 c32_i32_164
  let c15_i32 : BitVec 32 := 15#32
  let v286 : BitVec 32 := Scalar.addi v285 c15_i32
  let v291 : Index := Scalar.indexCast v286
  let c1_166 : Index := 1#32
  ![v290.toNat, v291.toNat, 1]
def k0_off63 (i : grid0.Coords) : Fin 3 → Nat :=
  let arg0 : BitVec 32 := BitVec.ofNat 32 (i 0).val
  let v293 : Index := Scalar.indexCast arg0
  let arg1 : BitVec 32 := BitVec.ofNat 32 (i 1).val
  let c32_i32_164 : BitVec 32 := 32#32
  let v285 : BitVec 32 := Scalar.muli arg1 c32_i32_164
  let c15_i32 : BitVec 32 := 15#32
  let v286 : BitVec 32 := Scalar.addi v285 c15_i32
  let v294 : Index := Scalar.indexCast v286
  let c2_167 : Index := 2#32
  ![v293.toNat, v294.toNat, 2]
def k0_off64 (v289 : BitVec 32) (v292 : BitVec 32) (v295 : BitVec 32) : Fin 5 → Nat :=
  let c0_168 : Index := 0#32
  let v296 : Index := Scalar.indexCast v289
  let v297 : Index := Scalar.indexCast v292
  let v298 : Index := Scalar.indexCast v295
  let c0_169 : Index := 0#32
  ![0, v296.toNat, v297.toNat, v298.toNat, 0]

def k0_chk16 (v289 : BitVec 32) (v292 : BitVec 32) (v295 : BitVec 32) : Prop :=
  (∀ a, (k0_off64 v289 v292 v295) a + S1x32x32x32x1.size a ≤ S1x128x128x128x1.size a)
instance k0_chk16.dec : ∀ (v289 : BitVec 32) (v292 : BitVec 32) (v295 : BitVec 32), Decidable (k0_chk16 v289 v292 v295) := fun v289 v292 v295 => decidable_of_iff' _ (Iff.of_eq (k0_chk16.eq_1 v289 v292 v295))
theorem k0_off64_inb : ∀ (v289 : BitVec 32) (v292 : BitVec 32) (v295 : BitVec 32) (k0_hw16 : k0_chk16 v289 v292 v295), ∀ a, (k0_off64 v289 v292 v295) a + S1x32x32x32x1.size a ≤ S1x128x128x128x1.size a := fun v289 v292 v295 k0_hw16 => k0_hw16

def k0_off65 (i : grid0.Coords) : Fin 3 → Nat :=
  let arg0 : BitVec 32 := BitVec.ofNat 32 (i 0).val
  let v306 : Index := Scalar.indexCast arg0
  let arg1 : BitVec 32 := BitVec.ofNat 32 (i 1).val
  let c32_i32_175 : BitVec 32 := 32#32
  let v304 : BitVec 32 := Scalar.muli arg1 c32_i32_175
  let c16_i32 : BitVec 32 := 16#32
  let v305 : BitVec 32 := Scalar.addi v304 c16_i32
  let v307 : Index := Scalar.indexCast v305
  let c0_176 : Index := 0#32
  ![v306.toNat, v307.toNat, 0]
def k0_off66 (i : grid0.Coords) : Fin 3 → Nat :=
  let arg0 : BitVec 32 := BitVec.ofNat 32 (i 0).val
  let v309 : Index := Scalar.indexCast arg0
  let arg1 : BitVec 32 := BitVec.ofNat 32 (i 1).val
  let c32_i32_175 : BitVec 32 := 32#32
  let v304 : BitVec 32 := Scalar.muli arg1 c32_i32_175
  let c16_i32 : BitVec 32 := 16#32
  let v305 : BitVec 32 := Scalar.addi v304 c16_i32
  let v310 : Index := Scalar.indexCast v305
  let c1_177 : Index := 1#32
  ![v309.toNat, v310.toNat, 1]
def k0_off67 (i : grid0.Coords) : Fin 3 → Nat :=
  let arg0 : BitVec 32 := BitVec.ofNat 32 (i 0).val
  let v312 : Index := Scalar.indexCast arg0
  let arg1 : BitVec 32 := BitVec.ofNat 32 (i 1).val
  let c32_i32_175 : BitVec 32 := 32#32
  let v304 : BitVec 32 := Scalar.muli arg1 c32_i32_175
  let c16_i32 : BitVec 32 := 16#32
  let v305 : BitVec 32 := Scalar.addi v304 c16_i32
  let v313 : Index := Scalar.indexCast v305
  let c2_178 : Index := 2#32
  ![v312.toNat, v313.toNat, 2]
def k0_off68 (v308 : BitVec 32) (v311 : BitVec 32) (v314 : BitVec 32) : Fin 5 → Nat :=
  let c0_179 : Index := 0#32
  let v315 : Index := Scalar.indexCast v308
  let v316 : Index := Scalar.indexCast v311
  let v317 : Index := Scalar.indexCast v314
  let c0_180 : Index := 0#32
  ![0, v315.toNat, v316.toNat, v317.toNat, 0]

def k0_chk17 (v308 : BitVec 32) (v311 : BitVec 32) (v314 : BitVec 32) : Prop :=
  (∀ a, (k0_off68 v308 v311 v314) a + S1x32x32x32x1.size a ≤ S1x128x128x128x1.size a)
instance k0_chk17.dec : ∀ (v308 : BitVec 32) (v311 : BitVec 32) (v314 : BitVec 32), Decidable (k0_chk17 v308 v311 v314) := fun v308 v311 v314 => decidable_of_iff' _ (Iff.of_eq (k0_chk17.eq_1 v308 v311 v314))
theorem k0_off68_inb : ∀ (v308 : BitVec 32) (v311 : BitVec 32) (v314 : BitVec 32) (k0_hw17 : k0_chk17 v308 v311 v314), ∀ a, (k0_off68 v308 v311 v314) a + S1x32x32x32x1.size a ≤ S1x128x128x128x1.size a := fun v308 v311 v314 k0_hw17 => k0_hw17

def k0_off69 (i : grid0.Coords) : Fin 3 → Nat :=
  let arg0 : BitVec 32 := BitVec.ofNat 32 (i 0).val
  let v325 : Index := Scalar.indexCast arg0
  let arg1 : BitVec 32 := BitVec.ofNat 32 (i 1).val
  let c32_i32_186 : BitVec 32 := 32#32
  let v323 : BitVec 32 := Scalar.muli arg1 c32_i32_186
  let c17_i32 : BitVec 32 := 17#32
  let v324 : BitVec 32 := Scalar.addi v323 c17_i32
  let v326 : Index := Scalar.indexCast v324
  let c0_187 : Index := 0#32
  ![v325.toNat, v326.toNat, 0]
def k0_off70 (i : grid0.Coords) : Fin 3 → Nat :=
  let arg0 : BitVec 32 := BitVec.ofNat 32 (i 0).val
  let v328 : Index := Scalar.indexCast arg0
  let arg1 : BitVec 32 := BitVec.ofNat 32 (i 1).val
  let c32_i32_186 : BitVec 32 := 32#32
  let v323 : BitVec 32 := Scalar.muli arg1 c32_i32_186
  let c17_i32 : BitVec 32 := 17#32
  let v324 : BitVec 32 := Scalar.addi v323 c17_i32
  let v329 : Index := Scalar.indexCast v324
  let c1_188 : Index := 1#32
  ![v328.toNat, v329.toNat, 1]
def k0_off71 (i : grid0.Coords) : Fin 3 → Nat :=
  let arg0 : BitVec 32 := BitVec.ofNat 32 (i 0).val
  let v331 : Index := Scalar.indexCast arg0
  let arg1 : BitVec 32 := BitVec.ofNat 32 (i 1).val
  let c32_i32_186 : BitVec 32 := 32#32
  let v323 : BitVec 32 := Scalar.muli arg1 c32_i32_186
  let c17_i32 : BitVec 32 := 17#32
  let v324 : BitVec 32 := Scalar.addi v323 c17_i32
  let v332 : Index := Scalar.indexCast v324
  let c2_189 : Index := 2#32
  ![v331.toNat, v332.toNat, 2]
def k0_off72 (v327 : BitVec 32) (v330 : BitVec 32) (v333 : BitVec 32) : Fin 5 → Nat :=
  let c0_190 : Index := 0#32
  let v334 : Index := Scalar.indexCast v327
  let v335 : Index := Scalar.indexCast v330
  let v336 : Index := Scalar.indexCast v333
  let c0_191 : Index := 0#32
  ![0, v334.toNat, v335.toNat, v336.toNat, 0]

def k0_chk18 (v327 : BitVec 32) (v330 : BitVec 32) (v333 : BitVec 32) : Prop :=
  (∀ a, (k0_off72 v327 v330 v333) a + S1x32x32x32x1.size a ≤ S1x128x128x128x1.size a)
instance k0_chk18.dec : ∀ (v327 : BitVec 32) (v330 : BitVec 32) (v333 : BitVec 32), Decidable (k0_chk18 v327 v330 v333) := fun v327 v330 v333 => decidable_of_iff' _ (Iff.of_eq (k0_chk18.eq_1 v327 v330 v333))
theorem k0_off72_inb : ∀ (v327 : BitVec 32) (v330 : BitVec 32) (v333 : BitVec 32) (k0_hw18 : k0_chk18 v327 v330 v333), ∀ a, (k0_off72 v327 v330 v333) a + S1x32x32x32x1.size a ≤ S1x128x128x128x1.size a := fun v327 v330 v333 k0_hw18 => k0_hw18

def k0_off73 (i : grid0.Coords) : Fin 3 → Nat :=
  let arg0 : BitVec 32 := BitVec.ofNat 32 (i 0).val
  let v344 : Index := Scalar.indexCast arg0
  let arg1 : BitVec 32 := BitVec.ofNat 32 (i 1).val
  let c32_i32_197 : BitVec 32 := 32#32
  let v342 : BitVec 32 := Scalar.muli arg1 c32_i32_197
  let c18_i32 : BitVec 32 := 18#32
  let v343 : BitVec 32 := Scalar.addi v342 c18_i32
  let v345 : Index := Scalar.indexCast v343
  let c0_198 : Index := 0#32
  ![v344.toNat, v345.toNat, 0]
def k0_off74 (i : grid0.Coords) : Fin 3 → Nat :=
  let arg0 : BitVec 32 := BitVec.ofNat 32 (i 0).val
  let v347 : Index := Scalar.indexCast arg0
  let arg1 : BitVec 32 := BitVec.ofNat 32 (i 1).val
  let c32_i32_197 : BitVec 32 := 32#32
  let v342 : BitVec 32 := Scalar.muli arg1 c32_i32_197
  let c18_i32 : BitVec 32 := 18#32
  let v343 : BitVec 32 := Scalar.addi v342 c18_i32
  let v348 : Index := Scalar.indexCast v343
  let c1_199 : Index := 1#32
  ![v347.toNat, v348.toNat, 1]
def k0_off75 (i : grid0.Coords) : Fin 3 → Nat :=
  let arg0 : BitVec 32 := BitVec.ofNat 32 (i 0).val
  let v350 : Index := Scalar.indexCast arg0
  let arg1 : BitVec 32 := BitVec.ofNat 32 (i 1).val
  let c32_i32_197 : BitVec 32 := 32#32
  let v342 : BitVec 32 := Scalar.muli arg1 c32_i32_197
  let c18_i32 : BitVec 32 := 18#32
  let v343 : BitVec 32 := Scalar.addi v342 c18_i32
  let v351 : Index := Scalar.indexCast v343
  let c2_200 : Index := 2#32
  ![v350.toNat, v351.toNat, 2]
def k0_off76 (v346 : BitVec 32) (v349 : BitVec 32) (v352 : BitVec 32) : Fin 5 → Nat :=
  let c0_201 : Index := 0#32
  let v353 : Index := Scalar.indexCast v346
  let v354 : Index := Scalar.indexCast v349
  let v355 : Index := Scalar.indexCast v352
  let c0_202 : Index := 0#32
  ![0, v353.toNat, v354.toNat, v355.toNat, 0]

def k0_chk19 (v346 : BitVec 32) (v349 : BitVec 32) (v352 : BitVec 32) : Prop :=
  (∀ a, (k0_off76 v346 v349 v352) a + S1x32x32x32x1.size a ≤ S1x128x128x128x1.size a)
instance k0_chk19.dec : ∀ (v346 : BitVec 32) (v349 : BitVec 32) (v352 : BitVec 32), Decidable (k0_chk19 v346 v349 v352) := fun v346 v349 v352 => decidable_of_iff' _ (Iff.of_eq (k0_chk19.eq_1 v346 v349 v352))
theorem k0_off76_inb : ∀ (v346 : BitVec 32) (v349 : BitVec 32) (v352 : BitVec 32) (k0_hw19 : k0_chk19 v346 v349 v352), ∀ a, (k0_off76 v346 v349 v352) a + S1x32x32x32x1.size a ≤ S1x128x128x128x1.size a := fun v346 v349 v352 k0_hw19 => k0_hw19

def k0_off77 (i : grid0.Coords) : Fin 3 → Nat :=
  let arg0 : BitVec 32 := BitVec.ofNat 32 (i 0).val
  let v363 : Index := Scalar.indexCast arg0
  let arg1 : BitVec 32 := BitVec.ofNat 32 (i 1).val
  let c32_i32_208 : BitVec 32 := 32#32
  let v361 : BitVec 32 := Scalar.muli arg1 c32_i32_208
  let c19_i32 : BitVec 32 := 19#32
  let v362 : BitVec 32 := Scalar.addi v361 c19_i32
  let v364 : Index := Scalar.indexCast v362
  let c0_209 : Index := 0#32
  ![v363.toNat, v364.toNat, 0]
def k0_off78 (i : grid0.Coords) : Fin 3 → Nat :=
  let arg0 : BitVec 32 := BitVec.ofNat 32 (i 0).val
  let v366 : Index := Scalar.indexCast arg0
  let arg1 : BitVec 32 := BitVec.ofNat 32 (i 1).val
  let c32_i32_208 : BitVec 32 := 32#32
  let v361 : BitVec 32 := Scalar.muli arg1 c32_i32_208
  let c19_i32 : BitVec 32 := 19#32
  let v362 : BitVec 32 := Scalar.addi v361 c19_i32
  let v367 : Index := Scalar.indexCast v362
  let c1_210 : Index := 1#32
  ![v366.toNat, v367.toNat, 1]
def k0_off79 (i : grid0.Coords) : Fin 3 → Nat :=
  let arg0 : BitVec 32 := BitVec.ofNat 32 (i 0).val
  let v369 : Index := Scalar.indexCast arg0
  let arg1 : BitVec 32 := BitVec.ofNat 32 (i 1).val
  let c32_i32_208 : BitVec 32 := 32#32
  let v361 : BitVec 32 := Scalar.muli arg1 c32_i32_208
  let c19_i32 : BitVec 32 := 19#32
  let v362 : BitVec 32 := Scalar.addi v361 c19_i32
  let v370 : Index := Scalar.indexCast v362
  let c2_211 : Index := 2#32
  ![v369.toNat, v370.toNat, 2]
def k0_off80 (v365 : BitVec 32) (v368 : BitVec 32) (v371 : BitVec 32) : Fin 5 → Nat :=
  let c0_212 : Index := 0#32
  let v372 : Index := Scalar.indexCast v365
  let v373 : Index := Scalar.indexCast v368
  let v374 : Index := Scalar.indexCast v371
  let c0_213 : Index := 0#32
  ![0, v372.toNat, v373.toNat, v374.toNat, 0]

def k0_chk20 (v365 : BitVec 32) (v368 : BitVec 32) (v371 : BitVec 32) : Prop :=
  (∀ a, (k0_off80 v365 v368 v371) a + S1x32x32x32x1.size a ≤ S1x128x128x128x1.size a)
instance k0_chk20.dec : ∀ (v365 : BitVec 32) (v368 : BitVec 32) (v371 : BitVec 32), Decidable (k0_chk20 v365 v368 v371) := fun v365 v368 v371 => decidable_of_iff' _ (Iff.of_eq (k0_chk20.eq_1 v365 v368 v371))
theorem k0_off80_inb : ∀ (v365 : BitVec 32) (v368 : BitVec 32) (v371 : BitVec 32) (k0_hw20 : k0_chk20 v365 v368 v371), ∀ a, (k0_off80 v365 v368 v371) a + S1x32x32x32x1.size a ≤ S1x128x128x128x1.size a := fun v365 v368 v371 k0_hw20 => k0_hw20

def k0_off81 (i : grid0.Coords) : Fin 3 → Nat :=
  let arg0 : BitVec 32 := BitVec.ofNat 32 (i 0).val
  let v382 : Index := Scalar.indexCast arg0
  let arg1 : BitVec 32 := BitVec.ofNat 32 (i 1).val
  let c32_i32_219 : BitVec 32 := 32#32
  let v380 : BitVec 32 := Scalar.muli arg1 c32_i32_219
  let c20_i32 : BitVec 32 := 20#32
  let v381 : BitVec 32 := Scalar.addi v380 c20_i32
  let v383 : Index := Scalar.indexCast v381
  let c0_220 : Index := 0#32
  ![v382.toNat, v383.toNat, 0]
def k0_off82 (i : grid0.Coords) : Fin 3 → Nat :=
  let arg0 : BitVec 32 := BitVec.ofNat 32 (i 0).val
  let v385 : Index := Scalar.indexCast arg0
  let arg1 : BitVec 32 := BitVec.ofNat 32 (i 1).val
  let c32_i32_219 : BitVec 32 := 32#32
  let v380 : BitVec 32 := Scalar.muli arg1 c32_i32_219
  let c20_i32 : BitVec 32 := 20#32
  let v381 : BitVec 32 := Scalar.addi v380 c20_i32
  let v386 : Index := Scalar.indexCast v381
  let c1_221 : Index := 1#32
  ![v385.toNat, v386.toNat, 1]
def k0_off83 (i : grid0.Coords) : Fin 3 → Nat :=
  let arg0 : BitVec 32 := BitVec.ofNat 32 (i 0).val
  let v388 : Index := Scalar.indexCast arg0
  let arg1 : BitVec 32 := BitVec.ofNat 32 (i 1).val
  let c32_i32_219 : BitVec 32 := 32#32
  let v380 : BitVec 32 := Scalar.muli arg1 c32_i32_219
  let c20_i32 : BitVec 32 := 20#32
  let v381 : BitVec 32 := Scalar.addi v380 c20_i32
  let v389 : Index := Scalar.indexCast v381
  let c2_222 : Index := 2#32
  ![v388.toNat, v389.toNat, 2]
def k0_off84 (v384 : BitVec 32) (v387 : BitVec 32) (v390 : BitVec 32) : Fin 5 → Nat :=
  let c0_223 : Index := 0#32
  let v391 : Index := Scalar.indexCast v384
  let v392 : Index := Scalar.indexCast v387
  let v393 : Index := Scalar.indexCast v390
  let c0_224 : Index := 0#32
  ![0, v391.toNat, v392.toNat, v393.toNat, 0]

def k0_chk21 (v384 : BitVec 32) (v387 : BitVec 32) (v390 : BitVec 32) : Prop :=
  (∀ a, (k0_off84 v384 v387 v390) a + S1x32x32x32x1.size a ≤ S1x128x128x128x1.size a)
instance k0_chk21.dec : ∀ (v384 : BitVec 32) (v387 : BitVec 32) (v390 : BitVec 32), Decidable (k0_chk21 v384 v387 v390) := fun v384 v387 v390 => decidable_of_iff' _ (Iff.of_eq (k0_chk21.eq_1 v384 v387 v390))
theorem k0_off84_inb : ∀ (v384 : BitVec 32) (v387 : BitVec 32) (v390 : BitVec 32) (k0_hw21 : k0_chk21 v384 v387 v390), ∀ a, (k0_off84 v384 v387 v390) a + S1x32x32x32x1.size a ≤ S1x128x128x128x1.size a := fun v384 v387 v390 k0_hw21 => k0_hw21

def k0_off85 (i : grid0.Coords) : Fin 3 → Nat :=
  let arg0 : BitVec 32 := BitVec.ofNat 32 (i 0).val
  let v401 : Index := Scalar.indexCast arg0
  let arg1 : BitVec 32 := BitVec.ofNat 32 (i 1).val
  let c32_i32_230 : BitVec 32 := 32#32
  let v399 : BitVec 32 := Scalar.muli arg1 c32_i32_230
  let c21_i32 : BitVec 32 := 21#32
  let v400 : BitVec 32 := Scalar.addi v399 c21_i32
  let v402 : Index := Scalar.indexCast v400
  let c0_231 : Index := 0#32
  ![v401.toNat, v402.toNat, 0]
def k0_off86 (i : grid0.Coords) : Fin 3 → Nat :=
  let arg0 : BitVec 32 := BitVec.ofNat 32 (i 0).val
  let v404 : Index := Scalar.indexCast arg0
  let arg1 : BitVec 32 := BitVec.ofNat 32 (i 1).val
  let c32_i32_230 : BitVec 32 := 32#32
  let v399 : BitVec 32 := Scalar.muli arg1 c32_i32_230
  let c21_i32 : BitVec 32 := 21#32
  let v400 : BitVec 32 := Scalar.addi v399 c21_i32
  let v405 : Index := Scalar.indexCast v400
  let c1_232 : Index := 1#32
  ![v404.toNat, v405.toNat, 1]
def k0_off87 (i : grid0.Coords) : Fin 3 → Nat :=
  let arg0 : BitVec 32 := BitVec.ofNat 32 (i 0).val
  let v407 : Index := Scalar.indexCast arg0
  let arg1 : BitVec 32 := BitVec.ofNat 32 (i 1).val
  let c32_i32_230 : BitVec 32 := 32#32
  let v399 : BitVec 32 := Scalar.muli arg1 c32_i32_230
  let c21_i32 : BitVec 32 := 21#32
  let v400 : BitVec 32 := Scalar.addi v399 c21_i32
  let v408 : Index := Scalar.indexCast v400
  let c2_233 : Index := 2#32
  ![v407.toNat, v408.toNat, 2]
def k0_off88 (v403 : BitVec 32) (v406 : BitVec 32) (v409 : BitVec 32) : Fin 5 → Nat :=
  let c0_234 : Index := 0#32
  let v410 : Index := Scalar.indexCast v403
  let v411 : Index := Scalar.indexCast v406
  let v412 : Index := Scalar.indexCast v409
  let c0_235 : Index := 0#32
  ![0, v410.toNat, v411.toNat, v412.toNat, 0]

def k0_chk22 (v403 : BitVec 32) (v406 : BitVec 32) (v409 : BitVec 32) : Prop :=
  (∀ a, (k0_off88 v403 v406 v409) a + S1x32x32x32x1.size a ≤ S1x128x128x128x1.size a)
instance k0_chk22.dec : ∀ (v403 : BitVec 32) (v406 : BitVec 32) (v409 : BitVec 32), Decidable (k0_chk22 v403 v406 v409) := fun v403 v406 v409 => decidable_of_iff' _ (Iff.of_eq (k0_chk22.eq_1 v403 v406 v409))
theorem k0_off88_inb : ∀ (v403 : BitVec 32) (v406 : BitVec 32) (v409 : BitVec 32) (k0_hw22 : k0_chk22 v403 v406 v409), ∀ a, (k0_off88 v403 v406 v409) a + S1x32x32x32x1.size a ≤ S1x128x128x128x1.size a := fun v403 v406 v409 k0_hw22 => k0_hw22

def k0_off89 (i : grid0.Coords) : Fin 3 → Nat :=
  let arg0 : BitVec 32 := BitVec.ofNat 32 (i 0).val
  let v420 : Index := Scalar.indexCast arg0
  let arg1 : BitVec 32 := BitVec.ofNat 32 (i 1).val
  let c32_i32_241 : BitVec 32 := 32#32
  let v418 : BitVec 32 := Scalar.muli arg1 c32_i32_241
  let c22_i32 : BitVec 32 := 22#32
  let v419 : BitVec 32 := Scalar.addi v418 c22_i32
  let v421 : Index := Scalar.indexCast v419
  let c0_242 : Index := 0#32
  ![v420.toNat, v421.toNat, 0]
def k0_off90 (i : grid0.Coords) : Fin 3 → Nat :=
  let arg0 : BitVec 32 := BitVec.ofNat 32 (i 0).val
  let v423 : Index := Scalar.indexCast arg0
  let arg1 : BitVec 32 := BitVec.ofNat 32 (i 1).val
  let c32_i32_241 : BitVec 32 := 32#32
  let v418 : BitVec 32 := Scalar.muli arg1 c32_i32_241
  let c22_i32 : BitVec 32 := 22#32
  let v419 : BitVec 32 := Scalar.addi v418 c22_i32
  let v424 : Index := Scalar.indexCast v419
  let c1_243 : Index := 1#32
  ![v423.toNat, v424.toNat, 1]
def k0_off91 (i : grid0.Coords) : Fin 3 → Nat :=
  let arg0 : BitVec 32 := BitVec.ofNat 32 (i 0).val
  let v426 : Index := Scalar.indexCast arg0
  let arg1 : BitVec 32 := BitVec.ofNat 32 (i 1).val
  let c32_i32_241 : BitVec 32 := 32#32
  let v418 : BitVec 32 := Scalar.muli arg1 c32_i32_241
  let c22_i32 : BitVec 32 := 22#32
  let v419 : BitVec 32 := Scalar.addi v418 c22_i32
  let v427 : Index := Scalar.indexCast v419
  let c2_244 : Index := 2#32
  ![v426.toNat, v427.toNat, 2]
def k0_off92 (v422 : BitVec 32) (v425 : BitVec 32) (v428 : BitVec 32) : Fin 5 → Nat :=
  let c0_245 : Index := 0#32
  let v429 : Index := Scalar.indexCast v422
  let v430 : Index := Scalar.indexCast v425
  let v431 : Index := Scalar.indexCast v428
  let c0_246 : Index := 0#32
  ![0, v429.toNat, v430.toNat, v431.toNat, 0]

def k0_chk23 (v422 : BitVec 32) (v425 : BitVec 32) (v428 : BitVec 32) : Prop :=
  (∀ a, (k0_off92 v422 v425 v428) a + S1x32x32x32x1.size a ≤ S1x128x128x128x1.size a)
instance k0_chk23.dec : ∀ (v422 : BitVec 32) (v425 : BitVec 32) (v428 : BitVec 32), Decidable (k0_chk23 v422 v425 v428) := fun v422 v425 v428 => decidable_of_iff' _ (Iff.of_eq (k0_chk23.eq_1 v422 v425 v428))
theorem k0_off92_inb : ∀ (v422 : BitVec 32) (v425 : BitVec 32) (v428 : BitVec 32) (k0_hw23 : k0_chk23 v422 v425 v428), ∀ a, (k0_off92 v422 v425 v428) a + S1x32x32x32x1.size a ≤ S1x128x128x128x1.size a := fun v422 v425 v428 k0_hw23 => k0_hw23

def k0_off93 (i : grid0.Coords) : Fin 3 → Nat :=
  let arg0 : BitVec 32 := BitVec.ofNat 32 (i 0).val
  let v439 : Index := Scalar.indexCast arg0
  let arg1 : BitVec 32 := BitVec.ofNat 32 (i 1).val
  let c32_i32_252 : BitVec 32 := 32#32
  let v437 : BitVec 32 := Scalar.muli arg1 c32_i32_252
  let c23_i32 : BitVec 32 := 23#32
  let v438 : BitVec 32 := Scalar.addi v437 c23_i32
  let v440 : Index := Scalar.indexCast v438
  let c0_253 : Index := 0#32
  ![v439.toNat, v440.toNat, 0]
def k0_off94 (i : grid0.Coords) : Fin 3 → Nat :=
  let arg0 : BitVec 32 := BitVec.ofNat 32 (i 0).val
  let v442 : Index := Scalar.indexCast arg0
  let arg1 : BitVec 32 := BitVec.ofNat 32 (i 1).val
  let c32_i32_252 : BitVec 32 := 32#32
  let v437 : BitVec 32 := Scalar.muli arg1 c32_i32_252
  let c23_i32 : BitVec 32 := 23#32
  let v438 : BitVec 32 := Scalar.addi v437 c23_i32
  let v443 : Index := Scalar.indexCast v438
  let c1_254 : Index := 1#32
  ![v442.toNat, v443.toNat, 1]
def k0_off95 (i : grid0.Coords) : Fin 3 → Nat :=
  let arg0 : BitVec 32 := BitVec.ofNat 32 (i 0).val
  let v445 : Index := Scalar.indexCast arg0
  let arg1 : BitVec 32 := BitVec.ofNat 32 (i 1).val
  let c32_i32_252 : BitVec 32 := 32#32
  let v437 : BitVec 32 := Scalar.muli arg1 c32_i32_252
  let c23_i32 : BitVec 32 := 23#32
  let v438 : BitVec 32 := Scalar.addi v437 c23_i32
  let v446 : Index := Scalar.indexCast v438
  let c2_255 : Index := 2#32
  ![v445.toNat, v446.toNat, 2]
def k0_off96 (v441 : BitVec 32) (v444 : BitVec 32) (v447 : BitVec 32) : Fin 5 → Nat :=
  let c0_256 : Index := 0#32
  let v448 : Index := Scalar.indexCast v441
  let v449 : Index := Scalar.indexCast v444
  let v450 : Index := Scalar.indexCast v447
  let c0_257 : Index := 0#32
  ![0, v448.toNat, v449.toNat, v450.toNat, 0]

def k0_chk24 (v441 : BitVec 32) (v444 : BitVec 32) (v447 : BitVec 32) : Prop :=
  (∀ a, (k0_off96 v441 v444 v447) a + S1x32x32x32x1.size a ≤ S1x128x128x128x1.size a)
instance k0_chk24.dec : ∀ (v441 : BitVec 32) (v444 : BitVec 32) (v447 : BitVec 32), Decidable (k0_chk24 v441 v444 v447) := fun v441 v444 v447 => decidable_of_iff' _ (Iff.of_eq (k0_chk24.eq_1 v441 v444 v447))
theorem k0_off96_inb : ∀ (v441 : BitVec 32) (v444 : BitVec 32) (v447 : BitVec 32) (k0_hw24 : k0_chk24 v441 v444 v447), ∀ a, (k0_off96 v441 v444 v447) a + S1x32x32x32x1.size a ≤ S1x128x128x128x1.size a := fun v441 v444 v447 k0_hw24 => k0_hw24

def k0_off97 (i : grid0.Coords) : Fin 3 → Nat :=
  let arg0 : BitVec 32 := BitVec.ofNat 32 (i 0).val
  let v458 : Index := Scalar.indexCast arg0
  let arg1 : BitVec 32 := BitVec.ofNat 32 (i 1).val
  let c32_i32_263 : BitVec 32 := 32#32
  let v456 : BitVec 32 := Scalar.muli arg1 c32_i32_263
  let c24_i32 : BitVec 32 := 24#32
  let v457 : BitVec 32 := Scalar.addi v456 c24_i32
  let v459 : Index := Scalar.indexCast v457
  let c0_264 : Index := 0#32
  ![v458.toNat, v459.toNat, 0]
def k0_off98 (i : grid0.Coords) : Fin 3 → Nat :=
  let arg0 : BitVec 32 := BitVec.ofNat 32 (i 0).val
  let v461 : Index := Scalar.indexCast arg0
  let arg1 : BitVec 32 := BitVec.ofNat 32 (i 1).val
  let c32_i32_263 : BitVec 32 := 32#32
  let v456 : BitVec 32 := Scalar.muli arg1 c32_i32_263
  let c24_i32 : BitVec 32 := 24#32
  let v457 : BitVec 32 := Scalar.addi v456 c24_i32
  let v462 : Index := Scalar.indexCast v457
  let c1_265 : Index := 1#32
  ![v461.toNat, v462.toNat, 1]
def k0_off99 (i : grid0.Coords) : Fin 3 → Nat :=
  let arg0 : BitVec 32 := BitVec.ofNat 32 (i 0).val
  let v464 : Index := Scalar.indexCast arg0
  let arg1 : BitVec 32 := BitVec.ofNat 32 (i 1).val
  let c32_i32_263 : BitVec 32 := 32#32
  let v456 : BitVec 32 := Scalar.muli arg1 c32_i32_263
  let c24_i32 : BitVec 32 := 24#32
  let v457 : BitVec 32 := Scalar.addi v456 c24_i32
  let v465 : Index := Scalar.indexCast v457
  let c2_266 : Index := 2#32
  ![v464.toNat, v465.toNat, 2]
def k0_off100 (v460 : BitVec 32) (v463 : BitVec 32) (v466 : BitVec 32) : Fin 5 → Nat :=
  let c0_267 : Index := 0#32
  let v467 : Index := Scalar.indexCast v460
  let v468 : Index := Scalar.indexCast v463
  let v469 : Index := Scalar.indexCast v466
  let c0_268 : Index := 0#32
  ![0, v467.toNat, v468.toNat, v469.toNat, 0]

def k0_chk25 (v460 : BitVec 32) (v463 : BitVec 32) (v466 : BitVec 32) : Prop :=
  (∀ a, (k0_off100 v460 v463 v466) a + S1x32x32x32x1.size a ≤ S1x128x128x128x1.size a)
instance k0_chk25.dec : ∀ (v460 : BitVec 32) (v463 : BitVec 32) (v466 : BitVec 32), Decidable (k0_chk25 v460 v463 v466) := fun v460 v463 v466 => decidable_of_iff' _ (Iff.of_eq (k0_chk25.eq_1 v460 v463 v466))
theorem k0_off100_inb : ∀ (v460 : BitVec 32) (v463 : BitVec 32) (v466 : BitVec 32) (k0_hw25 : k0_chk25 v460 v463 v466), ∀ a, (k0_off100 v460 v463 v466) a + S1x32x32x32x1.size a ≤ S1x128x128x128x1.size a := fun v460 v463 v466 k0_hw25 => k0_hw25

def k0_off101 (i : grid0.Coords) : Fin 3 → Nat :=
  let arg0 : BitVec 32 := BitVec.ofNat 32 (i 0).val
  let v477 : Index := Scalar.indexCast arg0
  let arg1 : BitVec 32 := BitVec.ofNat 32 (i 1).val
  let c32_i32_274 : BitVec 32 := 32#32
  let v475 : BitVec 32 := Scalar.muli arg1 c32_i32_274
  let c25_i32 : BitVec 32 := 25#32
  let v476 : BitVec 32 := Scalar.addi v475 c25_i32
  let v478 : Index := Scalar.indexCast v476
  let c0_275 : Index := 0#32
  ![v477.toNat, v478.toNat, 0]
def k0_off102 (i : grid0.Coords) : Fin 3 → Nat :=
  let arg0 : BitVec 32 := BitVec.ofNat 32 (i 0).val
  let v480 : Index := Scalar.indexCast arg0
  let arg1 : BitVec 32 := BitVec.ofNat 32 (i 1).val
  let c32_i32_274 : BitVec 32 := 32#32
  let v475 : BitVec 32 := Scalar.muli arg1 c32_i32_274
  let c25_i32 : BitVec 32 := 25#32
  let v476 : BitVec 32 := Scalar.addi v475 c25_i32
  let v481 : Index := Scalar.indexCast v476
  let c1_276 : Index := 1#32
  ![v480.toNat, v481.toNat, 1]
def k0_off103 (i : grid0.Coords) : Fin 3 → Nat :=
  let arg0 : BitVec 32 := BitVec.ofNat 32 (i 0).val
  let v483 : Index := Scalar.indexCast arg0
  let arg1 : BitVec 32 := BitVec.ofNat 32 (i 1).val
  let c32_i32_274 : BitVec 32 := 32#32
  let v475 : BitVec 32 := Scalar.muli arg1 c32_i32_274
  let c25_i32 : BitVec 32 := 25#32
  let v476 : BitVec 32 := Scalar.addi v475 c25_i32
  let v484 : Index := Scalar.indexCast v476
  let c2_277 : Index := 2#32
  ![v483.toNat, v484.toNat, 2]
def k0_off104 (v479 : BitVec 32) (v482 : BitVec 32) (v485 : BitVec 32) : Fin 5 → Nat :=
  let c0_278 : Index := 0#32
  let v486 : Index := Scalar.indexCast v479
  let v487 : Index := Scalar.indexCast v482
  let v488 : Index := Scalar.indexCast v485
  let c0_279 : Index := 0#32
  ![0, v486.toNat, v487.toNat, v488.toNat, 0]

def k0_chk26 (v479 : BitVec 32) (v482 : BitVec 32) (v485 : BitVec 32) : Prop :=
  (∀ a, (k0_off104 v479 v482 v485) a + S1x32x32x32x1.size a ≤ S1x128x128x128x1.size a)
instance k0_chk26.dec : ∀ (v479 : BitVec 32) (v482 : BitVec 32) (v485 : BitVec 32), Decidable (k0_chk26 v479 v482 v485) := fun v479 v482 v485 => decidable_of_iff' _ (Iff.of_eq (k0_chk26.eq_1 v479 v482 v485))
theorem k0_off104_inb : ∀ (v479 : BitVec 32) (v482 : BitVec 32) (v485 : BitVec 32) (k0_hw26 : k0_chk26 v479 v482 v485), ∀ a, (k0_off104 v479 v482 v485) a + S1x32x32x32x1.size a ≤ S1x128x128x128x1.size a := fun v479 v482 v485 k0_hw26 => k0_hw26

def k0_off105 (i : grid0.Coords) : Fin 3 → Nat :=
  let arg0 : BitVec 32 := BitVec.ofNat 32 (i 0).val
  let v496 : Index := Scalar.indexCast arg0
  let arg1 : BitVec 32 := BitVec.ofNat 32 (i 1).val
  let c32_i32_285 : BitVec 32 := 32#32
  let v494 : BitVec 32 := Scalar.muli arg1 c32_i32_285
  let c26_i32 : BitVec 32 := 26#32
  let v495 : BitVec 32 := Scalar.addi v494 c26_i32
  let v497 : Index := Scalar.indexCast v495
  let c0_286 : Index := 0#32
  ![v496.toNat, v497.toNat, 0]
def k0_off106 (i : grid0.Coords) : Fin 3 → Nat :=
  let arg0 : BitVec 32 := BitVec.ofNat 32 (i 0).val
  let v499 : Index := Scalar.indexCast arg0
  let arg1 : BitVec 32 := BitVec.ofNat 32 (i 1).val
  let c32_i32_285 : BitVec 32 := 32#32
  let v494 : BitVec 32 := Scalar.muli arg1 c32_i32_285
  let c26_i32 : BitVec 32 := 26#32
  let v495 : BitVec 32 := Scalar.addi v494 c26_i32
  let v500 : Index := Scalar.indexCast v495
  let c1_287 : Index := 1#32
  ![v499.toNat, v500.toNat, 1]
def k0_off107 (i : grid0.Coords) : Fin 3 → Nat :=
  let arg0 : BitVec 32 := BitVec.ofNat 32 (i 0).val
  let v502 : Index := Scalar.indexCast arg0
  let arg1 : BitVec 32 := BitVec.ofNat 32 (i 1).val
  let c32_i32_285 : BitVec 32 := 32#32
  let v494 : BitVec 32 := Scalar.muli arg1 c32_i32_285
  let c26_i32 : BitVec 32 := 26#32
  let v495 : BitVec 32 := Scalar.addi v494 c26_i32
  let v503 : Index := Scalar.indexCast v495
  let c2_288 : Index := 2#32
  ![v502.toNat, v503.toNat, 2]
def k0_off108 (v498 : BitVec 32) (v501 : BitVec 32) (v504 : BitVec 32) : Fin 5 → Nat :=
  let c0_289 : Index := 0#32
  let v505 : Index := Scalar.indexCast v498
  let v506 : Index := Scalar.indexCast v501
  let v507 : Index := Scalar.indexCast v504
  let c0_290 : Index := 0#32
  ![0, v505.toNat, v506.toNat, v507.toNat, 0]

def k0_chk27 (v498 : BitVec 32) (v501 : BitVec 32) (v504 : BitVec 32) : Prop :=
  (∀ a, (k0_off108 v498 v501 v504) a + S1x32x32x32x1.size a ≤ S1x128x128x128x1.size a)
instance k0_chk27.dec : ∀ (v498 : BitVec 32) (v501 : BitVec 32) (v504 : BitVec 32), Decidable (k0_chk27 v498 v501 v504) := fun v498 v501 v504 => decidable_of_iff' _ (Iff.of_eq (k0_chk27.eq_1 v498 v501 v504))
theorem k0_off108_inb : ∀ (v498 : BitVec 32) (v501 : BitVec 32) (v504 : BitVec 32) (k0_hw27 : k0_chk27 v498 v501 v504), ∀ a, (k0_off108 v498 v501 v504) a + S1x32x32x32x1.size a ≤ S1x128x128x128x1.size a := fun v498 v501 v504 k0_hw27 => k0_hw27

def k0_off109 (i : grid0.Coords) : Fin 3 → Nat :=
  let arg0 : BitVec 32 := BitVec.ofNat 32 (i 0).val
  let v515 : Index := Scalar.indexCast arg0
  let arg1 : BitVec 32 := BitVec.ofNat 32 (i 1).val
  let c32_i32_296 : BitVec 32 := 32#32
  let v513 : BitVec 32 := Scalar.muli arg1 c32_i32_296
  let c27_i32 : BitVec 32 := 27#32
  let v514 : BitVec 32 := Scalar.addi v513 c27_i32
  let v516 : Index := Scalar.indexCast v514
  let c0_297 : Index := 0#32
  ![v515.toNat, v516.toNat, 0]
def k0_off110 (i : grid0.Coords) : Fin 3 → Nat :=
  let arg0 : BitVec 32 := BitVec.ofNat 32 (i 0).val
  let v518 : Index := Scalar.indexCast arg0
  let arg1 : BitVec 32 := BitVec.ofNat 32 (i 1).val
  let c32_i32_296 : BitVec 32 := 32#32
  let v513 : BitVec 32 := Scalar.muli arg1 c32_i32_296
  let c27_i32 : BitVec 32 := 27#32
  let v514 : BitVec 32 := Scalar.addi v513 c27_i32
  let v519 : Index := Scalar.indexCast v514
  let c1_298 : Index := 1#32
  ![v518.toNat, v519.toNat, 1]
def k0_off111 (i : grid0.Coords) : Fin 3 → Nat :=
  let arg0 : BitVec 32 := BitVec.ofNat 32 (i 0).val
  let v521 : Index := Scalar.indexCast arg0
  let arg1 : BitVec 32 := BitVec.ofNat 32 (i 1).val
  let c32_i32_296 : BitVec 32 := 32#32
  let v513 : BitVec 32 := Scalar.muli arg1 c32_i32_296
  let c27_i32 : BitVec 32 := 27#32
  let v514 : BitVec 32 := Scalar.addi v513 c27_i32
  let v522 : Index := Scalar.indexCast v514
  let c2_299 : Index := 2#32
  ![v521.toNat, v522.toNat, 2]
def k0_off112 (v517 : BitVec 32) (v520 : BitVec 32) (v523 : BitVec 32) : Fin 5 → Nat :=
  let c0_300 : Index := 0#32
  let v524 : Index := Scalar.indexCast v517
  let v525 : Index := Scalar.indexCast v520
  let v526 : Index := Scalar.indexCast v523
  let c0_301 : Index := 0#32
  ![0, v524.toNat, v525.toNat, v526.toNat, 0]

def k0_chk28 (v517 : BitVec 32) (v520 : BitVec 32) (v523 : BitVec 32) : Prop :=
  (∀ a, (k0_off112 v517 v520 v523) a + S1x32x32x32x1.size a ≤ S1x128x128x128x1.size a)
instance k0_chk28.dec : ∀ (v517 : BitVec 32) (v520 : BitVec 32) (v523 : BitVec 32), Decidable (k0_chk28 v517 v520 v523) := fun v517 v520 v523 => decidable_of_iff' _ (Iff.of_eq (k0_chk28.eq_1 v517 v520 v523))
theorem k0_off112_inb : ∀ (v517 : BitVec 32) (v520 : BitVec 32) (v523 : BitVec 32) (k0_hw28 : k0_chk28 v517 v520 v523), ∀ a, (k0_off112 v517 v520 v523) a + S1x32x32x32x1.size a ≤ S1x128x128x128x1.size a := fun v517 v520 v523 k0_hw28 => k0_hw28

def k0_off113 (i : grid0.Coords) : Fin 3 → Nat :=
  let arg0 : BitVec 32 := BitVec.ofNat 32 (i 0).val
  let v534 : Index := Scalar.indexCast arg0
  let arg1 : BitVec 32 := BitVec.ofNat 32 (i 1).val
  let c32_i32_307 : BitVec 32 := 32#32
  let v532 : BitVec 32 := Scalar.muli arg1 c32_i32_307
  let c28_i32 : BitVec 32 := 28#32
  let v533 : BitVec 32 := Scalar.addi v532 c28_i32
  let v535 : Index := Scalar.indexCast v533
  let c0_308 : Index := 0#32
  ![v534.toNat, v535.toNat, 0]
def k0_off114 (i : grid0.Coords) : Fin 3 → Nat :=
  let arg0 : BitVec 32 := BitVec.ofNat 32 (i 0).val
  let v537 : Index := Scalar.indexCast arg0
  let arg1 : BitVec 32 := BitVec.ofNat 32 (i 1).val
  let c32_i32_307 : BitVec 32 := 32#32
  let v532 : BitVec 32 := Scalar.muli arg1 c32_i32_307
  let c28_i32 : BitVec 32 := 28#32
  let v533 : BitVec 32 := Scalar.addi v532 c28_i32
  let v538 : Index := Scalar.indexCast v533
  let c1_309 : Index := 1#32
  ![v537.toNat, v538.toNat, 1]
def k0_off115 (i : grid0.Coords) : Fin 3 → Nat :=
  let arg0 : BitVec 32 := BitVec.ofNat 32 (i 0).val
  let v540 : Index := Scalar.indexCast arg0
  let arg1 : BitVec 32 := BitVec.ofNat 32 (i 1).val
  let c32_i32_307 : BitVec 32 := 32#32
  let v532 : BitVec 32 := Scalar.muli arg1 c32_i32_307
  let c28_i32 : BitVec 32 := 28#32
  let v533 : BitVec 32 := Scalar.addi v532 c28_i32
  let v541 : Index := Scalar.indexCast v533
  let c2_310 : Index := 2#32
  ![v540.toNat, v541.toNat, 2]
def k0_off116 (v536 : BitVec 32) (v539 : BitVec 32) (v542 : BitVec 32) : Fin 5 → Nat :=
  let c0_311 : Index := 0#32
  let v543 : Index := Scalar.indexCast v536
  let v544 : Index := Scalar.indexCast v539
  let v545 : Index := Scalar.indexCast v542
  let c0_312 : Index := 0#32
  ![0, v543.toNat, v544.toNat, v545.toNat, 0]

def k0_chk29 (v536 : BitVec 32) (v539 : BitVec 32) (v542 : BitVec 32) : Prop :=
  (∀ a, (k0_off116 v536 v539 v542) a + S1x32x32x32x1.size a ≤ S1x128x128x128x1.size a)
instance k0_chk29.dec : ∀ (v536 : BitVec 32) (v539 : BitVec 32) (v542 : BitVec 32), Decidable (k0_chk29 v536 v539 v542) := fun v536 v539 v542 => decidable_of_iff' _ (Iff.of_eq (k0_chk29.eq_1 v536 v539 v542))
theorem k0_off116_inb : ∀ (v536 : BitVec 32) (v539 : BitVec 32) (v542 : BitVec 32) (k0_hw29 : k0_chk29 v536 v539 v542), ∀ a, (k0_off116 v536 v539 v542) a + S1x32x32x32x1.size a ≤ S1x128x128x128x1.size a := fun v536 v539 v542 k0_hw29 => k0_hw29

def k0_off117 (i : grid0.Coords) : Fin 3 → Nat :=
  let arg0 : BitVec 32 := BitVec.ofNat 32 (i 0).val
  let v553 : Index := Scalar.indexCast arg0
  let arg1 : BitVec 32 := BitVec.ofNat 32 (i 1).val
  let c32_i32_318 : BitVec 32 := 32#32
  let v551 : BitVec 32 := Scalar.muli arg1 c32_i32_318
  let c29_i32 : BitVec 32 := 29#32
  let v552 : BitVec 32 := Scalar.addi v551 c29_i32
  let v554 : Index := Scalar.indexCast v552
  let c0_319 : Index := 0#32
  ![v553.toNat, v554.toNat, 0]
def k0_off118 (i : grid0.Coords) : Fin 3 → Nat :=
  let arg0 : BitVec 32 := BitVec.ofNat 32 (i 0).val
  let v556 : Index := Scalar.indexCast arg0
  let arg1 : BitVec 32 := BitVec.ofNat 32 (i 1).val
  let c32_i32_318 : BitVec 32 := 32#32
  let v551 : BitVec 32 := Scalar.muli arg1 c32_i32_318
  let c29_i32 : BitVec 32 := 29#32
  let v552 : BitVec 32 := Scalar.addi v551 c29_i32
  let v557 : Index := Scalar.indexCast v552
  let c1_320 : Index := 1#32
  ![v556.toNat, v557.toNat, 1]
def k0_off119 (i : grid0.Coords) : Fin 3 → Nat :=
  let arg0 : BitVec 32 := BitVec.ofNat 32 (i 0).val
  let v559 : Index := Scalar.indexCast arg0
  let arg1 : BitVec 32 := BitVec.ofNat 32 (i 1).val
  let c32_i32_318 : BitVec 32 := 32#32
  let v551 : BitVec 32 := Scalar.muli arg1 c32_i32_318
  let c29_i32 : BitVec 32 := 29#32
  let v552 : BitVec 32 := Scalar.addi v551 c29_i32
  let v560 : Index := Scalar.indexCast v552
  let c2_321 : Index := 2#32
  ![v559.toNat, v560.toNat, 2]
def k0_off120 (v555 : BitVec 32) (v558 : BitVec 32) (v561 : BitVec 32) : Fin 5 → Nat :=
  let c0_322 : Index := 0#32
  let v562 : Index := Scalar.indexCast v555
  let v563 : Index := Scalar.indexCast v558
  let v564 : Index := Scalar.indexCast v561
  let c0_323 : Index := 0#32
  ![0, v562.toNat, v563.toNat, v564.toNat, 0]

def k0_chk30 (v555 : BitVec 32) (v558 : BitVec 32) (v561 : BitVec 32) : Prop :=
  (∀ a, (k0_off120 v555 v558 v561) a + S1x32x32x32x1.size a ≤ S1x128x128x128x1.size a)
instance k0_chk30.dec : ∀ (v555 : BitVec 32) (v558 : BitVec 32) (v561 : BitVec 32), Decidable (k0_chk30 v555 v558 v561) := fun v555 v558 v561 => decidable_of_iff' _ (Iff.of_eq (k0_chk30.eq_1 v555 v558 v561))
theorem k0_off120_inb : ∀ (v555 : BitVec 32) (v558 : BitVec 32) (v561 : BitVec 32) (k0_hw30 : k0_chk30 v555 v558 v561), ∀ a, (k0_off120 v555 v558 v561) a + S1x32x32x32x1.size a ≤ S1x128x128x128x1.size a := fun v555 v558 v561 k0_hw30 => k0_hw30

def k0_off121 (i : grid0.Coords) : Fin 3 → Nat :=
  let arg0 : BitVec 32 := BitVec.ofNat 32 (i 0).val
  let v572 : Index := Scalar.indexCast arg0
  let arg1 : BitVec 32 := BitVec.ofNat 32 (i 1).val
  let c32_i32_329 : BitVec 32 := 32#32
  let v570 : BitVec 32 := Scalar.muli arg1 c32_i32_329
  let c30_i32 : BitVec 32 := 30#32
  let v571 : BitVec 32 := Scalar.addi v570 c30_i32
  let v573 : Index := Scalar.indexCast v571
  let c0_330 : Index := 0#32
  ![v572.toNat, v573.toNat, 0]
def k0_off122 (i : grid0.Coords) : Fin 3 → Nat :=
  let arg0 : BitVec 32 := BitVec.ofNat 32 (i 0).val
  let v575 : Index := Scalar.indexCast arg0
  let arg1 : BitVec 32 := BitVec.ofNat 32 (i 1).val
  let c32_i32_329 : BitVec 32 := 32#32
  let v570 : BitVec 32 := Scalar.muli arg1 c32_i32_329
  let c30_i32 : BitVec 32 := 30#32
  let v571 : BitVec 32 := Scalar.addi v570 c30_i32
  let v576 : Index := Scalar.indexCast v571
  let c1_331 : Index := 1#32
  ![v575.toNat, v576.toNat, 1]
def k0_off123 (i : grid0.Coords) : Fin 3 → Nat :=
  let arg0 : BitVec 32 := BitVec.ofNat 32 (i 0).val
  let v578 : Index := Scalar.indexCast arg0
  let arg1 : BitVec 32 := BitVec.ofNat 32 (i 1).val
  let c32_i32_329 : BitVec 32 := 32#32
  let v570 : BitVec 32 := Scalar.muli arg1 c32_i32_329
  let c30_i32 : BitVec 32 := 30#32
  let v571 : BitVec 32 := Scalar.addi v570 c30_i32
  let v579 : Index := Scalar.indexCast v571
  let c2_332 : Index := 2#32
  ![v578.toNat, v579.toNat, 2]
def k0_off124 (v574 : BitVec 32) (v577 : BitVec 32) (v580 : BitVec 32) : Fin 5 → Nat :=
  let c0_333 : Index := 0#32
  let v581 : Index := Scalar.indexCast v574
  let v582 : Index := Scalar.indexCast v577
  let v583 : Index := Scalar.indexCast v580
  let c0_334 : Index := 0#32
  ![0, v581.toNat, v582.toNat, v583.toNat, 0]

def k0_chk31 (v574 : BitVec 32) (v577 : BitVec 32) (v580 : BitVec 32) : Prop :=
  (∀ a, (k0_off124 v574 v577 v580) a + S1x32x32x32x1.size a ≤ S1x128x128x128x1.size a)
instance k0_chk31.dec : ∀ (v574 : BitVec 32) (v577 : BitVec 32) (v580 : BitVec 32), Decidable (k0_chk31 v574 v577 v580) := fun v574 v577 v580 => decidable_of_iff' _ (Iff.of_eq (k0_chk31.eq_1 v574 v577 v580))
theorem k0_off124_inb : ∀ (v574 : BitVec 32) (v577 : BitVec 32) (v580 : BitVec 32) (k0_hw31 : k0_chk31 v574 v577 v580), ∀ a, (k0_off124 v574 v577 v580) a + S1x32x32x32x1.size a ≤ S1x128x128x128x1.size a := fun v574 v577 v580 k0_hw31 => k0_hw31

def k0_off125 (i : grid0.Coords) : Fin 3 → Nat :=
  let arg0 : BitVec 32 := BitVec.ofNat 32 (i 0).val
  let v591 : Index := Scalar.indexCast arg0
  let arg1 : BitVec 32 := BitVec.ofNat 32 (i 1).val
  let c32_i32_340 : BitVec 32 := 32#32
  let v589 : BitVec 32 := Scalar.muli arg1 c32_i32_340
  let c31_i32 : BitVec 32 := 31#32
  let v590 : BitVec 32 := Scalar.addi v589 c31_i32
  let v592 : Index := Scalar.indexCast v590
  let c0_341 : Index := 0#32
  ![v591.toNat, v592.toNat, 0]
def k0_off126 (i : grid0.Coords) : Fin 3 → Nat :=
  let arg0 : BitVec 32 := BitVec.ofNat 32 (i 0).val
  let v594 : Index := Scalar.indexCast arg0
  let arg1 : BitVec 32 := BitVec.ofNat 32 (i 1).val
  let c32_i32_340 : BitVec 32 := 32#32
  let v589 : BitVec 32 := Scalar.muli arg1 c32_i32_340
  let c31_i32 : BitVec 32 := 31#32
  let v590 : BitVec 32 := Scalar.addi v589 c31_i32
  let v595 : Index := Scalar.indexCast v590
  let c1_342 : Index := 1#32
  ![v594.toNat, v595.toNat, 1]
def k0_off127 (i : grid0.Coords) : Fin 3 → Nat :=
  let arg0 : BitVec 32 := BitVec.ofNat 32 (i 0).val
  let v597 : Index := Scalar.indexCast arg0
  let arg1 : BitVec 32 := BitVec.ofNat 32 (i 1).val
  let c32_i32_340 : BitVec 32 := 32#32
  let v589 : BitVec 32 := Scalar.muli arg1 c32_i32_340
  let c31_i32 : BitVec 32 := 31#32
  let v590 : BitVec 32 := Scalar.addi v589 c31_i32
  let v598 : Index := Scalar.indexCast v590
  let c2_343 : Index := 2#32
  ![v597.toNat, v598.toNat, 2]
def k0_off128 (v593 : BitVec 32) (v596 : BitVec 32) (v599 : BitVec 32) : Fin 5 → Nat :=
  let c0_344 : Index := 0#32
  let v600 : Index := Scalar.indexCast v593
  let v601 : Index := Scalar.indexCast v596
  let v602 : Index := Scalar.indexCast v599
  let c0_345 : Index := 0#32
  ![0, v600.toNat, v601.toNat, v602.toNat, 0]

def k0_chk32 (v593 : BitVec 32) (v596 : BitVec 32) (v599 : BitVec 32) : Prop :=
  (∀ a, (k0_off128 v593 v596 v599) a + S1x32x32x32x1.size a ≤ S1x128x128x128x1.size a)
instance k0_chk32.dec : ∀ (v593 : BitVec 32) (v596 : BitVec 32) (v599 : BitVec 32), Decidable (k0_chk32 v593 v596 v599) := fun v593 v596 v599 => decidable_of_iff' _ (Iff.of_eq (k0_chk32.eq_1 v593 v596 v599))
theorem k0_off128_inb : ∀ (v593 : BitVec 32) (v596 : BitVec 32) (v599 : BitVec 32) (k0_hw32 : k0_chk32 v593 v596 v599), ∀ a, (k0_off128 v593 v596 v599) a + S1x32x32x32x1.size a ≤ S1x128x128x128x1.size a := fun v593 v596 v599 k0_hw32 => k0_hw32

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

abbrev stage0_0 : Fin 2 → Memref sig .tc .vmem S1x128x128x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x32x32x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  numel1_S1x1x1 : S1x1x1.numel = 1
  h_S1x32x32x32x1 : 0 < S1x32x32x32x1.numel
  shapeCasts_S1x32x32x32x1_S32x32x32x1 : S1x32x32x32x1.ShapeCasts S32x32x32x1
  inb_S1x32x32x32x32x1_S1x1x32x32x32x1_0_0_0_0_0_0 : ∀ a, (![0, 0, 0, 0, 0, 0] : Fin 6 → Nat) a + S1x1x32x32x32x1.size a ≤ S1x32x32x32x32x1.size a
  h_S1x1x32x32x32x1 : 0 < S1x1x32x32x32x1.numel
  shapeCasts_S1x1x32x32x32x1_S32x32x32x1 : S1x1x32x32x32x1.ShapeCasts S32x32x32x1
  shapeCasts_S32x32x32x1_S1x1x32x32x32x1 : S32x32x32x1.ShapeCasts S1x1x32x32x32x1
  inb_S1x32x32x32x32x1_S1x1x32x32x32x1_0_1_0_0_0_0 : ∀ a, (![0, 1, 0, 0, 0, 0] : Fin 6 → Nat) a + S1x1x32x32x32x1.size a ≤ S1x32x32x32x32x1.size a
  inb_S1x32x32x32x32x1_S1x1x32x32x32x1_0_2_0_0_0_0 : ∀ a, (![0, 2, 0, 0, 0, 0] : Fin 6 → Nat) a + S1x1x32x32x32x1.size a ≤ S1x32x32x32x32x1.size a
  inb_S1x32x32x32x32x1_S1x1x32x32x32x1_0_3_0_0_0_0 : ∀ a, (![0, 3, 0, 0, 0, 0] : Fin 6 → Nat) a + S1x1x32x32x32x1.size a ≤ S1x32x32x32x32x1.size a
  inb_S1x32x32x32x32x1_S1x1x32x32x32x1_0_4_0_0_0_0 : ∀ a, (![0, 4, 0, 0, 0, 0] : Fin 6 → Nat) a + S1x1x32x32x32x1.size a ≤ S1x32x32x32x32x1.size a
  inb_S1x32x32x32x32x1_S1x1x32x32x32x1_0_5_0_0_0_0 : ∀ a, (![0, 5, 0, 0, 0, 0] : Fin 6 → Nat) a + S1x1x32x32x32x1.size a ≤ S1x32x32x32x32x1.size a
  inb_S1x32x32x32x32x1_S1x1x32x32x32x1_0_6_0_0_0_0 : ∀ a, (![0, 6, 0, 0, 0, 0] : Fin 6 → Nat) a + S1x1x32x32x32x1.size a ≤ S1x32x32x32x32x1.size a
  inb_S1x32x32x32x32x1_S1x1x32x32x32x1_0_7_0_0_0_0 : ∀ a, (![0, 7, 0, 0, 0, 0] : Fin 6 → Nat) a + S1x1x32x32x32x1.size a ≤ S1x32x32x32x32x1.size a
  inb_S1x32x32x32x32x1_S1x1x32x32x32x1_0_8_0_0_0_0 : ∀ a, (![0, 8, 0, 0, 0, 0] : Fin 6 → Nat) a + S1x1x32x32x32x1.size a ≤ S1x32x32x32x32x1.size a
  inb_S1x32x32x32x32x1_S1x1x32x32x32x1_0_9_0_0_0_0 : ∀ a, (![0, 9, 0, 0, 0, 0] : Fin 6 → Nat) a + S1x1x32x32x32x1.size a ≤ S1x32x32x32x32x1.size a
  inb_S1x32x32x32x32x1_S1x1x32x32x32x1_0_10_0_0_0_0 : ∀ a, (![0, 10, 0, 0, 0, 0] : Fin 6 → Nat) a + S1x1x32x32x32x1.size a ≤ S1x32x32x32x32x1.size a
  inb_S1x32x32x32x32x1_S1x1x32x32x32x1_0_11_0_0_0_0 : ∀ a, (![0, 11, 0, 0, 0, 0] : Fin 6 → Nat) a + S1x1x32x32x32x1.size a ≤ S1x32x32x32x32x1.size a
  inb_S1x32x32x32x32x1_S1x1x32x32x32x1_0_12_0_0_0_0 : ∀ a, (![0, 12, 0, 0, 0, 0] : Fin 6 → Nat) a + S1x1x32x32x32x1.size a ≤ S1x32x32x32x32x1.size a
  inb_S1x32x32x32x32x1_S1x1x32x32x32x1_0_13_0_0_0_0 : ∀ a, (![0, 13, 0, 0, 0, 0] : Fin 6 → Nat) a + S1x1x32x32x32x1.size a ≤ S1x32x32x32x32x1.size a
  inb_S1x32x32x32x32x1_S1x1x32x32x32x1_0_14_0_0_0_0 : ∀ a, (![0, 14, 0, 0, 0, 0] : Fin 6 → Nat) a + S1x1x32x32x32x1.size a ≤ S1x32x32x32x32x1.size a
  inb_S1x32x32x32x32x1_S1x1x32x32x32x1_0_15_0_0_0_0 : ∀ a, (![0, 15, 0, 0, 0, 0] : Fin 6 → Nat) a + S1x1x32x32x32x1.size a ≤ S1x32x32x32x32x1.size a
  inb_S1x32x32x32x32x1_S1x1x32x32x32x1_0_16_0_0_0_0 : ∀ a, (![0, 16, 0, 0, 0, 0] : Fin 6 → Nat) a + S1x1x32x32x32x1.size a ≤ S1x32x32x32x32x1.size a
  inb_S1x32x32x32x32x1_S1x1x32x32x32x1_0_17_0_0_0_0 : ∀ a, (![0, 17, 0, 0, 0, 0] : Fin 6 → Nat) a + S1x1x32x32x32x1.size a ≤ S1x32x32x32x32x1.size a
  inb_S1x32x32x32x32x1_S1x1x32x32x32x1_0_18_0_0_0_0 : ∀ a, (![0, 18, 0, 0, 0, 0] : Fin 6 → Nat) a + S1x1x32x32x32x1.size a ≤ S1x32x32x32x32x1.size a
  inb_S1x32x32x32x32x1_S1x1x32x32x32x1_0_19_0_0_0_0 : ∀ a, (![0, 19, 0, 0, 0, 0] : Fin 6 → Nat) a + S1x1x32x32x32x1.size a ≤ S1x32x32x32x32x1.size a
  inb_S1x32x32x32x32x1_S1x1x32x32x32x1_0_20_0_0_0_0 : ∀ a, (![0, 20, 0, 0, 0, 0] : Fin 6 → Nat) a + S1x1x32x32x32x1.size a ≤ S1x32x32x32x32x1.size a
  inb_S1x32x32x32x32x1_S1x1x32x32x32x1_0_21_0_0_0_0 : ∀ a, (![0, 21, 0, 0, 0, 0] : Fin 6 → Nat) a + S1x1x32x32x32x1.size a ≤ S1x32x32x32x32x1.size a
  inb_S1x32x32x32x32x1_S1x1x32x32x32x1_0_22_0_0_0_0 : ∀ a, (![0, 22, 0, 0, 0, 0] : Fin 6 → Nat) a + S1x1x32x32x32x1.size a ≤ S1x32x32x32x32x1.size a
  inb_S1x32x32x32x32x1_S1x1x32x32x32x1_0_23_0_0_0_0 : ∀ a, (![0, 23, 0, 0, 0, 0] : Fin 6 → Nat) a + S1x1x32x32x32x1.size a ≤ S1x32x32x32x32x1.size a
  inb_S1x32x32x32x32x1_S1x1x32x32x32x1_0_24_0_0_0_0 : ∀ a, (![0, 24, 0, 0, 0, 0] : Fin 6 → Nat) a + S1x1x32x32x32x1.size a ≤ S1x32x32x32x32x1.size a
  inb_S1x32x32x32x32x1_S1x1x32x32x32x1_0_25_0_0_0_0 : ∀ a, (![0, 25, 0, 0, 0, 0] : Fin 6 → Nat) a + S1x1x32x32x32x1.size a ≤ S1x32x32x32x32x1.size a
  inb_S1x32x32x32x32x1_S1x1x32x32x32x1_0_26_0_0_0_0 : ∀ a, (![0, 26, 0, 0, 0, 0] : Fin 6 → Nat) a + S1x1x32x32x32x1.size a ≤ S1x32x32x32x32x1.size a
  inb_S1x32x32x32x32x1_S1x1x32x32x32x1_0_27_0_0_0_0 : ∀ a, (![0, 27, 0, 0, 0, 0] : Fin 6 → Nat) a + S1x1x32x32x32x1.size a ≤ S1x32x32x32x32x1.size a
  inb_S1x32x32x32x32x1_S1x1x32x32x32x1_0_28_0_0_0_0 : ∀ a, (![0, 28, 0, 0, 0, 0] : Fin 6 → Nat) a + S1x1x32x32x32x1.size a ≤ S1x32x32x32x32x1.size a
  inb_S1x32x32x32x32x1_S1x1x32x32x32x1_0_29_0_0_0_0 : ∀ a, (![0, 29, 0, 0, 0, 0] : Fin 6 → Nat) a + S1x1x32x32x32x1.size a ≤ S1x32x32x32x32x1.size a
  inb_S1x32x32x32x32x1_S1x1x32x32x32x1_0_30_0_0_0_0 : ∀ a, (![0, 30, 0, 0, 0, 0] : Fin 6 → Nat) a + S1x1x32x32x32x1.size a ≤ S1x32x32x32x32x1.size a
  inb_S1x32x32x32x32x1_S1x1x32x32x32x1_0_31_0_0_0_0 : ∀ a, (![0, 31, 0, 0, 0, 0] : Fin 6 → Nat) a + S1x1x32x32x32x1.size a ≤ S1x32x32x32x32x1.size a
  hrank0 : 0 < grid0.rank
  k0_off1_inb : ∀ i : grid0.Coords, ∀ a, (k0_off1 i) a + S1x1x1.size a ≤ S8x128x3.size a
  k0_off2_inb : ∀ i : grid0.Coords, ∀ a, (k0_off2 i) a + S1x1x1.size a ≤ S8x128x3.size a
  k0_off3_inb : ∀ i : grid0.Coords, ∀ a, (k0_off3 i) a + S1x1x1.size a ≤ S8x128x3.size a
  k0_off5_inb : ∀ i : grid0.Coords, ∀ a, (k0_off5 i) a + S1x1x1.size a ≤ S8x128x3.size a
  k0_off6_inb : ∀ i : grid0.Coords, ∀ a, (k0_off6 i) a + S1x1x1.size a ≤ S8x128x3.size a
  k0_off7_inb : ∀ i : grid0.Coords, ∀ a, (k0_off7 i) a + S1x1x1.size a ≤ S8x128x3.size a
  k0_off9_inb : ∀ i : grid0.Coords, ∀ a, (k0_off9 i) a + S1x1x1.size a ≤ S8x128x3.size a
  k0_off10_inb : ∀ i : grid0.Coords, ∀ a, (k0_off10 i) a + S1x1x1.size a ≤ S8x128x3.size a
  k0_off11_inb : ∀ i : grid0.Coords, ∀ a, (k0_off11 i) a + S1x1x1.size a ≤ S8x128x3.size a
  k0_off13_inb : ∀ i : grid0.Coords, ∀ a, (k0_off13 i) a + S1x1x1.size a ≤ S8x128x3.size a
  k0_off14_inb : ∀ i : grid0.Coords, ∀ a, (k0_off14 i) a + S1x1x1.size a ≤ S8x128x3.size a
  k0_off15_inb : ∀ i : grid0.Coords, ∀ a, (k0_off15 i) a + S1x1x1.size a ≤ S8x128x3.size a
  k0_off17_inb : ∀ i : grid0.Coords, ∀ a, (k0_off17 i) a + S1x1x1.size a ≤ S8x128x3.size a
  k0_off18_inb : ∀ i : grid0.Coords, ∀ a, (k0_off18 i) a + S1x1x1.size a ≤ S8x128x3.size a
  k0_off19_inb : ∀ i : grid0.Coords, ∀ a, (k0_off19 i) a + S1x1x1.size a ≤ S8x128x3.size a
  k0_off21_inb : ∀ i : grid0.Coords, ∀ a, (k0_off21 i) a + S1x1x1.size a ≤ S8x128x3.size a
  k0_off22_inb : ∀ i : grid0.Coords, ∀ a, (k0_off22 i) a + S1x1x1.size a ≤ S8x128x3.size a
  k0_off23_inb : ∀ i : grid0.Coords, ∀ a, (k0_off23 i) a + S1x1x1.size a ≤ S8x128x3.size a
  k0_off25_inb : ∀ i : grid0.Coords, ∀ a, (k0_off25 i) a + S1x1x1.size a ≤ S8x128x3.size a
  k0_off26_inb : ∀ i : grid0.Coords, ∀ a, (k0_off26 i) a + S1x1x1.size a ≤ S8x128x3.size a
  k0_off27_inb : ∀ i : grid0.Coords, ∀ a, (k0_off27 i) a + S1x1x1.size a ≤ S8x128x3.size a
  k0_off29_inb : ∀ i : grid0.Coords, ∀ a, (k0_off29 i) a + S1x1x1.size a ≤ S8x128x3.size a
  k0_off30_inb : ∀ i : grid0.Coords, ∀ a, (k0_off30 i) a + S1x1x1.size a ≤ S8x128x3.size a
  k0_off31_inb : ∀ i : grid0.Coords, ∀ a, (k0_off31 i) a + S1x1x1.size a ≤ S8x128x3.size a
  k0_off33_inb : ∀ i : grid0.Coords, ∀ a, (k0_off33 i) a + S1x1x1.size a ≤ S8x128x3.size a
  k0_off34_inb : ∀ i : grid0.Coords, ∀ a, (k0_off34 i) a + S1x1x1.size a ≤ S8x128x3.size a
  k0_off35_inb : ∀ i : grid0.Coords, ∀ a, (k0_off35 i) a + S1x1x1.size a ≤ S8x128x3.size a
  k0_off37_inb : ∀ i : grid0.Coords, ∀ a, (k0_off37 i) a + S1x1x1.size a ≤ S8x128x3.size a
  k0_off38_inb : ∀ i : grid0.Coords, ∀ a, (k0_off38 i) a + S1x1x1.size a ≤ S8x128x3.size a
  k0_off39_inb : ∀ i : grid0.Coords, ∀ a, (k0_off39 i) a + S1x1x1.size a ≤ S8x128x3.size a
  k0_off41_inb : ∀ i : grid0.Coords, ∀ a, (k0_off41 i) a + S1x1x1.size a ≤ S8x128x3.size a
  k0_off42_inb : ∀ i : grid0.Coords, ∀ a, (k0_off42 i) a + S1x1x1.size a ≤ S8x128x3.size a
  k0_off43_inb : ∀ i : grid0.Coords, ∀ a, (k0_off43 i) a + S1x1x1.size a ≤ S8x128x3.size a
  k0_off45_inb : ∀ i : grid0.Coords, ∀ a, (k0_off45 i) a + S1x1x1.size a ≤ S8x128x3.size a
  k0_off46_inb : ∀ i : grid0.Coords, ∀ a, (k0_off46 i) a + S1x1x1.size a ≤ S8x128x3.size a
  k0_off47_inb : ∀ i : grid0.Coords, ∀ a, (k0_off47 i) a + S1x1x1.size a ≤ S8x128x3.size a
  k0_off49_inb : ∀ i : grid0.Coords, ∀ a, (k0_off49 i) a + S1x1x1.size a ≤ S8x128x3.size a
  k0_off50_inb : ∀ i : grid0.Coords, ∀ a, (k0_off50 i) a + S1x1x1.size a ≤ S8x128x3.size a
  k0_off51_inb : ∀ i : grid0.Coords, ∀ a, (k0_off51 i) a + S1x1x1.size a ≤ S8x128x3.size a
  k0_off53_inb : ∀ i : grid0.Coords, ∀ a, (k0_off53 i) a + S1x1x1.size a ≤ S8x128x3.size a
  k0_off54_inb : ∀ i : grid0.Coords, ∀ a, (k0_off54 i) a + S1x1x1.size a ≤ S8x128x3.size a
  k0_off55_inb : ∀ i : grid0.Coords, ∀ a, (k0_off55 i) a + S1x1x1.size a ≤ S8x128x3.size a
  k0_off57_inb : ∀ i : grid0.Coords, ∀ a, (k0_off57 i) a + S1x1x1.size a ≤ S8x128x3.size a
  k0_off58_inb : ∀ i : grid0.Coords, ∀ a, (k0_off58 i) a + S1x1x1.size a ≤ S8x128x3.size a
  k0_off59_inb : ∀ i : grid0.Coords, ∀ a, (k0_off59 i) a + S1x1x1.size a ≤ S8x128x3.size a
  k0_off61_inb : ∀ i : grid0.Coords, ∀ a, (k0_off61 i) a + S1x1x1.size a ≤ S8x128x3.size a
  k0_off62_inb : ∀ i : grid0.Coords, ∀ a, (k0_off62 i) a + S1x1x1.size a ≤ S8x128x3.size a
  k0_off63_inb : ∀ i : grid0.Coords, ∀ a, (k0_off63 i) a + S1x1x1.size a ≤ S8x128x3.size a
  k0_off65_inb : ∀ i : grid0.Coords, ∀ a, (k0_off65 i) a + S1x1x1.size a ≤ S8x128x3.size a
  k0_off66_inb : ∀ i : grid0.Coords, ∀ a, (k0_off66 i) a + S1x1x1.size a ≤ S8x128x3.size a
  k0_off67_inb : ∀ i : grid0.Coords, ∀ a, (k0_off67 i) a + S1x1x1.size a ≤ S8x128x3.size a
  k0_off69_inb : ∀ i : grid0.Coords, ∀ a, (k0_off69 i) a + S1x1x1.size a ≤ S8x128x3.size a
  k0_off70_inb : ∀ i : grid0.Coords, ∀ a, (k0_off70 i) a + S1x1x1.size a ≤ S8x128x3.size a
  k0_off71_inb : ∀ i : grid0.Coords, ∀ a, (k0_off71 i) a + S1x1x1.size a ≤ S8x128x3.size a
  k0_off73_inb : ∀ i : grid0.Coords, ∀ a, (k0_off73 i) a + S1x1x1.size a ≤ S8x128x3.size a
  k0_off74_inb : ∀ i : grid0.Coords, ∀ a, (k0_off74 i) a + S1x1x1.size a ≤ S8x128x3.size a
  k0_off75_inb : ∀ i : grid0.Coords, ∀ a, (k0_off75 i) a + S1x1x1.size a ≤ S8x128x3.size a
  k0_off77_inb : ∀ i : grid0.Coords, ∀ a, (k0_off77 i) a + S1x1x1.size a ≤ S8x128x3.size a
  k0_off78_inb : ∀ i : grid0.Coords, ∀ a, (k0_off78 i) a + S1x1x1.size a ≤ S8x128x3.size a
  k0_off79_inb : ∀ i : grid0.Coords, ∀ a, (k0_off79 i) a + S1x1x1.size a ≤ S8x128x3.size a
  k0_off81_inb : ∀ i : grid0.Coords, ∀ a, (k0_off81 i) a + S1x1x1.size a ≤ S8x128x3.size a
  k0_off82_inb : ∀ i : grid0.Coords, ∀ a, (k0_off82 i) a + S1x1x1.size a ≤ S8x128x3.size a
  k0_off83_inb : ∀ i : grid0.Coords, ∀ a, (k0_off83 i) a + S1x1x1.size a ≤ S8x128x3.size a
  k0_off85_inb : ∀ i : grid0.Coords, ∀ a, (k0_off85 i) a + S1x1x1.size a ≤ S8x128x3.size a
  k0_off86_inb : ∀ i : grid0.Coords, ∀ a, (k0_off86 i) a + S1x1x1.size a ≤ S8x128x3.size a
  k0_off87_inb : ∀ i : grid0.Coords, ∀ a, (k0_off87 i) a + S1x1x1.size a ≤ S8x128x3.size a
  k0_off89_inb : ∀ i : grid0.Coords, ∀ a, (k0_off89 i) a + S1x1x1.size a ≤ S8x128x3.size a
  k0_off90_inb : ∀ i : grid0.Coords, ∀ a, (k0_off90 i) a + S1x1x1.size a ≤ S8x128x3.size a
  k0_off91_inb : ∀ i : grid0.Coords, ∀ a, (k0_off91 i) a + S1x1x1.size a ≤ S8x128x3.size a
  k0_off93_inb : ∀ i : grid0.Coords, ∀ a, (k0_off93 i) a + S1x1x1.size a ≤ S8x128x3.size a
  k0_off94_inb : ∀ i : grid0.Coords, ∀ a, (k0_off94 i) a + S1x1x1.size a ≤ S8x128x3.size a
  k0_off95_inb : ∀ i : grid0.Coords, ∀ a, (k0_off95 i) a + S1x1x1.size a ≤ S8x128x3.size a
  k0_off97_inb : ∀ i : grid0.Coords, ∀ a, (k0_off97 i) a + S1x1x1.size a ≤ S8x128x3.size a
  k0_off98_inb : ∀ i : grid0.Coords, ∀ a, (k0_off98 i) a + S1x1x1.size a ≤ S8x128x3.size a
  k0_off99_inb : ∀ i : grid0.Coords, ∀ a, (k0_off99 i) a + S1x1x1.size a ≤ S8x128x3.size a
  k0_off101_inb : ∀ i : grid0.Coords, ∀ a, (k0_off101 i) a + S1x1x1.size a ≤ S8x128x3.size a
  k0_off102_inb : ∀ i : grid0.Coords, ∀ a, (k0_off102 i) a + S1x1x1.size a ≤ S8x128x3.size a
  k0_off103_inb : ∀ i : grid0.Coords, ∀ a, (k0_off103 i) a + S1x1x1.size a ≤ S8x128x3.size a
  k0_off105_inb : ∀ i : grid0.Coords, ∀ a, (k0_off105 i) a + S1x1x1.size a ≤ S8x128x3.size a
  k0_off106_inb : ∀ i : grid0.Coords, ∀ a, (k0_off106 i) a + S1x1x1.size a ≤ S8x128x3.size a
  k0_off107_inb : ∀ i : grid0.Coords, ∀ a, (k0_off107 i) a + S1x1x1.size a ≤ S8x128x3.size a
  k0_off109_inb : ∀ i : grid0.Coords, ∀ a, (k0_off109 i) a + S1x1x1.size a ≤ S8x128x3.size a
  k0_off110_inb : ∀ i : grid0.Coords, ∀ a, (k0_off110 i) a + S1x1x1.size a ≤ S8x128x3.size a
  k0_off111_inb : ∀ i : grid0.Coords, ∀ a, (k0_off111 i) a + S1x1x1.size a ≤ S8x128x3.size a
  k0_off113_inb : ∀ i : grid0.Coords, ∀ a, (k0_off113 i) a + S1x1x1.size a ≤ S8x128x3.size a
  k0_off114_inb : ∀ i : grid0.Coords, ∀ a, (k0_off114 i) a + S1x1x1.size a ≤ S8x128x3.size a
  k0_off115_inb : ∀ i : grid0.Coords, ∀ a, (k0_off115 i) a + S1x1x1.size a ≤ S8x128x3.size a
  k0_off117_inb : ∀ i : grid0.Coords, ∀ a, (k0_off117 i) a + S1x1x1.size a ≤ S8x128x3.size a
  k0_off118_inb : ∀ i : grid0.Coords, ∀ a, (k0_off118 i) a + S1x1x1.size a ≤ S8x128x3.size a
  k0_off119_inb : ∀ i : grid0.Coords, ∀ a, (k0_off119 i) a + S1x1x1.size a ≤ S8x128x3.size a
  k0_off121_inb : ∀ i : grid0.Coords, ∀ a, (k0_off121 i) a + S1x1x1.size a ≤ S8x128x3.size a
  k0_off122_inb : ∀ i : grid0.Coords, ∀ a, (k0_off122 i) a + S1x1x1.size a ≤ S8x128x3.size a
  k0_off123_inb : ∀ i : grid0.Coords, ∀ a, (k0_off123 i) a + S1x1x1.size a ≤ S8x128x3.size a
  k0_off125_inb : ∀ i : grid0.Coords, ∀ a, (k0_off125 i) a + S1x1x1.size a ≤ S8x128x3.size a
  k0_off126_inb : ∀ i : grid0.Coords, ∀ a, (k0_off126 i) a + S1x1x1.size a ≤ S8x128x3.size a
  k0_off127_inb : ∀ i : grid0.Coords, ∀ a, (k0_off127 i) a + S1x1x1.size a ≤ S8x128x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128x1.size a ≤ S8x128x128x128x1.size a
  hwx0_0 : ∀ i : grid0.Coords, EltTy.bits .f32 = 32 ∨ (Rect.block (s := S8x128x128x128x1) S1x128x128x128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32x32x32x1.size a ≤ S8x128x32x32x32x1.size a
  hwx0_1 : ∀ i : grid0.Coords, EltTy.bits .f32 = 32 ∨ (Rect.block (s := S8x128x32x32x32x1) S1x32x32x32x32x1.size (cc0_transform_1 i) (hinb0_1 i)).WholeWords (EltTy.packing .f32)

variable [Facts₀]

abbrev spec0_0 : Pipeline.WinSpec sig grid0.rank :=
  Pipeline.WinSpec.ofSpec (Memref.whole main_arg0) S1x128x128x128x1.size reads0_0 false false 2 stage0_0 sem0_0 nbuf0_0 hstage0_0

abbrev spec0_1 : Pipeline.WinSpec sig grid0.rank :=
  Pipeline.WinSpec.ofSpec (Memref.whole main_v0) S1x32x32x32x32x1.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8x128x128x128x1 : Shape := ⟨5, ![8, 128, 128, 128, 1]⟩
abbrev S8x128x3 : Shape := ⟨3, ![8, 128, 3]⟩
abbrev S8x128x1 : Shape := ⟨3, ![8, 128, 1]⟩
abbrev S8x128 : Shape := ⟨2, ![8, 128]⟩
abbrev S_ : Shape := ⟨0, ![]⟩
abbrev S128x1 : Shape := ⟨2, ![128, 1]⟩
abbrev S8x128x4 : Shape := ⟨3, ![8, 128, 4]⟩
abbrev S8x128x32x32x32x1 : Shape := ⟨6, ![8, 128, 32, 32, 32, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x128x128x128x1, .f32⟩
  | .hbm, ⟨1, _⟩ => ⟨S8x128x3, .i32⟩
  | .hbm, ⟨2, _⟩ => ⟨S8x128x1, .i32⟩
  | .hbm, ⟨3, _⟩ => ⟨S8x128, .i32⟩
  | .hbm, ⟨4, _⟩ => ⟨S8x128x1, .i32⟩
  | .hbm, ⟨5, _⟩ => ⟨S8x128, .i32⟩
  | .hbm, ⟨6, _⟩ => ⟨S8x128x1, .i32⟩
  | .hbm, ⟨7, _⟩ => ⟨S8x128, .i32⟩
  | .hbm, ⟨8, _⟩ => ⟨S_, .i32⟩
  | .hbm, ⟨9, _⟩ => ⟨S8x128, .i32⟩
  | .hbm, ⟨10, _⟩ => ⟨S8x128, .i1⟩
  | .hbm, ⟨11, _⟩ => ⟨S_, .i32⟩
  | .hbm, ⟨12, _⟩ => ⟨S8x128, .i32⟩
  | .hbm, ⟨13, _⟩ => ⟨S8x128, .i32⟩
  | .hbm, ⟨14, _⟩ => ⟨S8x128, .i32⟩
  | .hbm, ⟨15, _⟩ => ⟨S_, .i32⟩
  | .hbm, ⟨16, _⟩ => ⟨S8x128, .i32⟩
  | .hbm, ⟨17, _⟩ => ⟨S8x128, .i1⟩
  | .hbm, ⟨18, _⟩ => ⟨S_, .i32⟩
  | .hbm, ⟨19, _⟩ => ⟨S8x128, .i32⟩
  | .hbm, ⟨20, _⟩ => ⟨S8x128, .i32⟩
  | .hbm, ⟨21, _⟩ => ⟨S8x128, .i32⟩
  | .hbm, ⟨22, _⟩ => ⟨S_, .i32⟩
  | .hbm, ⟨23, _⟩ => ⟨S8x128, .i32⟩
  | .hbm, ⟨24, _⟩ => ⟨S8x128, .i1⟩
  | .hbm, ⟨25, _⟩ => ⟨S_, .i32⟩
  | .hbm, ⟨26, _⟩ => ⟨S8x128, .i32⟩
  | .hbm, ⟨27, _⟩ => ⟨S8x128, .i32⟩
  | .hbm, ⟨28, _⟩ => ⟨S8x128, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S8x128x1, .i32⟩
  | .hbm, ⟨38, _⟩ => ⟨S8x128x1, .i32⟩
  | .hbm, ⟨39, _⟩ => ⟨S8x128x1, .i32⟩
  | .hbm, ⟨40, _⟩ => ⟨S128x1, .i32⟩
  | .hbm, ⟨41, _⟩ => ⟨S8x128x1, .i32⟩
  | .hbm, ⟨42, _⟩ => ⟨S8x128x4, .i32⟩
  | .hbm, ⟨43, _⟩ => ⟨S8x128x32x32x32x1, .f32⟩
  | _, _ => ⟨S8x128x128x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_c_6 : Ref sig .tc := ⟨.hbm, 30, rfl⟩
abbrev main_v21 : Ref sig .tc := ⟨.hbm, 31, rfl⟩
abbrev main_c_7 : Ref sig .tc := ⟨.hbm, 32, rfl⟩
abbrev main_c_8 : Ref sig .tc := ⟨.hbm, 33, rfl⟩
abbrev main_v22 : Ref sig .tc := ⟨.hbm, 34, rfl⟩
abbrev main_c_9 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S8x128x3_S8x128x1_0_0_0 : S8x128x3.Slices ![0, 0, 0] S8x128x1
  shapeCasts_S8x128x1_S8x128 : S8x128x1.ShapeCasts S8x128
  slices_S8x128x3_S8x128x1_0_0_1 : S8x128x3.Slices ![0, 0, 1] S8x128x1
  slices_S8x128x3_S8x128x1_0_0_2 : S8x128x3.Slices ![0, 0, 2] S8x128x1
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bcast_S_S128x1 : S_.BroadcastsInDim S128x1 (![] : Fin 0 → Fin S128x1.rank)
  bcast_S128x1_S8x128x1_1_2 : S128x1.BroadcastsInDim S8x128x1 (![1, 2] : Fin 2 → Fin S8x128x1.rank)
  concatenates_S8x128x1_S8x128x1_S8x128x1_S8x128x1_S8x128x4_d2 : Shape.Concatenates [S8x128x1, S8x128x1, S8x128x1, S8x128x1] S8x128x4 2
  gather_S8x128x128x128x1_S8x128x4_S8x128x32x32x32x1_2345_n_0_0_1234_2_13232321_wf : GatherDims.WF S8x128x128x128x1 S8x128x4 S8x128x32x32x32x1 [2, 3, 4, 5] [] [0] [1, 2, 3, 4] [0] 2 ![1, 32, 32, 32, 1]

variable [Facts₀]

def gather_S8x128x128x128x1_S8x128x4_S8x128x32x32x32x1_2345_n_0_0_1234_2_13232321 : GatherDims S8x128x128x128x1 S8x128x4 S8x128x32x32x32x1 where
  offsetDims := [2, 3, 4, 5]
  collapsedSliceDims := []
  operandBatchingDims := [0]
  startIndicesBatchingDims := [0]
  startIndexMap := [1, 2, 3, 4]
  indexVectorDim := 2
  sliceSizes := ![1, 32, 32, 32, 1]
  wf := gather_S8x128x128x128x1_S8x128x4_S8x128x32x32x32x1_2345_n_0_0_1234_2_13232321_wf

class Facts : Prop extends Facts₀ where

variable [Facts]
-- ==== Proof.BoxRange.lean ====
/-
  The start corners are in range. The precondition says every float of the volume is finite and every start
  word w of `boxes` satisfies 0 ≤ w ≤ 96 as a signed 32-bit integer — exactly the corners from which a
  32-wide crop fits an axis of extent 128. Read at one entry of `boxes`, that gives the two signed comparisons;
  from them the word's unsigned value is at most 96 and equals its signed value.
-/
import proofs.«428145_j79542794322056_1_alg».proof.Pre_finite_inputs
import Idealize.ShloMosaic.Lib.ReduceAll
import Idealize.ShloMosaic.Lib.Affine

noncomputable section

namespace Cert.Crop

open Idealize.ShloMosaic

/-- A 32-bit word between 0 and 96 as a signed integer is at most 96 as an unsigned one, and the two readings agree. -/
theorem word_range (w : BitVec 32) (h0 : IntOp.cmpi .sge w 0#32 = 1#1) (h1 : IntOp.cmpi .sle w 96#32 = 1#1) :
    w.toNat ≤ 96 ∧ w.toInt = (w.toNat : Int) := by
  rw [IntOp.cmpi_sge] at h0
  rw [IntOp.cmpi_sle] at h1
  have z : (0#32 : BitVec 32).toInt = 0 := by decide
  have n : (96#32 : BitVec 32).toInt = 96 := by decide
  rw [z] at h0; rw [n] at h1
  have h32 := w.isLt
  rw [BitVec.toInt_eq_toNat_cond] at h0 h1 ⊢
  by_cases hc : 2 * w.toNat < 2 ^ 32
  · rw [if_pos hc] at h0 h1 ⊢
    exact ⟨by omega, rfl⟩
  · rw [if_neg hc] at h0
    omega

variable [Cert.Pre_finite_inputs.Facts]

/-- The scalar shape has one index. -/
instance : Subsingleton Cert.Pre_finite_inputs.S_.Idx := ⟨fun a b => funext fun d => d.elim0⟩

/-- Under the precondition every start word passes both signed comparisons. -/
theorem box_range {F : FTy → Type} [FloatOps F] (x0 : FVec F Cert.Pre_finite_inputs.S8x128x128x128x1 .f32)
    (x1 : IVec Cert.Pre_finite_inputs.S8x128x3 32)
    (h : Cert.Pre_finite_inputs.fn (F := F) x0 x1 = fun _ => 1#1) (i : Cert.Pre_finite_inputs.S8x128x3.Idx) :
    IntOp.cmpi .sge (x1 i) 0#32 = 1#1 ∧ IntOp.cmpi .sle (x1 i) 96#32 = 1#1 := by
  have e := congrFun h (fun d => d.elim0)
  dsimp only [Cert.Pre_finite_inputs.fn] at e
  obtain ⟨-, e2⟩ := IntOp.andi_eq_one.1 e
  have e3 := Host.reduce_andi_all _ _ _ _ _ e2 i
  exact IntOp.andi_eq_one.1 e3

end Cert.Crop

end
-- ==== Proof.HypsK.lean ====
/-
  The side conditions the kernel body assumes hold under the precondition. The body reads, for each of its 32
  boxes, the three start words (z, y, x) from the prefetched table — the whole `boxes` array — and assumes that
  a 32-wide window starting there fits the 128-wide axes of the resident volume. Every entry of `boxes` is in
  [0, 96] by the precondition, whichever entry a read names, so each window [w, w + 32) lies inside [0, 128).
  The pipeline's own condition on the table is empty: no index map reads it.
-/
import proofs.«428145_j79542794322056_1_alg».proof.Defs
import proofs.«428145_j79542794322056_1_alg».proof.Proof.Gen.Kernel.Frame
import proofs.«428145_j79542794322056_1_alg».proof.Proof.BoxRange
import proofs.«428145_j79542794322056_1_alg».proof.Proof.Gen.Pre_finite_inputs

set_option maxRecDepth 16384

noncomputable section

namespace Cert.Kernel.HypsOfPre

open Cert.Kernel Cert.Kernel.Gen
open Idealize.ShloMosaic Idealize.ShloMosaic.TcCoe Idealize.SL.Sem

variable {F : FTy → Type} [FloatOps F]

/-- The one index of a [1,1,1] word block has every coordinate 0. -/
theorem first_val (h1 : 0 < S1x1x1.numel) (a : Fin 3) : (Shape.Idx.first (s := S1x1x1) h1 a).val = 0 := by
  have h := (Shape.Idx.first (s := S1x1x1) h1 a).isLt
  have e : S1x1x1.size a = 1 := by fin_cases a <;> rfl
  omega

/-- The entry of `boxes` that a one-word read at offsets `off` names. -/
def widx (off : Fin 3 → Nat) (inb : ∀ a, off a + S1x1x1.size a ≤ S8x128x3.size a) : S8x128x3.Idx :=
  fun a => ⟨off a, by have := inb a; have e : S1x1x1.size a = 1 := by fin_cases a <;> rfl
                      omega⟩

/-- A one-word read of the table at offsets `off` is the table's entry there. -/
theorem word_at (c : Dev nD) (xt0 : TbBuf0 (F := F) c tbM0_0) (off : Fin 3 → Nat)
    (inb : ∀ a, off a + S1x1x1.size a ≤ S8x128x3.size a) (h1 : 0 < S1x1x1.numel) :
    tbM0_0.view.readAt (Elt F) (Rect.unit (s := S8x128x3) off S1x1x1.size inb).toLoadRect xt0 (Shape.Idx.first h1)
      = xt0 (widx off inb) := by
  rw [View.readAt_apply, View.read_apply]
  simp only [cast_eq]
  congr 1

variable (m : (ℓ : Loc nD τ sig) → Buf (Elt F) ℓ)

/-- Under the precondition every word read off the table is at most 96. -/
theorem word_le
    (hpre : ∀ c : Dev nD, Cert.Pre_finite_inputs.fn (F := F)
      (m ((c.tc : Thread nD τ).loc main_arg0)) (m ((c.tc : Thread nD τ).loc main_arg1)) = fun _ => 1#1)
    (c : Dev nD) (off : Fin 3 → Nat) (inb : ∀ a, off a + S1x1x1.size a ≤ S8x128x3.size a) (h1 : 0 < S1x1x1.numel) :
    (tbM0_0.view.readAt (Elt F) (Rect.unit (s := S8x128x3) off S1x1x1.size inb).toLoadRect (tbl m 0) (Shape.Idx.first h1) : BitVec 32).toNat ≤ 96 := by
  rw [word_at c (tbl m 0) off inb h1]
  have e := Cert.Crop.box_range _ _ (hpre 0) (widx off inb)
  exact (Cert.Crop.word_range _ e.1 e.2).1

/-- Three start words of at most 96 leave room for a [1,32,32,32,1] window inside the [1,128,128,128,1] block. -/
theorem chk_of (w1 w2 w3 : BitVec 32) (h1 : w1.toNat ≤ 96) (h2 : w2.toNat ≤ 96) (h3 : w3.toNat ≤ 96) :
    ∀ a, (![0, (Scalar.indexCast w1).toNat, (Scalar.indexCast w2).toNat, (Scalar.indexCast w3).toNat, 0] : Fin 5 → Nat) a
      + S1x32x32x32x1.size a ≤ S1x128x128x128x1.size a := by
  intro a
  have e1 : (Scalar.indexCast w1).toNat = w1.toNat := rfl
  have e2 : (Scalar.indexCast w2).toNat = w2.toNat := rfl
  have e3 : (Scalar.indexCast w3).toNat = w3.toNat := rfl
  fin_cases a <;> simp [e1, e2, e3, S1x32x32x32x1, S1x128x128x128x1] <;> omega

/-- The pipeline's condition on the table's contents asks nothing. -/
theorem ok_of_pre : Ok m := trivial

/-- All 32 assumed side conditions, at every grid point: each is the room check of three words of the table. -/
theorem hyps_of_pre
    (hpre : ∀ c : Dev nD, Cert.Pre_finite_inputs.fn (F := F)
      (m ((c.tc : Thread nD τ).loc main_arg0)) (m ((c.tc : Thread nD τ).loc main_arg1)) = fun _ => 1#1) :
    Hyps m (ok_of_pre m) :=
  Hyps.of
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))

end Cert.Kernel.HypsOfPre

end
-- ==== Proof.HypsI.lean ====
/-
  The side conditions the kernel body assumes hold under the precondition. The body reads, for each of its 32
  boxes, the three start words (z, y, x) from the prefetched table — the whole `boxes` array — and assumes that
  a 32-wide window starting there fits the 128-wide axes of the resident volume. Every entry of `boxes` is in
  [0, 96] by the precondition, whichever entry a read names, so each window [w, w + 32) lies inside [0, 128).
  The pipeline's own condition on the table is empty: no index map reads it.
-/
import proofs.«428145_j79542794322056_1_alg».proof.Defs
import proofs.«428145_j79542794322056_1_alg».proof.Proof.Gen.KernelIdeal.Frame
import proofs.«428145_j79542794322056_1_alg».proof.Proof.BoxRange
import proofs.«428145_j79542794322056_1_alg».proof.Proof.Gen.Pre_finite_inputs

set_option maxRecDepth 16384

noncomputable section

namespace Cert.KernelIdeal.HypsOfPre

open Cert.KernelIdeal Cert.KernelIdeal.Gen
open Idealize.ShloMosaic Idealize.ShloMosaic.TcCoe Idealize.SL.Sem

variable {F : FTy → Type} [FloatOps F]

/-- The one index of a [1,1,1] word block has every coordinate 0. -/
theorem first_val (h1 : 0 < S1x1x1.numel) (a : Fin 3) : (Shape.Idx.first (s := S1x1x1) h1 a).val = 0 := by
  have h := (Shape.Idx.first (s := S1x1x1) h1 a).isLt
  have e : S1x1x1.size a = 1 := by fin_cases a <;> rfl
  omega

/-- The entry of `boxes` that a one-word read at offsets `off` names. -/
def widx (off : Fin 3 → Nat) (inb : ∀ a, off a + S1x1x1.size a ≤ S8x128x3.size a) : S8x128x3.Idx :=
  fun a => ⟨off a, by have := inb a; have e : S1x1x1.size a = 1 := by fin_cases a <;> rfl
                      omega⟩

/-- A one-word read of the table at offsets `off` is the table's entry there. -/
theorem word_at (c : Dev nD) (xt0 : TbBuf0 (F := F) c tbM0_0) (off : Fin 3 → Nat)
    (inb : ∀ a, off a + S1x1x1.size a ≤ S8x128x3.size a) (h1 : 0 < S1x1x1.numel) :
    tbM0_0.view.readAt (Elt F) (Rect.unit (s := S8x128x3) off S1x1x1.size inb).toLoadRect xt0 (Shape.Idx.first h1)
      = xt0 (widx off inb) := by
  rw [View.readAt_apply, View.read_apply]
  simp only [cast_eq]
  congr 1

variable (m : (ℓ : Loc nD τ sig) → Buf (Elt F) ℓ)

/-- Under the precondition every word read off the table is at most 96. -/
theorem word_le
    (hpre : ∀ c : Dev nD, Cert.Pre_finite_inputs.fn (F := F)
      (m ((c.tc : Thread nD τ).loc main_arg0)) (m ((c.tc : Thread nD τ).loc main_arg1)) = fun _ => 1#1)
    (c : Dev nD) (off : Fin 3 → Nat) (inb : ∀ a, off a + S1x1x1.size a ≤ S8x128x3.size a) (h1 : 0 < S1x1x1.numel) :
    (tbM0_0.view.readAt (Elt F) (Rect.unit (s := S8x128x3) off S1x1x1.size inb).toLoadRect (tbl m 0) (Shape.Idx.first h1) : BitVec 32).toNat ≤ 96 := by
  rw [word_at c (tbl m 0) off inb h1]
  have e := Cert.Crop.box_range _ _ (hpre 0) (widx off inb)
  exact (Cert.Crop.word_range _ e.1 e.2).1

/-- Three start words of at most 96 leave room for a [1,32,32,32,1] window inside the [1,128,128,128,1] block. -/
theorem chk_of (w1 w2 w3 : BitVec 32) (h1 : w1.toNat ≤ 96) (h2 : w2.toNat ≤ 96) (h3 : w3.toNat ≤ 96) :
    ∀ a, (![0, (Scalar.indexCast w1).toNat, (Scalar.indexCast w2).toNat, (Scalar.indexCast w3).toNat, 0] : Fin 5 → Nat) a
      + S1x32x32x32x1.size a ≤ S1x128x128x128x1.size a := by
  intro a
  have e1 : (Scalar.indexCast w1).toNat = w1.toNat := rfl
  have e2 : (Scalar.indexCast w2).toNat = w2.toNat := rfl
  have e3 : (Scalar.indexCast w3).toNat = w3.toNat := rfl
  fin_cases a <;> simp [e1, e2, e3, S1x32x32x32x1, S1x128x128x128x1] <;> omega

/-- The pipeline's condition on the table's contents asks nothing. -/
theorem ok_of_pre : Ok m := trivial

/-- All 32 assumed side conditions, at every grid point: each is the room check of three words of the table. -/
theorem hyps_of_pre
    (hpre : ∀ c : Dev nD, Cert.Pre_finite_inputs.fn (F := F)
      (m ((c.tc : Thread nD τ).loc main_arg0)) (m ((c.tc : Thread nD τ).loc main_arg1)) = fun _ => 1#1) :
    Hyps m (ok_of_pre m) :=
  Hyps.of
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))
    (fun c t => chk_of _ _ _ (word_le m hpre c _ _ _) (word_le m hpre c _ _ _) (word_le m hpre c _ _ _))

end Cert.KernelIdeal.HypsOfPre

end
-- ==== Proof.CropSpec.lean ====
/-
  What both programs compute. For a volume `img` of shape [8,128,128,128,1] and start corners `boxes` of shape
  [8,128,3], the result of shape [8,128,32,32,32,1] holds, for batch b and box n with corner (z, y, x) = boxes[b, n, :],
  the 32×32×32 sub-volume  out[b, n, i, j, k, 0] = img[b, z + i, y + j, x + k, 0].
  A corner coordinate is read as an unsigned word and capped at 96, so that the function is defined for every
  word; on corners in [0, 96] — the precondition — the cap does nothing.
-/
import Idealize.ShloMosaic.PureOps

noncomputable section

namespace Cert.Crop

open Idealize.ShloMosaic

abbrev SImg : Shape := ⟨5, ![8, 128, 128, 128, 1]⟩
abbrev SBox : Shape := ⟨3, ![8, 128, 3]⟩
abbrev SOut : Shape := ⟨6, ![8, 128, 32, 32, 32, 1]⟩

/-- Entry (b, n, k) of the corner table. -/
def bx (b : Fin 8) (n : Fin 128) (k : Fin 3) : SBox.Idx := fun a => match a with
  | ⟨0, _⟩ => b | ⟨1, _⟩ => n | ⟨2, _⟩ => k
/-- Voxel (b, z, y, x, 0) of the volume. -/
def im (b : Fin 8) (z y x : Fin 128) : SImg.Idx := fun a => match a with
  | ⟨0, _⟩ => b | ⟨1, _⟩ => z | ⟨2, _⟩ => y | ⟨3, _⟩ => x | ⟨4, _⟩ => ⟨0, Nat.one_pos⟩
/-- Entry (b, n, i, j, k, 0) of the result. -/
def ot (b : Fin 8) (n : Fin 128) (i j k : Fin 32) : SOut.Idx := fun a => match a with
  | ⟨0, _⟩ => b | ⟨1, _⟩ => n | ⟨2, _⟩ => i | ⟨3, _⟩ => j | ⟨4, _⟩ => k | ⟨5, _⟩ => ⟨0, Nat.one_pos⟩

theorem eq_ot (j : SOut.Idx) : j = ot (j 0) (j 1) (j 2) (j 3) (j 4) := funext fun a => by
  match a with
  | ⟨0, _⟩ => rfl | ⟨1, _⟩ => rfl | ⟨2, _⟩ => rfl | ⟨3, _⟩ => rfl | ⟨4, _⟩ => rfl
  | ⟨5, h⟩ => exact Fin.ext (by have := (j ⟨5, h⟩).isLt; have e : SOut.size ⟨5, h⟩ = 1 := rfl; show (j ⟨5, h⟩).val = 0; omega)

theorem eq_im (j : SImg.Idx) : j = im (j 0) (j 1) (j 2) (j 3) := funext fun a => by
  match a with
  | ⟨0, _⟩ => rfl | ⟨1, _⟩ => rfl | ⟨2, _⟩ => rfl | ⟨3, _⟩ => rfl
  | ⟨4, h⟩ => exact Fin.ext (by have := (j ⟨4, h⟩).isLt; have e : SImg.size ⟨4, h⟩ = 1 := rfl; show (j ⟨4, h⟩).val = 0; omega)

/-- The coordinate `i` places into a window that starts at the word `w`: the start (capped at 96) plus `i`. -/
def at_ (w : BitVec 32) (i : Fin 32) : Fin 128 := ⟨min w.toNat 96 + i.val, by omega⟩

theorem at_val (w : BitVec 32) (i : Fin 32) (h : w.toNat ≤ 96) : (at_ w i).val = w.toNat + i.val := by
  show min w.toNat 96 + i.val = _; omega

/-- THE CROP: box n of batch b is the 32³ window of volume b that starts at the box's corner. -/
def crop {α : Type} (img : SImg.Idx → α) (boxes : IVec SBox 32) : SOut.Idx → α := fun j =>
  img (im (j 0) (at_ (boxes (bx (j 0) (j 1) 0)) (j 2)) (at_ (boxes (bx (j 0) (j 1) 1)) (j 3))
    (at_ (boxes (bx (j 0) (j 1) 2)) (j 4)))

theorem crop_ot {α : Type} (img : SImg.Idx → α) (boxes : IVec SBox 32) (b : Fin 8) (n : Fin 128) (i j k : Fin 32) :
    crop img boxes (ot b n i j k)
      = img (im b (at_ (boxes (bx b n 0)) i) (at_ (boxes (bx b n 1)) j) (at_ (boxes (bx b n 2)) k)) := rfl

end Cert.Crop

end
-- ==== Proof.BodyI.lean ====
/-
  What one grid point leaves in the output block. At grid point (b, q) the body handles boxes n = 32·q + j,
  j = 0 … 31: it reads the corner (z, y, x) of box n from the table, loads the [1,32,32,32,1] window of the resident
  volume of batch b that starts at (0, z, y, x, 0), and stores it as tile j of the [1,32,32,32,32,1] output block.
  So the block the point leaves is, at (0, j, i₁, i₂, i₃, 0), the volume at (0, z + i₁, y + i₂, x + i₃, 0).
  Each of the 32 stores is the same statement about its own tile; it is proved once, for a tile index j and
  whatever three table offsets name box 32·q + j, and used 32 times.
-/
import proofs.«428145_j79542794322056_1_alg».proof.Defs
import proofs.«428145_j79542794322056_1_alg».proof.Proof.Gen.KernelIdeal.Frame
import proofs.«428145_j79542794322056_1_alg».proof.Proof.HypsI
import proofs.«428145_j79542794322056_1_alg».proof.Proof.CropSpec
import Idealize.ShloMosaic.Lib.Pipeline.Value

set_option maxRecDepth 16384

noncomputable section

namespace Cert.KernelIdeal.Body

open Cert.KernelIdeal Cert.KernelIdeal.Gen Cert.KernelIdeal.HypsOfPre Cert.Crop
open Idealize.ShloMosaic Idealize.ShloMosaic.TcCoe Idealize.SL.Sem

variable {F : FTy → Type} [FloatOps F]

/-- A [1,32,32,32,1] window viewed [32,32,32,1] and then [1,1,32,32,32,1] reads (0, 0, i₁, i₂, i₃, 0) at (0, i₁, i₂, i₃, 0):
    the two casts are one cast that adds a leading unit axis. -/
theorem cast2_apply {α : Type} (v : S1x32x32x32x1.Idx → α) (h1 : S1x32x32x32x1.ShapeCasts S32x32x32x1)
    (h2 : S32x32x32x1.ShapeCasts S1x1x32x32x32x1) (x : S1x1x32x32x32x1.Idx) :
    shapeCast S1x1x32x32x32x1 (shapeCast S32x32x32x1 v h1) h2 x = v (fun a => x a.succ) := by
  have e : shapeCast S1x1x32x32x32x1 (shapeCast S32x32x32x1 v h1) h2
      = shapeCast S1x1x32x32x32x1 v (h2.trans h1) :=
    funext fun i => congrArg v (Shape.reshapeEquiv_reshapeEquiv _ _ i)
  rw [e]
  exact shapeCast_addUnit_apply ![1, 32, 32, 32, 1] v _ x

/-- A load of a [1,32,32,32,1] window of the resident volume block at offsets `off` reads the block at `off` plus
    the window's own index. -/
theorem load_at (arg3 : Memref sig .tc .vmem S1x128x128x128x1 .f32) (harg3 : arg3.IsWhole)
    (x0 : Vec F S1x128x128x128x1 .f32) (off : Fin 5 → Nat)
    (inb : ∀ a, off a + S1x32x32x32x1.size a ≤ S1x128x128x128x1.size a) (y : S1x32x32x32x1.Idx) :
    arg3.view.readAt (Elt F) (Rect.unit (s := S1x128x128x128x1) off S1x32x32x32x1.size inb).toLoadRect (harg3.unread x0) y
      = x0 (fun a => ⟨off a + (y a).val, by have := inb a; have := (y a).isLt; omega⟩) := by
  rw [View.readAt_eq_ld, Memref.IsWhole.read_unread]
  show x0 _ = x0 _
  congr 1
  funext a
  apply Fin.ext
  show off a + 1 * (y a).val = off a + (y a).val
  omega

/-- Voxel (0, z, y, x, 0) of the resident [1,128,128,128,1] volume block. -/
def imB (z y x : Fin 128) : S1x128x128x128x1.Idx := fun a => match a with
  | ⟨0, _⟩ => ⟨0, Nat.one_pos⟩ | ⟨1, _⟩ => z | ⟨2, _⟩ => y | ⟨3, _⟩ => x | ⟨4, _⟩ => ⟨0, Nat.one_pos⟩

/-- The box that tile `j` of grid point `i = (b, q)` holds: n = 32·q + j. -/
def boxOf (i : grid0.Coords) (j : Fin 32) : Fin 128 :=
  ⟨(i 1).val * 32 + j.val, by have := (i 1).isLt; have e : grid0.bound 1 = 4 := rfl; omega⟩

/-- WHAT GRID POINT `i` LEAVES IN THE OUTPUT BLOCK, as a function of the resident volume block `x0` and the corner
    table `xt0`: tile j is the window of `x0` that starts at the corner of box 32·q + j. -/
def blockG (i : grid0.Coords) (x0 : Vec F S1x128x128x128x1 .f32) (xt0 : S8x128x3.Idx → BitVec 32) :
    Vec F S1x32x32x32x32x1 .f32 := fun y =>
  x0 (imB (at_ (xt0 (bx (i 0) (boxOf i (y 1)) 0)) (y 2)) (at_ (xt0 (bx (i 0) (boxOf i (y 1)) 1)) (y 3))
    (at_ (xt0 (bx (i 0) (boxOf i (y 1)) 2)) (y 4)))

/-- ONE TILE. The store of tile `j`: its payload — the window loaded at the three words read from table offsets
    `o1 i`, `o2 i`, `o3 i`, which are entries (b, 32·q + j, 0 / 1 / 2) — is `blockG` at the tile's indices. -/
theorem tile_eq (c : Dev nD) (i : grid0.Coords) (arg3 : Memref sig .tc .vmem S1x128x128x128x1 .f32) (harg3 : arg3.IsWhole)
    (x0 : Vec F S1x128x128x128x1 .f32) (xt0 : TbBuf0 (F := F) c tbM0_0) (j : Nat) (hj : j < 32)
    (o1 o2 o3 : grid0.Coords → Fin 3 → Nat)
    (inb1 : ∀ a, o1 i a + S1x1x1.size a ≤ S8x128x3.size a) (inb2 : ∀ a, o2 i a + S1x1x1.size a ≤ S8x128x3.size a)
    (inb3 : ∀ a, o3 i a + S1x1x1.size a ≤ S8x128x3.size a) (n1 n2 n3 : 0 < S1x1x1.numel)
    (e1 : ∀ (i : grid0.Coords) a, o1 i a = (![(i 0).val, (i 1).val * 32 + j, 0] : Fin 3 → Nat) a)
    (e2 : ∀ (i : grid0.Coords) a, o2 i a = (![(i 0).val, (i 1).val * 32 + j, 1] : Fin 3 → Nat) a)
    (e3 : ∀ (i : grid0.Coords) a, o3 i a = (![(i 0).val, (i 1).val * 32 + j, 2] : Fin 3 → Nat) a)
    (inbL : ∀ a, (![0,
        (Scalar.indexCast (tbM0_0.view.readAt (Elt F) (Rect.unit (s := S8x128x3) (o1 i) S1x1x1.size inb1).toLoadRect xt0 (Shape.Idx.first n1))).toNat,
        (Scalar.indexCast (tbM0_0.view.readAt (Elt F) (Rect.unit (s := S8x128x3) (o2 i) S1x1x1.size inb2).toLoadRect xt0 (Shape.Idx.first n2))).toNat,
        (Scalar.indexCast (tbM0_0.view.readAt (Elt F) (Rect.unit (s := S8x128x3) (o3 i) S1x1x1.size inb3).toLoadRect xt0 (Shape.Idx.first n3))).toNat,
        0] : Fin 5 → Nat) a + S1x32x32x32x1.size a ≤ S1x128x128x128x1.size a)
    (hc1 : S1x32x32x32x1.ShapeCasts S32x32x32x1) (hc2 : S32x32x32x1.ShapeCasts S1x1x32x32x32x1)
    (inbS : ∀ a, (![0, j, 0, 0, 0, 0] : Fin 6 → Nat) a + S1x1x32x32x32x1.size a ≤ S1x32x32x32x32x1.size a)
    (x : S1x1x32x32x32x1.Idx) :
    shapeCast S1x1x32x32x32x1 (shapeCast S32x32x32x1
        (arg3.view.readAt (Elt F) (Rect.unit (s := S1x128x128x128x1) (![0,
          (Scalar.indexCast (tbM0_0.view.readAt (Elt F) (Rect.unit (s := S8x128x3) (o1 i) S1x1x1.size inb1).toLoadRect xt0 (Shape.Idx.first n1))).toNat,
          (Scalar.indexCast (tbM0_0.view.readAt (Elt F) (Rect.unit (s := S8x128x3) (o2 i) S1x1x1.size inb2).toLoadRect xt0 (Shape.Idx.first n2))).toNat,
          (Scalar.indexCast (tbM0_0.view.readAt (Elt F) (Rect.unit (s := S8x128x3) (o3 i) S1x1x1.size inb3).toLoadRect xt0 (Shape.Idx.first n3))).toNat,
          0] : Fin 5 → Nat) S1x32x32x32x1.size inbL).toLoadRect (harg3.unread x0)) hc1) hc2 x
      = blockG i x0 xt0 ((Rect.unit (s := S1x32x32x32x32x1) (![0, j, 0, 0, 0, 0] : Fin 6 → Nat) S1x1x32x32x32x1.size inbS).emb x) := by
  rw [cast2_apply]
  refine (load_at arg3 harg3 x0 _ inbL _).trans ?_
  -- the three words are the table's entries for box 32·q + j
  have hw : ∀ (k : Fin 3) (o : grid0.Coords → Fin 3 → Nat) (inb : ∀ a, o i a + S1x1x1.size a ≤ S8x128x3.size a)
      (n : 0 < S1x1x1.numel) (e : ∀ (i : grid0.Coords) a, o i a = (![(i 0).val, (i 1).val * 32 + j, k.val] : Fin 3 → Nat) a),
      tbM0_0.view.readAt (Elt F) (Rect.unit (s := S8x128x3) (o i) S1x1x1.size inb).toLoadRect xt0 (Shape.Idx.first n)
        = xt0 (bx (i 0) (boxOf i ⟨j, hj⟩) k) := by
    intro k o inb n e
    rw [word_at]
    congr 1
    funext a
    apply Fin.ext
    show o i a = _
    rw [e i a]
    match a with
    | ⟨0, _⟩ => rfl
    | ⟨1, _⟩ => rfl
    | ⟨2, _⟩ => rfl
  have h1 := hw 0 o1 inb1 n1 e1
  have h2 := hw 1 o2 inb2 n2 e2
  have h3 := hw 2 o3 inb3 n3 e3
  -- each word leaves room for 32 entries, so the cap in `at_` does nothing
  have b1 := inbL 1
  have b2 := inbL 2
  have b3 := inbL 3
  rw [h1] at b1; rw [h2] at b2; rw [h3] at b3
  have c1 : (xt0 (bx (i 0) (boxOf i ⟨j, hj⟩) 0) : BitVec 32).toNat ≤ 96 := by
    have : (xt0 (bx (i 0) (boxOf i ⟨j, hj⟩) 0) : BitVec 32).toNat + 32 ≤ 128 := b1
    omega
  have c2 : (xt0 (bx (i 0) (boxOf i ⟨j, hj⟩) 1) : BitVec 32).toNat ≤ 96 := by
    have : (xt0 (bx (i 0) (boxOf i ⟨j, hj⟩) 1) : BitVec 32).toNat + 32 ≤ 128 := b2
    omega
  have c3 : (xt0 (bx (i 0) (boxOf i ⟨j, hj⟩) 2) : BitVec 32).toNat ≤ 96 := by
    have : (xt0 (bx (i 0) (boxOf i ⟨j, hj⟩) 2) : BitVec 32).toNat + 32 ≤ 128 := b3
    omega
  -- the tile's index (0, j, i₁, i₂, i₃, 0) of the block
  have x0v : (x 0).val = 0 := by have := (x 0).isLt; have e : S1x1x32x32x32x1.size 0 = 1 := rfl; omega
  have x1v : (x 1).val = 0 := by have := (x 1).isLt; have e : S1x1x32x32x32x1.size 1 = 1 := rfl; omega
  have x5v : (x 5).val = 0 := by have := (x 5).isLt; have e : S1x1x32x32x32x1.size 5 = 1 := rfl; omega
  unfold blockG
  have ey1 : ((Rect.unit (s := S1x32x32x32x32x1) (![0, j, 0, 0, 0, 0] : Fin 6 → Nat) S1x1x32x32x32x1.size inbS).emb x 1)
      = (⟨j, hj⟩ : Fin 32) := Fin.ext (by show j + 1 * (x 1).val = j; omega)
  have ey2 : ((Rect.unit (s := S1x32x32x32x32x1) (![0, j, 0, 0, 0, 0] : Fin 6 → Nat) S1x1x32x32x32x1.size inbS).emb x 2)
      = (x 2 : Fin 32) := Fin.ext (by show 0 + 1 * (x 2).val = (x 2).val; omega)
  have ey3 : ((Rect.unit (s := S1x32x32x32x32x1) (![0, j, 0, 0, 0, 0] : Fin 6 → Nat) S1x1x32x32x32x1.size inbS).emb x 3)
      = (x 3 : Fin 32) := Fin.ext (by show 0 + 1 * (x 3).val = (x 3).val; omega)
  have ey4 : ((Rect.unit (s := S1x32x32x32x32x1) (![0, j, 0, 0, 0, 0] : Fin 6 → Nat) S1x1x32x32x32x1.size inbS).emb x 4)
      = (x 4 : Fin 32) := Fin.ext (by show 0 + 1 * (x 4).val = (x 4).val; omega)
  rw [ey1, ey2, ey3, ey4]
  congr 1
  funext a
  apply Fin.ext
  match a with
  | ⟨0, _⟩ => show 0 + (x 1).val = 0; omega
  | ⟨1, _⟩ =>
    show (Scalar.indexCast _).toNat + (x 2).val = (at_ _ (x 2)).val
    refine Eq.trans ?_ (at_val _ (x 2) c1).symm
    exact congrArg (fun w : BitVec 32 => w.toNat + (x 2).val) h1
  | ⟨2, _⟩ =>
    show (Scalar.indexCast _).toNat + (x 3).val = (at_ _ (x 3)).val
    refine Eq.trans ?_ (at_val _ (x 3) c2).symm
    exact congrArg (fun w : BitVec 32 => w.toNat + (x 3).val) h2
  | ⟨3, _⟩ =>
    show (Scalar.indexCast _).toNat + (x 4).val = (at_ _ (x 4)).val
    refine Eq.trans ?_ (at_val _ (x 4) c3).symm
    exact congrArg (fun w : BitVec 32 => w.toNat + (x 4).val) h3
  | ⟨4, _⟩ => show 0 + (x 5).val = 0; omega

/-- THE BLOCK A GRID POINT LEAVES: the 32 stores tile the output block (the generated cover), and every store's
    payload is `blockG` at its own tile (`tile_eq`), so the block read back is `blockG`. -/
theorem out_eq (c : Dev nD) (i : grid0.Coords) (arg3 : Memref sig .tc .vmem S1x128x128x128x1 .f32) (harg3 : arg3.IsWhole)
    (arg4 : Memref sig .tc .vmem S1x32x32x32x32x1 .f32) (harg4 : arg4.IsWhole)
    (x0 : Vec F S1x128x128x128x1 .f32) (xt0 : TbBuf0 (F := F) c tbM0_0) (h1 : _) (h2 : _) (h3 : _) (h4 : _) (h5 : _) (h6 : _) (h7 : _) (h8 : _) (h9 : _) (h10 : _) (h11 : _) (h12 : _) (h13 : _) (h14 : _) (h15 : _) (h16 : _) (h17 : _) (h18 : _) (h19 : _) (h20 : _) (h21 : _) (h22 : _) (h23 : _) (h24 : _) (h25 : _) (h26 : _) (h27 : _) (h28 : _) (h29 : _) (h30 : _) (h31 : _) (h32 : _) :
    out0_A_1 c i arg3 harg3 arg4 harg4 x0 xt0 h1 h2 h3 h4 h5 h6 h7 h8 h9 h10 h11 h12 h13 h14 h15 h16 h17 h18 h19 h20 h21 h22 h23 h24 h25 h26 h27 h28 h29 h30 h31 h32 = blockG i x0 xt0 := by
  unfold out0_A_1
  refine (View.read_writes_eq_canon _ _ _ (cover0_A_1 c i arg3 harg3 arg4 harg4 x0 xt0 h1 h2 h3 h4 h5 h6 h7 h8 h9 h10 h11 h12 h13 h14 h15 h16 h17 h18 h19 h20 h21 h22 h23 h24 h25 h26 h27 h28 h29 h30 h31 h32)).trans ?_
  funext y
  refine View.canon_apply_of_pieces (blockG i x0 xt0) _ ?_ y (cover0_A_1 c i arg3 harg3 arg4 harg4 x0 xt0 h1 h2 h3 h4 h5 h6 h7 h8 h9 h10 h11 h12 h13 h14 h15 h16 h17 h18 h19 h20 h21 h22 h23 h24 h25 h26 h27 h28 h29 h30 h31 h32 y)
  unfold kernelRun0_A
  dsimp only
  sl_unfold_run_names
  intro p hp x
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact tile_eq c i arg3 harg3 x0 xt0 _ (by decide) _ _ _ _ _ _ _ _ _ (by decide +kernel) (by decide +kernel) (by decide +kernel) _ _ _ (by decide) x

end Cert.KernelIdeal.Body

end
-- ==== Proof.ArrI.lean ====
/-
  From blocks to the array. Grid point t = (b, q) writes its output block back as block (b, q) of the
  [8,128,32,32,32,1] result: boxes 32·q … 32·q + 31 of batch b. Its input block is volume b whole, and the table
  is `boxes` whole, so what it writes is the crop restricted to that block. The 8 × 4 blocks tile the result, so
  the result array ends holding the crop of the argument arrays.
-/
import proofs.«428145_j79542794322056_1_alg».proof.Proof.BodyI

set_option maxRecDepth 16384

noncomputable section

namespace Cert.KernelIdeal.Arr

open Cert.KernelIdeal Cert.KernelIdeal.Gen Cert.KernelIdeal.HypsOfPre Cert.KernelIdeal.Body Cert.Crop
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` leaves in the output's staging block: `blockG` of the point's volume block and the table. -/
theorem outs_eq (hO : Ok m) (hH : Hyps m hO) (c : Dev nD) (t : Fin (cfgM m hO).N) :
    outsAt0 m hO hH c t = blockG (grid0.coords t) (iblk m hO c 0 t) (tbl m 0) := by
  unfold outsAt0
  exact out_eq c (grid0.coords t) (ms0_0 m hO t) (hs0_0 m hO t) (ms0_1 m hO t) (hs0_1 m hO t) (iblk m hO c 0 t) (tbl m 0)
    (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t)

/-- The two index maps over the grid: point (b, q) fetches volume block b and writes back output block (b, q). -/
theorem maps : ∀ i : grid0.Coords,
    cc0_transform_0 i = ![(i 0).val, 0, 0, 0, 0] ∧ cc0_transform_1 i = ![(i 0).val, (i 1).val, 0, 0, 0, 0] := by
  decide +kernel

/-- There is one device. -/
theorem dev0 (c : Dev nD) : c = 0 := Subsingleton.elim _ _

/-- The block of point (b, q) is the crop at block (b, q): if the point's volume block is volume b of `X`, then
    `blockG` at a block index is the crop of `X` at the array index that block index sits at. -/
theorem block_crop (X : SImg.Idx → Elt F .f32) (B : IVec SBox 32) (i : grid0.Coords) (x0 : Vec F S1x128x128x128x1 .f32)
    (hx0 : ∀ z y x : Fin 128, x0 (imB z y x) = X (im (i 0) z y x)) (y : S1x32x32x32x32x1.Idx) (e : SOut.Idx)
    (he : e = ot (i 0) (boxOf i (y 1)) (y 2) (y 3) (y 4)) :
    blockG i x0 B y = crop X B e := by
  subst he
  unfold blockG
  rw [hx0]
  rfl

/-- WHAT POINT `t` WRITES BACK is block `t` of the crop of the argument arrays. -/
theorem flushed_eq (hO : Ok m) (hH : Hyps m hO) (c : Dev nD) (t : Fin (cfgM m hO).N) :
    (dats m hO hH 0 c).flushed 1 t
      = (((cfgM m hO).win 1).blk t).view.read (Elt F) (crop (V m c main_arg0) (m ((c : Thread nD τ).loc main_arg1))) := by
  show ((cfgM m hO).win 1).cut (grid0.coords t) ((dats m hO hH 0 c).after 1 t) = _
  rw [after0_1, outs_eq]
  refine funext fun (y : S1x32x32x32x32x1.Idx) => ?_
  obtain rfl := dev0 c
  obtain ⟨m0, m1⟩ := maps (grid0.coords t)
  refine block_crop (V m 0 main_arg0) (m (((0 : Dev nD) : Thread nD τ).loc main_arg1)) (grid0.coords t) (iblk m hO 0 0 t) ?_ y
    ((((cfgM m hO).win 1).blk t).view.emb y) ?_
  · intro z y' x
    show V m 0 main_arg0 ((((cfgM m hO).win 0).blk t).view.emb (imB z y' x)) = _
    congr 1
    funext a
    apply Fin.ext
    show ((cfgM m hO).win 0).index t a * ((cfgM m hO).win 0).size a + 1 * ((imB z y' x) a).val = _
    have hi : ((cfgM m hO).win 0).index t = cc0_transform_0 (grid0.coords t) := rfl
    have hs : ((cfgM m hO).win 0).size = S1x128x128x128x1.size := rfl
    rw [hi, hs, m0]
    match a with
    | ⟨0, _⟩ => show (grid0.coords t 0).val * 1 + 1 * 0 = (grid0.coords t 0).val; omega
    | ⟨1, _⟩ => show 0 * 128 + 1 * z.val = z.val; omega
    | ⟨2, _⟩ => show 0 * 128 + 1 * y'.val = y'.val; omega
    | ⟨3, _⟩ => show 0 * 128 + 1 * x.val = x.val; omega
    | ⟨4, _⟩ => show 0 * 1 + 1 * 0 = 0; omega
  · funext a
    apply Fin.ext
    have y0v : (y 0).val = 0 := by have := (y 0).isLt; have e : S1x32x32x32x32x1.size 0 = 1 := rfl; omega
    have y5v : (y 5).val = 0 := by have := (y 5).isLt; have e : S1x32x32x32x32x1.size 5 = 1 := rfl; omega
    show ((cfgM m hO).win 1).index t a * ((cfgM m hO).win 1).size a + 1 * (y a).val = _
    have hi : ((cfgM m hO).win 1).index t = cc0_transform_1 (grid0.coords t) := rfl
    have hs : ((cfgM m hO).win 1).size = S1x32x32x32x32x1.size := rfl
    rw [hi, hs, m1]
    match a with
    | ⟨0, _⟩ => show (grid0.coords t 0).val * 1 + 1 * (y 0).val = (grid0.coords t 0).val; omega
    | ⟨1, _⟩ => show (grid0.coords t 1).val * 32 + 1 * (y 1).val = (grid0.coords t 1).val * 32 + (y 1).val; omega
    | ⟨2, _⟩ => show 0 * 32 + 1 * (y 2).val = (y 2).val; omega
    | ⟨3, _⟩ => show 0 * 32 + 1 * (y 3).val = (y 3).val; omega
    | ⟨4, _⟩ => show 0 * 32 + 1 * (y 4).val = (y 4).val; omega
    | ⟨5, _⟩ => show 0 * 1 + 1 * (y 5).val = 0; omega

/-- Every block (b, q) of the result is some point's. -/
theorem onto : ∀ (b : Fin 8) (q : Fin 4), ∃ t : Fin grid0.N, cc0_transform_1 (grid0.coords t) = ![b.val, q.val, 0, 0, 0, 0] := by
  decide +kernel

/-- THE BLOCKS COVER THE RESULT: entry (b, n, …) lies in the block of point (b, n / 32), and every point writes back. -/
theorem cover (hO : Ok m) (i : S8x128x32x32x32x1.Idx) :
    ∃ t : Fin (cfgM m hO).N, ((cfgM m hO).win 1).flush t = true ∧ i ∈ (((cfgM m hO).win 1).blk t).view.set := by
  have h0 : (i 0).val < 8 := (i 0).isLt
  have h1 : (i 1).val < 128 := (i 1).isLt
  have h2 : (i 2).val < 32 := (i 2).isLt
  have h3 : (i 3).val < 32 := (i 3).isLt
  have h4 : (i 4).val < 32 := (i 4).isLt
  have h5 : (i 5).val < 1 := (i 5).isLt
  obtain ⟨t, ht⟩ := onto ⟨(i 0).val, h0⟩ ⟨(i 1).val / 32, by omega⟩
  refine ⟨t, flush0_1 (adm m hO) t, ?_⟩
  have e : ((View.whole main_v0).slice (((cfgM m hO).win 1).rect t)).set = (((cfgM m hO).win 1).rect t).set :=
    View.set_slice_whole main_v0 (((cfgM m hO).win 1).rect t)
  show i ∈ ((View.whole main_v0).slice (((cfgM m hO).win 1).rect t)).set
  refine e ▸ ?_
  refine Rect.mem_set_unit.2 fun a => ?_
  show ((cfgM m hO).win 1).index t a * ((cfgM m hO).win 1).size a ≤ (i a).val
    ∧ (i a).val < ((cfgM m hO).win 1).index t a * ((cfgM m hO).win 1).size a + ((cfgM m hO).win 1).size a
  have hi : ((cfgM m hO).win 1).index t = cc0_transform_1 (grid0.coords t) := rfl
  have hs : ((cfgM m hO).win 1).size = S1x32x32x32x32x1.size := rfl
  rw [hi, hs, ht]
  match a with
  | ⟨0, _⟩ => show (i 0).val * 1 ≤ (i 0).val ∧ (i 0).val < (i 0).val * 1 + 1; omega
  | ⟨1, _⟩ => show (i 1).val / 32 * 32 ≤ (i 1).val ∧ (i 1).val < (i 1).val / 32 * 32 + 32; omega
  | ⟨2, _⟩ => show 0 * 32 ≤ (i 2).val ∧ (i 2).val < 0 * 32 + 32; omega
  | ⟨3, _⟩ => show 0 * 32 ≤ (i 3).val ∧ (i 3).val < 0 * 32 + 32; omega
  | ⟨4, _⟩ => show 0 * 32 ≤ (i 4).val ∧ (i 4).val < 0 * 32 + 32; omega
  | ⟨5, _⟩ => show 0 * 1 ≤ (i 5).val ∧ (i 5).val < 0 * 1 + 1; omega

/-- THE RESULT ARRAY after the run is the crop of the argument arrays. -/
theorem final (hO : Ok m) (hH : Hyps m hO) (c : Dev nD) :
    (dats m hO hH 0 c).arrAt 1 (cfgM m hO).N = crop (V m c main_arg0) (m ((c : Thread nD τ).loc main_arg1)) :=
  (dats m hO hH 0 c).arrAt_eq_of_cover 1 (crop (V m c main_arg0) (m ((c : Thread nD τ).loc main_arg1)))
    (fun t _ => flushed_eq m hO hH c t) (cover m hO)

/-- THE KERNEL'S RUN with its result named: the crop of the argument arrays, which end unchanged. -/
theorem run (hO : Ok m) (hH : Hyps m hO) :
    θ_run defs (onTc (τ := τ) (main (F := F))) ⟨m, fun _ => 0, ρ⟩ fun r => ∀ c : Dev nD,
      r.2.mem ((c.tc : Thread nD τ).loc main_v0)
        = crop (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have H := run_main m ρ hO hH
  refine (θ_run defs _ _).mono (fun _ hq c => ?_) H
  exact ⟨((hq c).1 1).trans (final m hO hH c),
    ((hq c).1 0).trans (((dats m hO hH 0 c).arrAt_in 0 rfl _).trans ((A_eq m hO hH c 0).trans (V_main_arg0 m c))),
    ((hq c).2 main_arg1 (by decide : main_arg1 ∈ Pipeline.restRefs sig spec0)).trans (V_main_arg1 m c)⟩

end Cert.KernelIdeal.Arr

end
-- ==== Proof.RefValue.lean ====
/-
  The reference computes the crop. Its program builds, per box, a start vector (z', y', x', 0) — each corner word
  with 128 added when it is negative — and gathers a [1,32,32,32,1] slice of volume b at that start, each start
  clamped into [0, 96] (0 on the last axis). For corner words in [0, 96] no word is negative, so nothing is added,
  and the clamp leaves every start as it is: the slice for box n of batch b starts at (z, y, x).
-/
import proofs.«428145_j79542794322056_1_alg».proof.Proof.Gen.ReferenceIdeal.Read
import proofs.«428145_j79542794322056_1_alg».proof.Proof.CropSpec
import proofs.«428145_j79542794322056_1_alg».proof.Proof.BoxRange
import Idealize.ShloMosaic.Lib.Pipeline.Value
import Idealize.ShloMosaic.Lib.Affine

set_option maxRecDepth 16384

noncomputable section

namespace Cert.ReferenceIdeal.RefValue

open Cert.ReferenceIdeal Cert.ReferenceIdeal.Gen Cert.ReferenceIdeal.Read Cert.Crop
open Idealize.ShloMosaic

variable {F : FTy → Type} [FloatOps F]

abbrev G := gather_S8x128x128x128x1_S8x128x4_S8x128x32x32x32x1_2345_n_0_0_1234_2_13232321

/-- Entry (b, n, k) of the [8,128,4] start-index array. -/
def sx (b : Fin 8) (n : Fin 128) (k : Fin 4) : S8x128x4.Idx := fun a => match a with
  | ⟨0, _⟩ => b | ⟨1, _⟩ => n | ⟨2, _⟩ => k
/-- Entry (b, n, 0) of a [8,128,1] column and entry (b, n) of a [8,128] array. -/
def col (b : Fin 8) (n : Fin 128) : S8x128x1.Idx := fun a => match a with
  | ⟨0, _⟩ => b | ⟨1, _⟩ => n | ⟨2, _⟩ => ⟨0, Nat.one_pos⟩
def pr (b : Fin 8) (n : Fin 128) : S8x128.Idx := fun a => match a with
  | ⟨0, _⟩ => b | ⟨1, _⟩ => n

/-- The start the gather uses on a 128-wide axis: the start word read signed, clamped into [0, 96]. -/
def gst (w : BitVec 32) (i : Fin 32) : Fin 128 := ⟨min w.toInt.toNat 96 + i.val, by omega⟩

/-- THE GATHER READ AT AN ENTRY: result (b, n, i, j, k, 0) is the volume at (b, start₁ + i, start₂ + j, start₃ + k, 0),
    the three starts the clamped words (b, n, 0 / 1 / 2) of the start-index array. -/
theorem gather_read {α : Type} (x : S8x128x128x128x1.Idx → α) (idx : IVec S8x128x4 32)
    (b : Fin 8) (n : Fin 128) (i j k : Fin 32) :
    Host.gather G x idx (ot b n i j k)
      = x (im b (gst (idx (sx b n 0)) i) (gst (idx (sx b n 1)) j) (gst (idx (sx b n 2)) k)) := by
  unfold Host.gather
  congr 1
  funext a
  apply Fin.ext
  fin_cases a <;>
    simp [GatherDims.operandIdx, GatherDims.start, GatherDims.offCoord, GatherDims.batchCoord, G,
      gather_S8x128x128x128x1_S8x128x4_S8x128x32x32x32x1_2345_n_0_0_1234_2_13232321, GatherDims.sKept, Shape.kept, im, gst]
  · rfl
  all_goals
    congr 1
    refine congrArg (fun s : S8x128x4.Idx => min (idx s).toInt.toNat 96) ?_
    funext a
    apply Fin.ext
    fin_cases a <;> rfl

/-- The start-index array at (b, n, k), k = 0, 1, 2, is the k-th corner column at (b, n, 0): the array is the four
    [8,128,1] columns joined along the last axis. -/
theorem start_col (x1 : (⟨S8x128x3, .i32⟩ : BufTy).Contents (Elt F)) (b : Fin 8) (n : Fin 128) :
    val_main_v29 (F := F) x1 (sx b n 0) = val_main_v24 (F := F) x1 (col b n)
    ∧ val_main_v29 (F := F) x1 (sx b n 1) = val_main_v25 (F := F) x1 (col b n)
    ∧ val_main_v29 (F := F) x1 (sx b n 2) = val_main_v26 (F := F) x1 (col b n) := by
  unfold val_main_v29
  refine ⟨?_, ?_, ?_⟩
  · refine concatenate_apply_piece 2 _ _ (sx b n 0) 0 (by simp) S8x128x1 _ rfl rfl 0 rfl (col b n) ?_ ?_
    · intro a ha; fin_cases a <;> first | rfl | exact absurd rfl ha
    · rfl
  · refine concatenate_apply_piece 2 _ _ (sx b n 1) 1 (by simp) S8x128x1 _ rfl rfl 1 rfl (col b n) ?_ ?_
    · intro a ha; fin_cases a <;> first | rfl | exact absurd rfl ha
    · rfl
  · refine concatenate_apply_piece 2 _ _ (sx b n 2) 2 (by simp) S8x128x1 _ rfl rfl 2 rfl (col b n) ?_ ?_
    · intro a ha; fin_cases a <;> first | rfl | exact absurd rfl ha
    · rfl

/-- Column 0 of the start vectors at (b, n) is corner word 0 of box n, when that word is not negative. -/
theorem corner0 (x1 : (⟨S8x128x3, .i32⟩ : BufTy).Contents (Elt F)) (b : Fin 8) (n : Fin 128)
    (h : IntOp.cmpi .sge (x1 (bx b n 0)) 0#32 = 1#1) :
    val_main_v24 (F := F) x1 (col b n) = x1 (bx b n 0) := by
  have e : idx_main_v0 (idx_main_v1 (idx_main_v24 (col b n))) = bx b n 0 := by
    funext a
    apply Fin.ext
    have hb := b.isLt
    have hn := n.isLt
    match a with
    | ⟨0, _⟩ => show (b.val * 128 + n.val) / 128 = b.val; omega
    | ⟨1, _⟩ => show (b.val * 128 + n.val) / 1 % 128 = n.val; omega
    | ⟨2, _⟩ => rfl
  rw [val_main_v24_apply, val_main_v10_apply, val_main_v7_apply, val_main_v6_apply, val_main_c_apply,
    val_main_v1_apply, val_main_v0_apply, e]
  refine if_neg fun h' => ?_
  have h'' : IntOp.cmpi .slt (x1 (bx b n 0)) 0#32 = 1#1 := h'
  rw [IntOp.cmpi_slt] at h''
  rw [IntOp.cmpi_sge] at h
  omega

/-- Column 1 of the start vectors at (b, n) is corner word 1 of box n, when that word is not negative. -/
theorem corner1 (x1 : (⟨S8x128x3, .i32⟩ : BufTy).Contents (Elt F)) (b : Fin 8) (n : Fin 128)
    (h : IntOp.cmpi .sge (x1 (bx b n 1)) 0#32 = 1#1) :
    val_main_v25 (F := F) x1 (col b n) = x1 (bx b n 1) := by
  have e : idx_main_v2 (idx_main_v3 (idx_main_v25 (col b n))) = bx b n 1 := by
    funext a
    apply Fin.ext
    have hb := b.isLt
    have hn := n.isLt
    match a with
    | ⟨0, _⟩ => show (b.val * 128 + n.val) / 128 = b.val; omega
    | ⟨1, _⟩ => show (b.val * 128 + n.val) / 1 % 128 = n.val; omega
    | ⟨2, _⟩ => rfl
  rw [val_main_v25_apply, val_main_v15_apply, val_main_v12_apply, val_main_v11_apply, val_main_c_1_apply,
    val_main_v3_apply, val_main_v2_apply, e]
  refine if_neg fun h' => ?_
  have h'' : IntOp.cmpi .slt (x1 (bx b n 1)) 0#32 = 1#1 := h'
  rw [IntOp.cmpi_slt] at h''
  rw [IntOp.cmpi_sge] at h
  omega

/-- Column 2 of the start vectors at (b, n) is corner word 2 of box n, when that word is not negative. -/
theorem corner2 (x1 : (⟨S8x128x3, .i32⟩ : BufTy).Contents (Elt F)) (b : Fin 8) (n : Fin 128)
    (h : IntOp.cmpi .sge (x1 (bx b n 2)) 0#32 = 1#1) :
    val_main_v26 (F := F) x1 (col b n) = x1 (bx b n 2) := by
  have e : idx_main_v4 (idx_main_v5 (idx_main_v26 (col b n))) = bx b n 2 := by
    funext a
    apply Fin.ext
    have hb := b.isLt
    have hn := n.isLt
    match a with
    | ⟨0, _⟩ => show (b.val * 128 + n.val) / 128 = b.val; omega
    | ⟨1, _⟩ => show (b.val * 128 + n.val) / 1 % 128 = n.val; omega
    | ⟨2, _⟩ => rfl
  rw [val_main_v26_apply, val_main_v20_apply, val_main_v17_apply, val_main_v16_apply, val_main_c_3_apply,
    val_main_v5_apply, val_main_v4_apply, e]
  refine if_neg fun h' => ?_
  have h'' : IntOp.cmpi .slt (x1 (bx b n 2)) 0#32 = 1#1 := h'
  rw [IntOp.cmpi_slt] at h''
  rw [IntOp.cmpi_sge] at h
  omega

/-- For a word in [0, 96] the gather's clamped signed start is the crop's start. -/
theorem gst_eq (w : BitVec 32) (h0 : IntOp.cmpi .sge w 0#32 = 1#1) (h1 : IntOp.cmpi .sle w 96#32 = 1#1) (i : Fin 32) :
    gst w i = at_ w i :=
  Fin.ext (by
    show min w.toInt.toNat 96 + i.val = min w.toNat 96 + i.val
    rw [(word_range w h0 h1).2, Int.toNat_natCast])

/-- THE REFERENCE'S RESULT IS THE CROP, for corner words in [0, 96]. -/
theorem ref_eq (x0 : (⟨S8x128x128x128x1, .f32⟩ : BufTy).Contents (Elt F)) (x1 : (⟨S8x128x3, .i32⟩ : BufTy).Contents (Elt F))
    (hr : ∀ i : S8x128x3.Idx, IntOp.cmpi .sge (x1 i) 0#32 = 1#1 ∧ IntOp.cmpi .sle (x1 i) 96#32 = 1#1) :
    val_main_v30 (F := F) x0 x1 = crop x0 x1 := by
  funext jj
  obtain ⟨b, n, i, j, k, rfl⟩ : ∃ (b : Fin 8) (n : Fin 128) (i j k : Fin 32), jj = ot b n i j k :=
    ⟨jj 0, jj 1, jj 2, jj 3, jj 4, eq_ot jj⟩
  show Host.gather G x0 (val_main_v29 (F := F) x1) (ot b n i j k) = crop x0 x1 (ot b n i j k)
  rw [gather_read, crop_ot]
  obtain ⟨s0, s1, s2⟩ := start_col x1 b n
  rw [s0, s1, s2, corner0 x1 _ _ (hr _).1, corner1 x1 _ _ (hr _).1, corner2 x1 _ _ (hr _).1,
    gst_eq _ (hr _).1 (hr _).2, gst_eq _ (hr _).1 (hr _).2, gst_eq _ (hr _).1 (hr _).2]

end Cert.ReferenceIdeal.RefValue

end
-- ==== Proof.lean ====
/-
  The kernel crops, for each of 8 volumes [128,128,128,1], 128 boxes of 32×32×32 voxels at start corners (z, y, x)
  read from an integer table; the reference does the same with a clamped dynamic slice per box. Both equal the
  function `Cert.Crop.crop`: out[b, n, i, j, k, 0] = img[b, z + i, y + j, x + k, 0], (z, y, x) = boxes[b, n, :].

  The precondition bounds every corner word to [0, 96]: the corners from which a 32-wide window fits a 128-wide
  axis. Outside that range the kernel's window load leaves the resident volume (the side condition its body
  assumes fails), while the reference wraps and clamps the start; inside it neither the wrap nor the clamp acts.

  Frames: the kernel's two frames are the generated frame under the body's 32 assumed side conditions, which hold
  because each is the room check of three table words, all in [0, 96]; the reference's frame is its run with the
  result dropped. Value: grid point (b, q) leaves tiles 32·q … 32·q + 31 of batch b in its output block, each the
  window of volume b at its box's corner; the 8 × 4 blocks tile the result, which therefore ends at the crop. The
  reference's gather, read at an entry, is the volume at the clamped start plus the offset, and its start vector
  at (b, n) is the corner of box n. No float arithmetic occurs on either side, so finiteness is not used.
-/
import proofs.«428145_j79542794322056_1_alg».proof.Defs
import proofs.«428145_j79542794322056_1_alg».proof.Proof.Gen.Kernel
import proofs.«428145_j79542794322056_1_alg».proof.Proof.Gen.Kernel.Skeleton
import proofs.«428145_j79542794322056_1_alg».proof.Proof.Gen.Kernel.Launch
import proofs.«428145_j79542794322056_1_alg».proof.Proof.Gen.Kernel.Points
import proofs.«428145_j79542794322056_1_alg».proof.Proof.Gen.Kernel.Frame
import proofs.«428145_j79542794322056_1_alg».proof.Proof.Gen.KernelIdeal
import proofs.«428145_j79542794322056_1_alg».proof.Proof.Gen.KernelIdeal.Skeleton
import proofs.«428145_j79542794322056_1_alg».proof.Proof.Gen.KernelIdeal.Launch
import proofs.«428145_j79542794322056_1_alg».proof.Proof.Gen.KernelIdeal.Points
import proofs.«428145_j79542794322056_1_alg».proof.Proof.Gen.KernelIdeal.Frame
import proofs.«428145_j79542794322056_1_alg».proof.Proof.Gen.ReferenceIdeal
import proofs.«428145_j79542794322056_1_alg».proof.Proof.Gen.ReferenceIdeal.Run
import proofs.«428145_j79542794322056_1_alg».proof.Proof.Gen.ReferenceIdeal.Read
import proofs.«428145_j79542794322056_1_alg».proof.Proof.Gen.Pre_finite_inputs
import proofs.«428145_j79542794322056_1_alg».proof.Proof.HypsK
import proofs.«428145_j79542794322056_1_alg».proof.Proof.ArrI
import proofs.«428145_j79542794322056_1_alg».proof.Proof.RefValue
import Idealize.ShloMosaic.Adequacy
import Idealize.ShloMosaic.Init

noncomputable section

namespace Cert.Proof

open Idealize.ShloMosaic Idealize.SL.Sem

/-- The word-level kernel runs: the generated frame, its side conditions from the corner range. -/
theorem frame_k : Cert.frame_Kernel := fun m ρ h =>
  Cert.Kernel.Gen.frame m ρ (Cert.Kernel.HypsOfPre.ok_of_pre m) (Cert.Kernel.HypsOfPre.hyps_of_pre m h)

/-- The idealized kernel runs, likewise. -/
theorem frame_ki : Cert.frame_KernelIdeal := fun m ρ h =>
  Cert.KernelIdeal.Gen.frame m ρ (Cert.KernelIdeal.HypsOfPre.ok_of_pre m) (Cert.KernelIdeal.HypsOfPre.hyps_of_pre m h)

/-- The reference runs: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the crop of the (agreeing) argument arrays. -/
theorem algebraic : Cert.algebraic_KernelIdeal_ReferenceIdeal := by
  intro m ρ m' ρ' hpre hagree
  refine ⟨fun c => Cert.Crop.crop (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arr.run m ρ (Cert.KernelIdeal.HypsOfPre.ok_of_pre m) (Cert.KernelIdeal.HypsOfPre.hyps_of_pre m hpre), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v30_eq, (hagree c).1, (hagree c).2]
  exact Cert.ReferenceIdeal.RefValue.ref_eq _ _ (fun i => Cert.Crop.box_range _ _ (hpre c) i)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
